-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v26_1)) (v1 : (c : Dev Cert.KernelIdeal.nD) → Buf (Elt Ideal) ((c.tc : Thread Cert.KernelIdeal.nD Cert.KernelIdeal.τ).loc Cert.KernelIdeal.main_v31)) (v2 : (c : Dev Cert.KernelIdeal.nD) → Buf (Elt Ideal) ((c.tc : Thread Cert.KernelIdeal.nD Cert.KernelIdeal.τ).loc Cert.KernelIdeal.main_v26_0)) (v3 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26_1) = v0 c
          ∧ r.2.mem ((c.tc : Thread Cert.KernelIdeal.nD Cert.KernelIdeal.τ).loc Cert.KernelIdeal.main_v31) = v1 c
          ∧ r.2.mem ((c.tc : Thread Cert.KernelIdeal.nD Cert.KernelIdeal.τ).loc Cert.KernelIdeal.main_v26_0) = v2 c
          ∧ r.2.mem ((c.tc : Thread Cert.KernelIdeal.nD Cert.KernelIdeal.τ).loc Cert.KernelIdeal.main_v36) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_v15) = v2 c
          ∧ r.2.mem ((c.tc : Thread Cert.ReferenceIdeal.nD Cert.ReferenceIdeal.τ).loc Cert.ReferenceIdeal.main_v87) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S20x256 : Shape := ⟨2, ![20, 256]⟩
abbrev S20 : Shape := ⟨1, ![20]⟩
abbrev S1024x1024 : Shape := ⟨2, ![1024, 1024]⟩
abbrev S1024 : Shape := ⟨1, ![1024]⟩
abbrev S1024x256 : Shape := ⟨2, ![1024, 256]⟩
abbrev S256 : Shape := ⟨1, ![256]⟩
abbrev S1024x84 : Shape := ⟨2, ![1024, 84]⟩
abbrev S84 : Shape := ⟨1, ![84]⟩
abbrev S256x512 : Shape := ⟨2, ![256, 512]⟩
abbrev S512 : Shape := ⟨1, ![512]⟩
abbrev S512x12544 : Shape := ⟨2, ![512, 12544]⟩
abbrev S12544 : Shape := ⟨1, ![12544]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S20x256 : S_.BroadcastsInDim S20x256 (![] : Fin 0 → Fin S20x256.rank)
  reducesTo_S20x256_S_d0_1 : S20x256.ReducesTo [0, 1] S_
  bcast_S_S20 : S_.BroadcastsInDim S20 (![] : Fin 0 → Fin S20.rank)
  reducesTo_S20_S_d0 : S20.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1024x256 : S_.BroadcastsInDim S1024x256 (![] : Fin 0 → Fin S1024x256.rank)
  reducesTo_S1024x256_S_d0_1 : S1024x256.ReducesTo [0, 1] S_
  bcast_S_S256 : S_.BroadcastsInDim S256 (![] : Fin 0 → Fin S256.rank)
  reducesTo_S256_S_d0 : S256.ReducesTo [0] S_
  bcast_S_S1024x84 : S_.BroadcastsInDim S1024x84 (![] : Fin 0 → Fin S1024x84.rank)
  reducesTo_S1024x84_S_d0_1 : S1024x84.ReducesTo [0, 1] S_
  bcast_S_S84 : S_.BroadcastsInDim S84 (![] : Fin 0 → Fin S84.rank)
  reducesTo_S84_S_d0 : S84.ReducesTo [0] S_
  bcast_S_S256x512 : S_.BroadcastsInDim S256x512 (![] : Fin 0 → Fin S256x512.rank)
  reducesTo_S256x512_S_d0_1 : S256x512.ReducesTo [0, 1] S_
  bcast_S_S512 : S_.BroadcastsInDim S512 (![] : Fin 0 → Fin S512.rank)
  reducesTo_S512_S_d0 : S512.ReducesTo [0] S_
  bcast_S_S512x12544 : S_.BroadcastsInDim S512x12544 (![] : Fin 0 → Fin S512x12544.rank)
  reducesTo_S512x12544_S_d0_1 : S512x12544.ReducesTo [0, 1] S_
  bcast_S_S12544 : S_.BroadcastsInDim S12544 (![] : Fin 0 → Fin S12544.rank)
  reducesTo_S12544_S_d0 : S12544.ReducesTo [0] S_

variable [Facts]

def fn_part4 {F : FTy → Type} [FloatOps F] (main_arg14 : FVec F S512x12544 .f32) (main_arg15 : FVec F S12544 .f32) (main_v63 : IVec S_ 1) (main_v67 : IVec S_ 1) : IVec S_ 1 :=
  let main_v68 : IVec S_ 1 := andi main_v63 main_v67
  let main_v69 : FVec F S512x12544 .f32 := Host.absf main_arg14
  let main_cst_26 : FVec F S_ .f32 := constant S_ .f32 0x7F800000#32
  let main_v70 : FVec F S512x12544 .f32 := broadcastInDim S512x12544 ![] bcast_S_S512x12544 main_cst_26
  let main_v71 : IVec S512x12544 1 := cmpf .olt main_v69 main_v70
  let main_c_27 : IVec S_ 1 := constantI S_ 1 1#1
  let main_v72 : IVec S_ 1 := (fun x v => Host.reduce IntOp.andi x v reducesTo_S512x12544_S_d0_1 h_S_) main_v71 main_c_27
  let main_v73 : IVec S_ 1 := andi main_v68 main_v72
  let main_v74 : FVec F S12544 .f32 := Host.absf main_arg15
  let main_cst_28 : FVec F S_ .f32 := constant S_ .f32 0x7F800000#32
  let main_v75 : FVec F S12544 .f32 := broadcastInDim S12544 ![] bcast_S_S12544 main_cst_28
  let main_v76 : IVec S12544 1 := cmpf .olt main_v74 main_v75
  let main_c_29 : IVec S_ 1 := constantI S_ 1 1#1
  let main_v77 : IVec S_ 1 := (fun x v => Host.reduce IntOp.andi x v reducesTo_S12544_S_d0 h_S_) main_v76 main_c_29
  let main_v78 : IVec S_ 1 := andi main_v73 main_v77
  main_v78

def fn_part3 {F : FTy → Type} [FloatOps F] (main_arg11 : FVec F S84 .f32) (main_arg12 : FVec F S256x512 .f32) (main_arg13 : FVec F S512 .f32) (main_arg14 : FVec F S512x12544 .f32) (main_arg15 : FVec F S12544 .f32) (main_v48 : IVec S_ 1) (main_v49 : FVec F S1024x84 .f32) (main_v50 : FVec F S1024x84 .f32) : IVec S_ 1 :=
  let main_v51 : IVec S1024x84 1 := cmpf .olt main_v49 main_v50
  let main_c_19 : IVec S_ 1 := constantI S_ 1 1#1
  let main_v52 : IVec S_ 1 := (fun x v => Host.reduce IntOp.andi x v reducesTo_S1024x84_S_d0_1 h_S_) main_v51 main_c_19
  let main_v53 : IVec S_ 1 := andi main_v48 main_v52
  let main_v54 : FVec F S84 .f32 := Host.absf main_arg11
  let main_cst_20 : FVec F S_ .f32 := constant S_ .f32 0x7F800000#32
  let main_v55 : FVec F S84 .f32 := broadcastInDim S84 ![] bcast_S_S84 main_cst_20
  let main_v56 : IVec S84 1 := cmpf .olt main_v54 main_v55
  let main_c_21 : IVec S_ 1 := constantI S_ 1 1#1
  let main_v57 : IVec S_ 1 := (fun x v => Host.reduce IntOp.andi x v reducesTo_S84_S_d0 h_S_) main_v56 main_c_21
  let main_v58 : IVec S_ 1 := andi main_v53 main_v57
  let main_v59 : FVec F S256x512 .f32 := Host.absf main_arg12
  let main_cst_22 : FVec F S_ .f32 := constant S_ .f32 0x7F800000#32
  let main_v60 : FVec F S256x512 .f32 := broadcastInDim S256x512 ![] bcast_S_S256x512 main_cst_22
  let main_v61 : IVec S256x512 1 := cmpf .olt main_v59 main_v60
  let main_c_23 : IVec S_ 1 := constantI S_ 1 1#1
  let main_v62 : IVec S_ 1 := (fun x v => Host.reduce IntOp.andi x v reducesTo_S256x512_S_d0_1 h_S_) main_v61 main_c_23
  let main_v63 : IVec S_ 1 := andi main_v58 main_v62
  let main_v64 : FVec F S512 .f32 := Host.absf main_arg13
  let main_cst_24 : FVec F S_ .f32 := constant S_ .f32 0x7F800000#32
  let main_v65 : FVec F S512 .f32 := broadcastInDim S512 ![] bcast_S_S512 main_cst_24
  let main_v66 : IVec S512 1 := cmpf .olt main_v64 main_v65
  let main_c_25 : IVec S_ 1 := constantI S_ 1 1#1
  let main_v67 : IVec S_ 1 := (fun x v => Host.reduce IntOp.andi x v reducesTo_S512_S_d0 h_S_) main_v66 main_c_25
  fn_part4 (F := F) main_arg14 main_arg15 main_v63 main_v67

def fn_part2 {F : FTy → Type} [FloatOps F] (main_arg7 : FVec F S256 .f32) (main_arg8 : FVec F S1024x1024 .f32) (main_arg9 : FVec F S1024 .f32) (main_arg10 : FVec F S1024x84 .f32) (main_arg11 : FVec F S84 .f32) (main_arg12 : FVec F S256x512 .f32) (main_arg13 : FVec F S512 .f32) (main_arg14 : FVec F S512x12544 .f32) (main_arg15 : FVec F S12544 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S1024x1024 .f32 := Host.absf main_arg8
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024x84 .f32 := Host.absf main_arg10
  let main_cst_18 : FVec F S_ .f32 := constant S_ .f32 0x7F800000#32
  let main_v50 : FVec F S1024x84 .f32 := broadcastInDim S1024x84 ![] bcast_S_S1024x84 main_cst_18
  fn_part3 (F := F) main_arg11 main_arg12 main_arg13 main_arg14 main_arg15 main_v48 main_v49 main_v50

def fn_part1 {F : FTy → Type} [FloatOps F] (main_arg4 : FVec F S1024x1024 .f32) (main_arg5 : FVec F S1024 .f32) (main_arg6 : FVec F S1024x256 .f32) (main_arg7 : FVec F S256 .f32) (main_arg8 : FVec F S1024x1024 .f32) (main_arg9 : FVec F S1024 .f32) (main_arg10 : FVec F S1024x84 .f32) (main_arg11 : FVec F S84 .f32) (main_arg12 : FVec F S256x512 .f32) (main_arg13 : FVec F S512 .f32) (main_arg14 : FVec F S512x12544 .f32) (main_arg15 : FVec F S12544 .f32) (main_v13 : IVec S_ 1) (main_v16 : IVec S20 1) : IVec S_ 1 :=
  let main_c_5 : IVec S_ 1 := constantI S_ 1 1#1
  let main_v17 : IVec S_ 1 := (fun x v => Host.reduce IntOp.andi x v reducesTo_S20_S_d0 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x256 .f32 := Host.absf main_arg6
  let main_cst_10 : FVec F S_ .f32 := constant S_ .f32 0x7F800000#32
  let main_v30 : FVec F S1024x256 .f32 := broadcastInDim S1024x256 ![] bcast_S_S1024x256 main_cst_10
  let main_v31 : IVec S1024x256 1 := cmpf .olt main_v29 main_v30
  let main_c_11 : IVec S_ 1 := constantI S_ 1 1#1
  let main_v32 : IVec S_ 1 := (fun x v => Host.reduce IntOp.andi x v reducesTo_S1024x256_S_d0_1 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S8192x1024 .f32) (main_arg1 : FVec F S20x256 .f32) (main_arg2 : FVec F S20 .f32) (main_arg3 : FVec F S20 .f32) (main_arg4 : FVec F S1024x1024 .f32) (main_arg5 : FVec F S1024 .f32) (main_arg6 : FVec F S1024x256 .f32) (main_arg7 : FVec F S256 .f32) (main_arg8 : FVec F S1024x1024 .f32) (main_arg9 : FVec F S1024 .f32) (main_arg10 : FVec F S1024x84 .f32) (main_arg11 : FVec F S84 .f32) (main_arg12 : FVec F S256x512 .f32) (main_arg13 : FVec F S512 .f32) (main_arg14 : FVec F S512x12544 .f32) (main_arg15 : FVec F S12544 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S20x256 .f32 := Host.absf main_arg1
  let main_cst_0 : FVec F S_ .f32 := constant S_ .f32 0x7F800000#32
  let main_v5 : FVec F S20x256 .f32 := broadcastInDim S20x256 ![] bcast_S_S20x256 main_cst_0
  let main_v6 : IVec S20x256 1 := cmpf .olt main_v4 main_v5
  let main_c_1 : IVec S_ 1 := constantI S_ 1 1#1
  let main_v7 : IVec S_ 1 := (fun x v => Host.reduce IntOp.andi x v reducesTo_S20x256_S_d0_1 h_S_) main_v6 main_c_1
  let main_v8 : IVec S_ 1 := andi main_v3 main_v7
  let main_v9 : FVec F S20 .f32 := Host.absf main_arg2
  let main_cst_2 : FVec F S_ .f32 := constant S_ .f32 0x7F800000#32
  let main_v10 : FVec F S20 .f32 := broadcastInDim S20 ![] bcast_S_S20 main_cst_2
  let main_v11 : IVec S20 1 := cmpf .olt main_v9 main_v10
  let main_c_3 : IVec S_ 1 := constantI S_ 1 1#1
  let main_v12 : IVec S_ 1 := (fun x v => Host.reduce IntOp.andi x v reducesTo_S20_S_d0 h_S_) main_v11 main_c_3
  let main_v13 : IVec S_ 1 := andi main_v8 main_v12
  let main_v14 : FVec F S20 .f32 := Host.absf main_arg3
  let main_cst_4 : FVec F S_ .f32 := constant S_ .f32 0x7F800000#32
  let main_v15 : FVec F S20 .f32 := broadcastInDim S20 ![] bcast_S_S20 main_cst_4
  let main_v16 : IVec S20 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S8192x1024 : Shape := ⟨2, ![8192, 1024]⟩
abbrev S20x256 : Shape := ⟨2, ![20, 256]⟩
abbrev S20 : Shape := ⟨1, ![20]⟩
abbrev S1024x1024 : Shape := ⟨2, ![1024, 1024]⟩
abbrev S1024 : Shape := ⟨1, ![1024]⟩
abbrev S1024x256 : Shape := ⟨2, ![1024, 256]⟩
abbrev S256 : Shape := ⟨1, ![256]⟩
abbrev S1024x84 : Shape := ⟨2, ![1024, 84]⟩
abbrev S84 : Shape := ⟨1, ![84]⟩
abbrev S256x512 : Shape := ⟨2, ![256, 512]⟩
abbrev S512 : Shape := ⟨1, ![512]⟩
abbrev S512x12544 : Shape := ⟨2, ![512, 12544]⟩
abbrev S12544 : Shape := ⟨1, ![12544]⟩
abbrev S_ : Shape := ⟨0, ![]⟩
abbrev S20x1 : Shape := ⟨2, ![20, 1]⟩
abbrev S1x20 : Shape := ⟨2, ![1, 20]⟩
abbrev S1 : Shape := ⟨1, ![1]⟩
abbrev S1x1024 : Shape := ⟨2, ![1, 1024]⟩
abbrev S1x256 : Shape := ⟨2, ![1, 256]⟩
abbrev S8192x256 : Shape := ⟨2, ![8192, 256]⟩
abbrev S8192x21 : Shape := ⟨2, ![8192, 21]⟩
abbrev S1024x21 : Shape := ⟨2, ![1024, 21]⟩
abbrev S1024x1 : Shape := ⟨2, ![1024, 1]⟩
abbrev S256x20 : Shape := ⟨2, ![256, 20]⟩
abbrev S1024x20 : Shape := ⟨2, ![1024, 20]⟩
abbrev S1x84 : Shape := ⟨2, ![1, 84]⟩
abbrev S8192x84 : Shape := ⟨2, ![8192, 84]⟩
abbrev S1x512 : Shape := ⟨2, ![1, 512]⟩
abbrev S1x12544 : Shape := ⟨2, ![1, 12544]⟩
abbrev S8192x12544 : Shape := ⟨2, ![8192, 12544]⟩
abbrev S128x256 : Shape := ⟨2, ![128, 256]⟩
abbrev S128x12544 : Shape := ⟨2, ![128, 12544]⟩
abbrev S128x512 : Shape := ⟨2, ![128, 512]⟩

abbrev nBuf : Space → Nat
  | .hbm => 63
  | .vmem => 30
  | .smem => 0
  | _ => 0

abbrev bufTy : (tb : Table) → Fin (tcTables nBuf tb) → BufTy
  | .hbm, ⟨0, _⟩ => ⟨S8192x1024, .f32⟩
  | .hbm, ⟨1, _⟩ => ⟨S20x256, .f32⟩
  | .hbm, ⟨2, _⟩ => ⟨S20, .f32⟩
  | .hbm, ⟨3, _⟩ => ⟨S20, .f32⟩
  | .hbm, ⟨4, _⟩ => ⟨S1024x1024, .f32⟩
  | .hbm, ⟨5, _⟩ => ⟨S1024, .f32⟩
  | .hbm, ⟨6, _⟩ => ⟨S1024x256, .f32⟩
  | .hbm, ⟨7, _⟩ => ⟨S256, .f32⟩
  | .hbm, ⟨8, _⟩ => ⟨S1024x1024, .f32⟩
  | .hbm, ⟨9, _⟩ => ⟨S1024, .f32⟩
  | .hbm, ⟨10, _⟩ => ⟨S1024x84, .f32⟩
  | .hbm, ⟨11, _⟩ => ⟨S84, .f32⟩
  | .hbm, ⟨12, _⟩ => ⟨S256x512, .f32⟩
  | .hbm, ⟨13, _⟩ => ⟨S512, .f32⟩
  | .hbm, ⟨14, _⟩ => ⟨S512x12544, .f32⟩
  | .hbm, ⟨15, _⟩ => ⟨S12544, .f32⟩
  | .hbm, ⟨16, _⟩ => ⟨S20x256, .f32⟩
  | .hbm, ⟨17, _⟩ => ⟨S_, .f32⟩
  | .hbm, ⟨18, _⟩ => ⟨S20, .f32⟩
  | .hbm, ⟨19, _⟩ => ⟨S20x1, .f32⟩
  | .hbm, ⟨20, _⟩ => ⟨S20x1, .f32⟩
  | .hbm, ⟨21, _⟩ => ⟨S20x256, .f32⟩
  | .hbm, ⟨22, _⟩ => ⟨S20x256, .f32⟩
  | .hbm, ⟨23, _⟩ => ⟨S20x256, .f32⟩
  | .hbm, ⟨24, _⟩ => ⟨S_, .f32⟩
  | .hbm, ⟨25, _⟩ => ⟨S20, .f32⟩
  | .hbm, ⟨26, _⟩ => ⟨S1x20, .f32⟩
  | .hbm, ⟨27, _⟩ => ⟨S20, .f32⟩
  | .hbm, ⟨28, _⟩ => ⟨S1x20, .f32⟩
  | .hbm, ⟨29, _⟩ => ⟨S_, .f32⟩
  | .hbm, ⟨30, _⟩ => ⟨S_, .f32⟩
  | .hbm, ⟨31, _⟩ => ⟨S20, .f32⟩
  | .hbm, ⟨32, _⟩ => ⟨S20, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S1, .f32⟩
  | .hbm, ⟨38, _⟩ => ⟨S20, .f32⟩
  | .hbm, ⟨39, _⟩ => ⟨S20, .f32⟩
  | .hbm, ⟨40, _⟩ => ⟨S20, .f32⟩
  | .hbm, ⟨41, _⟩ => ⟨S_, .f32⟩
  | .hbm, ⟨42, _⟩ => ⟨S_, .f32⟩
  | .hbm, ⟨43, _⟩ => ⟨S1, .f32⟩
  | .hbm, ⟨44, _⟩ => ⟨S20, .f32⟩
  | .hbm, ⟨45, _⟩ => ⟨S20, .f32⟩
  | .hbm, ⟨46, _⟩ => ⟨S1x20, .f32⟩
  | .hbm, ⟨47, _⟩ => ⟨S1024x1024, .bf16⟩
  | .hbm, ⟨48, _⟩ => ⟨S1024x256, .bf16⟩
  | .hbm, ⟨49, _⟩ => ⟨S1x1024, .f32⟩
  | .hbm, ⟨50, _⟩ => ⟨S1x256, .f32⟩
  | .hbm, ⟨51, _⟩ => ⟨S8192x256, .f32⟩
  | .hbm, ⟨52, _⟩ => ⟨S8192x21, .f32⟩
  | .hbm, ⟨53, _⟩ => ⟨S1024x1024, .bf16⟩
  | .hbm, ⟨54, _⟩ => ⟨S1024x84, .bf16⟩
  | .hbm, ⟨55, _⟩ => ⟨S1x1024, .f32⟩
  | .hbm, ⟨56, _⟩ => ⟨S1x84, .f32⟩
  | .hbm, ⟨57, _⟩ => ⟨S8192x84, .f32⟩
  | .hbm, ⟨58, _⟩ => ⟨S256x512, .bf16⟩
  | .hbm, ⟨59, _⟩ => ⟨S512x12544, .bf16⟩
  | .hbm, ⟨60, _⟩ => ⟨S1x512, .f32⟩
  | .hbm, ⟨61, _⟩ => ⟨S1x12544, .f32⟩
  | .hbm, ⟨62, _⟩ => ⟨S8192x12544, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1x1024, .f32⟩
  | .local _ .vmem, ⟨4, _⟩ => ⟨S1024x256, .bf16⟩
  | .local _ .vmem, ⟨5, _⟩ => ⟨S1x256, .f32⟩
  | .local _ .vmem, ⟨6, _⟩ => ⟨S20x256, .f32⟩
  | .local _ .vmem, ⟨7, _⟩ => ⟨S1x20, .f32⟩
  | .local _ .vmem, ⟨8, _⟩ => ⟨S1x20, .f32⟩
  | .local _ .vmem, ⟨9, _⟩ => ⟨S1x20, .f32⟩
  | .local _ .vmem, ⟨10, _⟩ => ⟨S1024x256, .f32⟩
  | .local _ .vmem, ⟨11, _⟩ => ⟨S1024x256, .f32⟩
  | .local _ .vmem, ⟨12, _⟩ => ⟨S1024x21, .f32⟩
  | .local _ .vmem, ⟨13, _⟩ => ⟨S1024x21, .f32⟩
  | .local _ .vmem, ⟨14, _⟩ => ⟨S1024x1024, .f32⟩
  | .local _ .vmem, ⟨15, _⟩ => ⟨S1024x1024, .f32⟩
  | .local _ .vmem, ⟨16, _⟩ => ⟨S1024x1024, .bf16⟩
  | .local _ .vmem, ⟨17, _⟩ => ⟨S1x1024, .f32⟩
  | .local _ .vmem, ⟨18, _⟩ => ⟨S1024x84, .bf16⟩
  | .local _ .vmem, ⟨19, _⟩ => ⟨S1x84, .f32⟩
  | .local _ .vmem, ⟨20, _⟩ => ⟨S1024x84, .f32⟩
  | .local _ .vmem, ⟨21, _⟩ => ⟨S1024x84, .f32⟩
  | .local _ .vmem, ⟨22, _⟩ => ⟨S128x256, .f32⟩
  | .local _ .vmem, ⟨23, _⟩ => ⟨S128x256, .f32⟩
  | .local _ .vmem, ⟨24, _⟩ => ⟨S256x512, .bf16⟩
  | .local _ .vmem, ⟨25, _⟩ => ⟨S1x512, .f32⟩
  | .local _ .vmem, ⟨26, _⟩ => ⟨S512x12544, .bf16⟩
  | .local _ .vmem, ⟨27, _⟩ => ⟨S1x12544, .f32⟩
  | .local _ .vmem, ⟨28, _⟩ => ⟨S128x12544, .f32⟩
  | .local _ .vmem, ⟨29, _⟩ => ⟨S128x12544, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_call0_v0 : Ref sig .tc := ⟨.hbm, 16, rfl⟩
abbrev main_call0_cst : Ref sig .tc := ⟨.hbm, 17, rfl⟩
abbrev main_call0_v1 : Ref sig .tc := ⟨.hbm, 18, rfl⟩
abbrev main_call0_v2 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_cst : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_cst_0 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_cst_1 : Ref sig .tc := ⟨.hbm, 33, rfl⟩
abbrev main_v11 : Ref sig .tc := ⟨.hbm, 34, rfl⟩
abbrev main_cst_2 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_cst_3 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26_0 : Ref sig .tc := ⟨.hbm, 51, rfl⟩
abbrev main_v26_1 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg5_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg5_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc1_sem0_0 : DmaSem sig := 14
abbrev cc1_sem0_1 : DmaSem sig := 15
abbrev cc1_sem1_0 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem5_1 : DmaSem sig := 21
abbrev cc2_sem0_0 : DmaSem sig := 22
abbrev cc2_sem0_1 : DmaSem sig := 23
abbrev cc2_sem1_0 : DmaSem sig := 24
abbrev cc2_sem2_0 : DmaSem sig := 25
abbrev cc2_sem3_0 : DmaSem sig := 26
abbrev cc2_sem4_0 : DmaSem sig := 27
abbrev cc2_sem5_0 : DmaSem sig := 28
abbrev cc2_sem5_1 : DmaSem sig := 29

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S20x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x20 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x20 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x20 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x21 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1024x84 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x84 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1024x84 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![64], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S128x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x512 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S512x12544 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x12544 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S128x12544 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  reducesTo_S20x256_S20_d1 : S20x256.ReducesTo [1] S20
  h_S_ : 0 < S_.numel
  bcast_S20_S20x1_0 : S20.BroadcastsInDim S20x1 (![0] : Fin 1 → Fin S20x1.rank)
  bcast_S20x1_S20x256_0_1 : S20x1.BroadcastsInDim S20x256 (![0, 1] : Fin 2 → Fin S20x256.rank)
  shapeCasts_S20_S1x20 : S20.ShapeCasts S1x20
  reducesTo_S20_S_d0 : S20.ReducesTo [0] S_
  bcast_S_S20 : S_.BroadcastsInDim S20 (![] : Fin 0 → Fin S20.rank)
  bcast_S_S1 : S_.BroadcastsInDim S1 (![] : Fin 0 → Fin S1.rank)
  bcast_S1_S20_0 : S1.BroadcastsInDim S20 (![0] : Fin 1 → Fin S20.rank)
  bitsLt_bf16_f32 : FTy.bits .bf16 < FTy.bits .f32
  shapeCasts_S1024_S1x1024 : S1024.ShapeCasts S1x1024
  shapeCasts_S256_S1x256 : S256.ShapeCasts S1x256
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  reduces_S1024x256_S1024 : S1024x256.Reduces [1] S1024
  shapeCasts_S1024_S1024x1 : S1024.ShapeCasts S1024x1
  broadcasts_S1024x1_S1024x256 : S1024x1.Broadcasts S1024x256
  inb_S20x256_S20x256_0_0 : ∀ a, (![0, 0] : Fin 2 → Nat) a + S20x256.size a ≤ S20x256.size a
  h_S20x256 : 0 < S20x256.numel
  shapeCasts_S20x256_S20x256 : S20x256.ShapeCasts S20x256
  inb_S1x20_S1x20_0_0 : ∀ a, (![0, 0] : Fin 2 → Nat) a + S1x20.size a ≤ S1x20.size a
  h_S1x20 : 0 < S1x20.numel
  shapeCasts_S1x20_S1x20 : S1x20.ShapeCasts S1x20
  transposes_S20x256_p1_0_S256x20 : S20x256.Transposes [1, 0] S256x20
  broadcasts_S1024x1_S1024x20 : S1024x1.Broadcasts S1024x20
  broadcasts_S1x20_S1024x20 : S1x20.Broadcasts S1024x20
  reduces_S1024x20_S1024 : S1024x20.Reduces [1] S1024
  inb_S1024x21_S1024x1_0_0 : ∀ a, (![0, 0] : Fin 2 → Nat) a + S1024x1.size a ≤ S1024x21.size a
  h_S1024x1 : 0 < S1024x1.numel
  inb_S1024x21_S1024x20_0_1 : ∀ a, (![0, 1] : Fin 2 → Nat) a + S1024x20.size a ≤ S1024x21.size a
  h_S1024x20 : 0 < S1024x20.numel
  shapeCasts_S84_S1x84 : S84.ShapeCasts S1x84
  inb_S1024x84_S1024x84_0_0 : ∀ a, (![0, 0] : Fin 2 → Nat) a + S1024x84.size a ≤ S1024x84.size a
  h_S1024x84 : 0 < S1024x84.numel
  shapeCasts_S1024x84_S1024x84 : S1024x84.ShapeCasts S1024x84
  inb_S1x84_S1x84_0_0 : ∀ a, (![0, 0] : Fin 2 → Nat) a + S1x84.size a ≤ S1x84.size a
  h_S1x84 : 0 < S1x84.numel
  shapeCasts_S1x84_S1x84 : S1x84.ShapeCasts S1x84
  broadcasts_S1x84_S1024x84 : S1x84.Broadcasts S1024x84
  shapeCasts_S512_S1x512 : S512.ShapeCasts S1x512
  shapeCasts_S12544_S1x12544 : S12544.ShapeCasts S1x12544
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S128x512 : S1x512.Broadcasts S128x512
  inb_S512x12544_S512x12544_0_0 : ∀ a, (![0, 0] : Fin 2 → Nat) a + S512x12544.size a ≤ S512x12544.size a
  h_S512x12544 : 0 < S512x12544.numel
  shapeCasts_S512x12544_S512x12544 : S512x12544.ShapeCasts S512x12544
  inb_S1x12544_S1x12544_0_0 : ∀ a, (![0, 0] : Fin 2 → Nat) a + S1x12544.size a ≤ S1x12544.size a
  h_S1x12544 : 0 < S1x12544.numel
  shapeCasts_S1x12544_S1x12544 : S1x12544.ShapeCasts S1x12544
  broadcasts_S1x12544_S128x12544 : S1x12544.Broadcasts S128x12544
  inb_S128x12544_S128x12544_0_0 : ∀ a, (![0, 0] : Fin 2 → Nat) a + S128x12544.size a ≤ S128x12544.size a
  h_S128x12544 : 0 < S128x12544.numel
  dot_S1024x1024_S1024x1024_S1024x1024_1_0_0_1_n_n_wf : DotDims.WF S1024x1024 S1024x1024 S1024x1024 [1] [0] [0] [1] [] []
  dot_S1024x1024_S1024x256_S1024x256_1_0_0_1_n_n_wf : DotDims.WF S1024x1024 S1024x256 S1024x256 [1] [0] [0] [1] [] []
  dot_S1024x256_S256x20_S1024x20_1_0_0_1_n_n_wf : DotDims.WF S1024x256 S256x20 S1024x20 [1] [0] [0] [1] [] []
  dot_S1024x1024_S1024x84_S1024x84_1_0_0_1_n_n_wf : DotDims.WF S1024x1024 S1024x84 S1024x84 [1] [0] [0] [1] [] []
  dot_S128x256_S256x512_S128x512_1_0_0_1_n_n_wf : DotDims.WF S128x256 S256x512 S128x512 [1] [0] [0] [1] [] []
  dot_S128x512_S512x12544_S128x12544_1_0_0_1_n_n_wf : DotDims.WF S128x512 S512x12544 S128x12544 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S1024x256.size a
  hwx0_3 : ∀ i : grid0.Coords, EltTy.bits .bf16 = 32 ∨ (Rect.block (s := S1024x256) S1024x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S20x256.size a ≤ S20x256.size a
  hwx0_5 : ∀ i : grid0.Coords, EltTy.bits .f32 = 32 ∨ (Rect.block (s := S20x256) S20x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x20.size a ≤ S1x20.size a
  hwx0_6 : ∀ i : grid0.Coords, EltTy.bits .f32 = 32 ∨ (Rect.block (s := S1x20) S1x20.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x20.size a ≤ S1x20.size a
  hwx0_7 : ∀ i : grid0.Coords, EltTy.bits .f32 = 32 ∨ (Rect.block (s := S1x20) S1x20.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x20.size a ≤ S1x20.size a
  hwx0_8 : ∀ i : grid0.Coords, EltTy.bits .f32 = 32 ∨ (Rect.block (s := S1x20) S1x20.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x256.size a ≤ S8192x256.size a
  hwx0_9 : ∀ i : grid0.Coords, EltTy.bits .f32 = 32 ∨ (Rect.block (s := S8192x256) S1024x256.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1024x21.size a ≤ S8192x21.size a
  hwx0_10 : ∀ i : grid0.Coords, EltTy.bits .f32 = 32 ∨ (Rect.block (s := S8192x21) S1024x21.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x1024.size a
  hwx1_0 : ∀ i : grid1.Coords, EltTy.bits .f32 = 32 ∨ (Rect.block (s := S8192x1024) S1024x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x84.size a ≤ S1024x84.size a
  hwx1_3 : ∀ i : grid1.Coords, EltTy.bits .bf16 = 32 ∨ (Rect.block (s := S1024x84) S1024x84.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x84.size a ≤ S1x84.size a
  hwx1_4 : ∀ i : grid1.Coords, EltTy.bits .f32 = 32 ∨ (Rect.block (s := S1x84) S1x84.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x84.size a ≤ S8192x84.size a
  hwx1_5 : ∀ i : grid1.Coords, EltTy.bits .f32 = 32 ∨ (Rect.block (s := S8192x84) S1024x84.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S128x256.size a ≤ S8192x256.size a
  hwx2_0 : ∀ i : grid2.Coords, EltTy.bits .f32 = 32 ∨ (Rect.block (s := S8192x256) S128x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x512.size a ≤ S256x512.size a
  hwx2_1 : ∀ i : grid2.Coords, EltTy.bits .bf16 = 32 ∨ (Rect.block (s := S256x512) S256x512.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x512.size a ≤ S1x512.size a
  hwx2_2 : ∀ i : grid2.Coords, EltTy.bits .f32 = 32 ∨ (Rect.block (s := S1x512) S1x512.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S512x12544.size a ≤ S512x12544.size a
  hwx2_3 : ∀ i : grid2.Coords, EltTy.bits .bf16 = 32 ∨ (Rect.block (s := S512x12544) S512x12544.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x12544.size a ≤ S1x12544.size a
  hwx2_4 : ∀ i : grid2.Coords, EltTy.bits .f32 = 32 ∨ (Rect.block (s := S1x12544) S1x12544.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S128x12544.size a ≤ S8192x12544.size a
  hwx2_5 : ∀ i : grid2.Coords, EltTy.bits .f32 = 32 ∨ (Rect.block (s := S8192x12544) S128x12544.size (cc2_transform_5 i) (hinb2_5 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S1024x256_S256x20_S1024x20_1_0_0_1_n_n : DotDims S1024x256 S256x20 S1024x20 where
  lhsContracting := [1]
  rhsContracting := [0]
  lhsNonContracting := [0]
  rhsNonContracting := [1]
  lhsBatch := []
  rhsBatch := []
  wf := dot_S1024x256_S256x20_S1024x20_1_0_0_1_n_n_wf
def dot_S1024x1024_S1024x84_S1024x84_1_0_0_1_n_n : DotDims S1024x1024 S1024x84 S1024x84 where
  lhsContracting := [1]
  rhsContracting := [0]
  lhsNonContracting := [0]
  rhsNonContracting := [1]
  lhsBatch := []
  rhsBatch := []
  wf := dot_S1024x1024_S1024x84_S1024x84_1_0_0_1_n_n_wf
def dot_S128x256_S256x512_S128x512_1_0_0_1_n_n : DotDims S128x256 S256x512 S128x512 where
  lhsContracting := [1]
  rhsContracting := [0]
  lhsNonContracting := [0]
  rhsNonContracting := [1]
  lhsBatch := []
  rhsBatch := []
  wf := dot_S128x256_S256x512_S128x512_1_0_0_1_n_n_wf
def dot_S128x512_S512x12544_S128x12544_1_0_0_1_n_n : DotDims S128x512 S512x12544 S128x12544 where
  lhsContracting := [1]
  rhsContracting := [0]
  lhsNonContracting := [0]
  rhsNonContracting := [1]
  lhsBatch := []
  rhsBatch := []
  wf := dot_S128x512_S512x12544_S128x12544_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v24) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1024x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S20x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x20.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S1x20.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v21) S1x20.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v26_0) S1024x256.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v26_1) S1024x21.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_arg0) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v29) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v28) S1024x84.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S1x84.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S1024x84.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v26_0) S128x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v32) S256x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v34) S1x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v33) S512x12544.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v35) S1x12544.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v36) S128x12544.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S8192x1024 : Shape := ⟨2, ![8192, 1024]⟩
abbrev S20x256 : Shape := ⟨2, ![20, 256]⟩
abbrev S20 : Shape := ⟨1, ![20]⟩
abbrev S1024x1024 : Shape := ⟨2, ![1024, 1024]⟩
abbrev S1024 : Shape := ⟨1, ![1024]⟩
abbrev S1024x256 : Shape := ⟨2, ![1024, 256]⟩
abbrev S256 : Shape := ⟨1, ![256]⟩
abbrev S1024x84 : Shape := ⟨2, ![1024, 84]⟩
abbrev S84 : Shape := ⟨1, ![84]⟩
abbrev S256x512 : Shape := ⟨2, ![256, 512]⟩
abbrev S512 : Shape := ⟨1, ![512]⟩
abbrev S512x12544 : Shape := ⟨2, ![512, 12544]⟩
abbrev S12544 : Shape := ⟨1, ![12544]⟩
abbrev S1x1024 : Shape := ⟨2, ![1, 1024]⟩
abbrev S_ : Shape := ⟨0, ![]⟩
abbrev S8192x256 : Shape := ⟨2, ![8192, 256]⟩
abbrev S1x256 : Shape := ⟨2, ![1, 256]⟩
abbrev S8192 : Shape := ⟨1, ![8192]⟩
abbrev S8192x1 : Shape := ⟨2, ![8192, 1]⟩
abbrev S8192x84 : Shape := ⟨2, ![8192, 84]⟩
abbrev S1x84 : Shape := ⟨2, ![1, 84]⟩
abbrev S20x1 : Shape := ⟨2, ![20, 1]⟩
abbrev S1x20 : Shape := ⟨2, ![1, 20]⟩
abbrev S8192x20 : Shape := ⟨2, ![8192, 20]⟩
abbrev S256x20 : Shape := ⟨2, ![256, 20]⟩
abbrev S1 : Shape := ⟨1, ![1]⟩
abbrev S8192x21 : Shape := ⟨2, ![8192, 21]⟩
abbrev S8192x512 : Shape := ⟨2, ![8192, 512]⟩
abbrev S1x512 : Shape := ⟨2, ![1, 512]⟩
abbrev S8192x12544 : Shape := ⟨2, ![8192, 12544]⟩
abbrev S1x12544 : Shape := ⟨2, ![1, 12544]⟩

abbrev nBuf : Space → Nat
  | .hbm => 128
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S20x256, .f32⟩
  | .hbm, ⟨2, _⟩ => ⟨S20, .f32⟩
  | .hbm, ⟨3, _⟩ => ⟨S20, .f32⟩
  | .hbm, ⟨4, _⟩ => ⟨S1024x1024, .f32⟩
  | .hbm, ⟨5, _⟩ => ⟨S1024, .f32⟩
  | .hbm, ⟨6, _⟩ => ⟨S1024x256, .f32⟩
  | .hbm, ⟨7, _⟩ => ⟨S256, .f32⟩
  | .hbm, ⟨8, _⟩ => ⟨S1024x1024, .f32⟩
  | .hbm, ⟨9, _⟩ => ⟨S1024, .f32⟩
  | .hbm, ⟨10, _⟩ => ⟨S1024x84, .f32⟩
  | .hbm, ⟨11, _⟩ => ⟨S84, .f32⟩
  | .hbm, ⟨12, _⟩ => ⟨S256x512, .f32⟩
  | .hbm, ⟨13, _⟩ => ⟨S512, .f32⟩
  | .hbm, ⟨14, _⟩ => ⟨S512x12544, .f32⟩
  | .hbm, ⟨15, _⟩ => ⟨S12544, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192x1024, .f32⟩
  | .hbm, ⟨22, _⟩ => ⟨S8192x1024, .i1⟩
  | .hbm, ⟨23, _⟩ => ⟨S_, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x256, .f32⟩
  | .hbm, ⟨28, _⟩ => ⟨S1x256, .f32⟩
  | .hbm, ⟨29, _⟩ => ⟨S8192x256, .f32⟩
  | .hbm, ⟨30, _⟩ => ⟨S8192x256, .f32⟩
  | .hbm, ⟨31, _⟩ => ⟨S8192x256, .f32⟩
  | .hbm, ⟨32, _⟩ => ⟨S_, .f32⟩
  | .hbm, ⟨33, _⟩ => ⟨S8192, .f32⟩
  | .hbm, ⟨34, _⟩ => ⟨S8192x1, .f32⟩
  | .hbm, ⟨35, _⟩ => ⟨S8192x1, .f32⟩
  | .hbm, ⟨36, _⟩ => ⟨S8192x256, .f32⟩
  | .hbm, ⟨37, _⟩ => ⟨S8192x256, .f32⟩
  | .hbm, ⟨38, _⟩ => ⟨S8192x1024, .f32⟩
  | .hbm, ⟨39, _⟩ => ⟨S1x1024, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S8192x1024, .f32⟩
  | .hbm, ⟨44, _⟩ => ⟨S8192x1024, .i1⟩
  | .hbm, ⟨45, _⟩ => ⟨S_, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x84, .f32⟩
  | .hbm, ⟨50, _⟩ => ⟨S1x84, .f32⟩
  | .hbm, ⟨51, _⟩ => ⟨S8192x84, .f32⟩
  | .hbm, ⟨52, _⟩ => ⟨S8192x84, .f32⟩
  | .hbm, ⟨53, _⟩ => ⟨S20x256, .f32⟩
  | .hbm, ⟨54, _⟩ => ⟨S_, .f32⟩
  | .hbm, ⟨55, _⟩ => ⟨S20, .f32⟩
  | .hbm, ⟨56, _⟩ => ⟨S20x1, .f32⟩
  | .hbm, ⟨57, _⟩ => ⟨S20x1, .f32⟩
  | .hbm, ⟨58, _⟩ => ⟨S20x256, .f32⟩
  | .hbm, ⟨59, _⟩ => ⟨S20x256, .f32⟩
  | .hbm, ⟨60, _⟩ => ⟨S8192x256, .f32⟩
  | .hbm, ⟨61, _⟩ => ⟨S_, .f32⟩
  | .hbm, ⟨62, _⟩ => ⟨S8192, .f32⟩
  | .hbm, ⟨63, _⟩ => ⟨S8192x1, .f32⟩
  | .hbm, ⟨64, _⟩ => ⟨S20x256, .f32⟩
  | .hbm, ⟨65, _⟩ => ⟨S_, .f32⟩
  | .hbm, ⟨66, _⟩ => ⟨S20, .f32⟩
  | .hbm, ⟨67, _⟩ => ⟨S1x20, .f32⟩
  | .hbm, ⟨68, _⟩ => ⟨S8192x20, .f32⟩
  | .hbm, ⟨69, _⟩ => ⟨S8192x20, .f32⟩
  | .hbm, ⟨70, _⟩ => ⟨S8192x20, .f32⟩
  | .hbm, ⟨71, _⟩ => ⟨S256x20, .f32⟩
  | .hbm, ⟨72, _⟩ => ⟨S8192x20, .f32⟩
  | .hbm, ⟨73, _⟩ => ⟨S_, .f32⟩
  | .hbm, ⟨74, _⟩ => ⟨S8192x20, .f32⟩
  | .hbm, ⟨75, _⟩ => ⟨S8192x20, .f32⟩
  | .hbm, ⟨76, _⟩ => ⟨S8192x20, .f32⟩
  | .hbm, ⟨77, _⟩ => ⟨S8192x20, .f32⟩
  | .hbm, ⟨78, _⟩ => ⟨S_, .f32⟩
  | .hbm, ⟨79, _⟩ => ⟨S8192x20, .f32⟩
  | .hbm, ⟨80, _⟩ => ⟨S8192x20, .f32⟩
  | .hbm, ⟨81, _⟩ => ⟨S1x20, .f32⟩
  | .hbm, ⟨82, _⟩ => ⟨S1x20, .f32⟩
  | .hbm, ⟨83, _⟩ => ⟨S8192x20, .f32⟩
  | .hbm, ⟨84, _⟩ => ⟨S8192x20, .f32⟩
  | .hbm, ⟨85, _⟩ => ⟨S8192x20, .f32⟩
  | .hbm, ⟨86, _⟩ => ⟨S_, .f32⟩
  | .hbm, ⟨87, _⟩ => ⟨S_, .f32⟩
  | .hbm, ⟨88, _⟩ => ⟨S20, .f32⟩
  | .hbm, ⟨89, _⟩ => ⟨S20, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S1, .f32⟩
  | .hbm, ⟨95, _⟩ => ⟨S20, .f32⟩
  | .hbm, ⟨96, _⟩ => ⟨S20, .f32⟩
  | .hbm, ⟨97, _⟩ => ⟨S20, .f32⟩
  | .hbm, ⟨98, _⟩ => ⟨S_, .f32⟩
  | .hbm, ⟨99, _⟩ => ⟨S_, .f32⟩
  | .hbm, ⟨100, _⟩ => ⟨S1, .f32⟩
  | .hbm, ⟨101, _⟩ => ⟨S20, .f32⟩
  | .hbm, ⟨102, _⟩ => ⟨S20, .f32⟩
  | .hbm, ⟨103, _⟩ => ⟨S1x20, .f32⟩
  | .hbm, ⟨104, _⟩ => ⟨S8192x20, .f32⟩
  | .hbm, ⟨105, _⟩ => ⟨S8192x20, .f32⟩
  | .hbm, ⟨106, _⟩ => ⟨S_, .f32⟩
  | .hbm, ⟨107, _⟩ => ⟨S8192, .f32⟩
  | .hbm, ⟨108, _⟩ => ⟨S8192x1, .f32⟩
  | .hbm, ⟨109, _⟩ => ⟨S_, .f32⟩
  | .hbm, ⟨110, _⟩ => ⟨S8192x1, .f32⟩
  | .hbm, ⟨111, _⟩ => ⟨S8192x1, .f32⟩
  | .hbm, ⟨112, _⟩ => ⟨S8192x21, .f32⟩
  | .hbm, ⟨113, _⟩ => ⟨S8192x512, .f32⟩
  | .hbm, ⟨114, _⟩ => ⟨S1x512, .f32⟩
  | .hbm, ⟨115, _⟩ => ⟨S8192x512, .f32⟩
  | .hbm, ⟨116, _⟩ => ⟨S8192x512, .f32⟩
  | .hbm, ⟨117, _⟩ => ⟨S_, .f32⟩
  | .hbm, ⟨118, _⟩ => ⟨S8192x512, .f32⟩
  | .hbm, ⟨119, _⟩ => ⟨S8192x512, .i1⟩
  | .hbm, ⟨120, _⟩ => ⟨S_, .f32⟩
  | .hbm, ⟨121, _⟩ => ⟨S8192x512, .f32⟩
  | .hbm, ⟨122, _⟩ => ⟨S8192x512, .f32⟩
  | .hbm, ⟨123, _⟩ => ⟨S8192x512, .f32⟩
  | .hbm, ⟨124, _⟩ => ⟨S8192x12544, .f32⟩
  | .hbm, ⟨125, _⟩ => ⟨S1x12544, .f32⟩
  | .hbm, ⟨126, _⟩ => ⟨S8192x12544, .f32⟩
  | .hbm, ⟨127, _⟩ => ⟨S8192x12544, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_v5 : Ref sig .tc := ⟨.hbm, 22, rfl⟩
abbrev main_cst_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_call1_v0 : Ref sig .tc := ⟨.hbm, 31, rfl⟩
abbrev main_call1_cst : Ref sig .tc := ⟨.hbm, 32, rfl⟩
abbrev main_call1_v1 : Ref sig .tc := ⟨.hbm, 33, rfl⟩
abbrev main_call1_v2 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst_1 : Ref sig .tc := ⟨.hbm, 42, rfl⟩
abbrev main_v20 : Ref sig .tc := ⟨.hbm, 43, rfl⟩
abbrev main_v21 : Ref sig .tc := ⟨.hbm, 44, rfl⟩
abbrev main_cst_2 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_call3_v0 : Ref sig .tc := ⟨.hbm, 53, rfl⟩
abbrev main_call3_cst : Ref sig .tc := ⟨.hbm, 54, rfl⟩
abbrev main_call3_v1 : Ref sig .tc := ⟨.hbm, 55, rfl⟩
abbrev main_call3_v2 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_cst_3 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_cst_4 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_cst_5 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_cst_6 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_cst_7 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_cst_8 : Ref sig .tc := ⟨.hbm, 90, rfl⟩
abbrev main_v57 : Ref sig .tc := ⟨.hbm, 91, rfl⟩
abbrev main_cst_9 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_cst_10 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_cst_11 : Ref sig .tc := ⟨.hbm, 106, rfl⟩
abbrev main_v70 : Ref sig .tc := ⟨.hbm, 107, rfl⟩
abbrev main_v71 : Ref sig .tc := ⟨.hbm, 108, rfl⟩
abbrev main_cst_12 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_cst_13 : Ref sig .tc := ⟨.hbm, 117, rfl⟩
abbrev main_v79 : Ref sig .tc := ⟨.hbm, 118, rfl⟩
abbrev main_v80 : Ref sig .tc := ⟨.hbm, 119, rfl⟩
abbrev main_cst_14 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  bcast_S_S8192x1024 : S_.BroadcastsInDim S8192x1024 (![] : Fin 0 → Fin S8192x1024.rank)
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S8192x1_S8192x256_0_1 : S8192x1.BroadcastsInDim S8192x256 (![0, 1] : Fin 2 → Fin S8192x256.rank)
  bcast_S84_S1x84_1 : S84.BroadcastsInDim S1x84 (![1] : Fin 1 → Fin S1x84.rank)
  bcast_S1x84_S8192x84_0_1 : S1x84.BroadcastsInDim S8192x84 (![0, 1] : Fin 2 → Fin S8192x84.rank)
  reducesTo_S20x256_S20_d1 : S20x256.ReducesTo [1] S20
  bcast_S20_S20x1_0 : S20.BroadcastsInDim S20x1 (![0] : Fin 1 → Fin S20x1.rank)
  bcast_S20x1_S20x256_0_1 : S20x1.BroadcastsInDim S20x256 (![0, 1] : Fin 2 → Fin S20x256.rank)
  bcast_S20_S1x20_1 : S20.BroadcastsInDim S1x20 (![1] : Fin 1 → Fin S1x20.rank)
  bcast_S8192x1_S8192x20_0_1 : S8192x1.BroadcastsInDim S8192x20 (![0, 1] : Fin 2 → Fin S8192x20.rank)
  bcast_S1x20_S8192x20_0_1 : S1x20.BroadcastsInDim S8192x20 (![0, 1] : Fin 2 → Fin S8192x20.rank)
  transposes_S20x256_S256x20_1_0 : S20x256.Transposes [1, 0] S256x20
  bcast_S_S8192x20 : S_.BroadcastsInDim S8192x20 (![] : Fin 0 → Fin S8192x20.rank)
  reducesTo_S20_S_d0 : S20.ReducesTo [0] S_
  bcast_S_S20 : S_.BroadcastsInDim S20 (![] : Fin 0 → Fin S20.rank)
  bcast_S_S1 : S_.BroadcastsInDim S1 (![] : Fin 0 → Fin S1.rank)
  bcast_S1_S20_0 : S1.BroadcastsInDim S20 (![0] : Fin 1 → Fin S20.rank)
  reducesTo_S8192x20_S8192_d1 : S8192x20.ReducesTo [1] S8192
  bcast_S_S8192x1 : S_.BroadcastsInDim S8192x1 (![] : Fin 0 → Fin S8192x1.rank)
  concatenates_S8192x1_S8192x20_S8192x21_d1 : Shape.Concatenates [S8192x1, S8192x20] S8192x21 1
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  bcast_S_S8192x512 : S_.BroadcastsInDim S8192x512 (![] : Fin 0 → Fin S8192x512.rank)
  bcast_S12544_S1x12544_1 : S12544.BroadcastsInDim S1x12544 (![1] : Fin 1 → Fin S1x12544.rank)
  bcast_S1x12544_S8192x12544_0_1 : S1x12544.BroadcastsInDim S8192x12544 (![0, 1] : Fin 2 → Fin S8192x12544.rank)
  dot_S8192x1024_S1024x1024_S8192x1024_1_0_0_1_n_n_wf : DotDims.WF S8192x1024 S1024x1024 S8192x1024 [1] [0] [0] [1] [] []
  dot_S8192x1024_S1024x256_S8192x256_1_0_0_1_n_n_wf : DotDims.WF S8192x1024 S1024x256 S8192x256 [1] [0] [0] [1] [] []
  dot_S8192x1024_S1024x84_S8192x84_1_0_0_1_n_n_wf : DotDims.WF S8192x1024 S1024x84 S8192x84 [1] [0] [0] [1] [] []
  dot_S8192x256_S256x20_S8192x20_1_0_0_1_n_n_wf : DotDims.WF S8192x256 S256x20 S8192x20 [1] [0] [0] [1] [] []
  dot_S8192x256_S256x512_S8192x512_1_0_0_1_n_n_wf : DotDims.WF S8192x256 S256x512 S8192x512 [1] [0] [0] [1] [] []
  dot_S8192x512_S512x12544_S8192x12544_1_0_0_1_n_n_wf : DotDims.WF S8192x512 S512x12544 S8192x12544 [1] [0] [0] [1] [] []

variable [Facts₀]

def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf
def dot_S8192x1024_S1024x256_S8192x256_1_0_0_1_n_n : DotDims S8192x1024 S1024x256 S8192x256 where
  lhsContracting := [1]
  rhsContracting := [0]
  lhsNonContracting := [0]
  rhsNonContracting := [1]
  lhsBatch := []
  rhsBatch := []
  wf := dot_S8192x1024_S1024x256_S8192x256_1_0_0_1_n_n_wf
def dot_S8192x1024_S1024x84_S8192x84_1_0_0_1_n_n : DotDims S8192x1024 S1024x84 S8192x84 where
  lhsContracting := [1]
  rhsContracting := [0]
  lhsNonContracting := [0]
  rhsNonContracting := [1]
  lhsBatch := []
  rhsBatch := []
  wf := dot_S8192x1024_S1024x84_S8192x84_1_0_0_1_n_n_wf
def dot_S8192x256_S256x20_S8192x20_1_0_0_1_n_n : DotDims S8192x256 S256x20 S8192x20 where
  lhsContracting := [1]
  rhsContracting := [0]
  lhsNonContracting := [0]
  rhsNonContracting := [1]
  lhsBatch := []
  rhsBatch := []
  wf := dot_S8192x256_S256x20_S8192x20_1_0_0_1_n_n_wf
def dot_S8192x256_S256x512_S8192x512_1_0_0_1_n_n : DotDims S8192x256 S256x512 S8192x512 where
  lhsContracting := [1]
  rhsContracting := [0]
  lhsNonContracting := [0]
  rhsNonContracting := [1]
  lhsBatch := []
  rhsBatch := []
  wf := dot_S8192x256_S256x512_S8192x512_1_0_0_1_n_n_wf
def dot_S8192x512_S512x12544_S8192x12544_1_0_0_1_n_n : DotDims S8192x512 S512x12544 S8192x12544 where
  lhsContracting := [1]
  rhsContracting := [0]
  lhsNonContracting := [0]
  rhsNonContracting := [1]
  lhsBatch := []
  rhsBatch := []
  wf := dot_S8192x512_S512x12544_S8192x12544_1_0_0_1_n_n_wf

class Facts : Prop extends Facts₀ where

variable [Facts]
-- ==== Proof.RowSpec.lean ====
/-
  What one row of each result is, as a function of that row of the features and of the whole
  weight arrays, on the extended reals.

  All three heads of the predictor act row by row: row `n` of every result depends on row `n` of the
  features `x` alone. A head is two affine layers with a leaky rectifier between them,
  `(leaky (x · W₁ + b₁)) · W₂ + b₂`. The embedding head divides its row by the row's Euclidean length.
  The score of a row `e` of embeddings against a prototype row `p` with squared length `q`, squared
  width `s` and weight `w` is `exp (-((|e|² + q) - 2·⟨e, p⟩) / 2 / s) · w`; a row of scores holds one minus the
  largest of these in its first place and the scores themselves after it.

  The float words the two programs share (the rectifier's slope, the two `2`s, the `1`, the `-∞` a
  maximum starts from, the `0` a comparison is against) stay words: the same word on both sides is never
  evaluated. Sums are plain finite sums: on the extended reals addition is commutative and associative, so
  neither the order nor the grouping of a sum matters, and no law used here needs a finite input.
-/
import Idealize.ShloMosaic.PureOps.Ideal
import Idealize.ShloMosaic.PureOps.Ideal.Laws

noncomputable section

namespace Cert.RowSpec

open Idealize.ShloMosaic

/-- The word `0.0` a rectifier compares against. -/
abbrev zeroW : EReal := Ideal.ofBits .f32 0x00000000#32
/-- The rectifier's slope below zero, the f32 nearest `0.01`. -/
abbrev slopeW : EReal := Ideal.ofBits .f32 0x3C23D70A#32
/-- The word `2.0`. -/
abbrev twoW : EReal := Ideal.ofBits .f32 0x40000000#32
/-- The word `1.0`. -/
abbrev oneW : EReal := Ideal.ofBits .f32 0x3F800000#32
/-- The word `-∞` a row's maximum starts from. -/
abbrev negInfW : EReal := Ideal.ofBits .f32 0xFF800000#32

/-- The leaky rectifier: `a` above zero, `slope · a` otherwise. -/
def leaky (a : EReal) : EReal := Scalar.select (Ideal.cmp .ogt a zeroW) a (slopeW * a)

variable {K H D : Nat}

/-- One output of an affine layer: `⟨x, W[:, j]⟩ + b j`. -/
def affine (x : Fin K → EReal) (W : Fin K → Fin H → EReal) (b : Fin H → EReal) (j : Fin H) : EReal :=
  (∑ k : Fin K, x k * W k j) + b j

/-- Two affine layers with the leaky rectifier between them. -/
def twoLayer (x : Fin K → EReal) (W₁ : Fin K → Fin H → EReal) (b₁ : Fin H → EReal)
    (W₂ : Fin H → Fin D → EReal) (b₂ : Fin D → EReal) : Fin D → EReal :=
  affine (fun h => leaky (affine x W₁ b₁ h)) W₂ b₂

/-- The squared Euclidean length of a row. -/
def sumSq (v : Fin D → EReal) : EReal := ∑ d : Fin D, v d * v d

/-- A row divided by its Euclidean length. -/
def unitRow (v : Fin D → EReal) (d : Fin D) : EReal := Ideal.div (v d) (Ideal.sqrt (sumSq v))

/-- The squared distance of `e` from `p` through inner products, `(|e|² + q) - 2·⟨e, p⟩`, `q` standing for `|p|²`. -/
def sqDist (e p : Fin D → EReal) (q : EReal) : EReal := (sumSq e + q) - twoW * ∑ d : Fin D, e d * p d

/-- One prototype's score: `exp (-(dist²) / 2 / s) · w`. -/
def protoScore (e p : Fin D → EReal) (q s w : EReal) : EReal :=
  Ideal.exp (Ideal.div (Ideal.div (-(sqDist e p q)) twoW) s) * w

/-- A row of scores over twenty prototypes: first one minus the largest score, then the scores. -/
def scoreRow (e : Fin D → EReal) (Pm : Fin 20 → Fin D → EReal) (q s w : Fin 20 → EReal) : Fin 21 → EReal :=
  Fin.cases (n := 20) (motive := fun _ => EReal)
    (oneW - (Finset.univ : Finset (Fin 20)).fold max negInfW (fun k => protoScore e (Pm k) (q k) (s k) (w k)))
    (fun k => protoScore e (Pm k) (q k) (s k) (w k))

theorem scoreRow_zero (e : Fin D → EReal) (Pm : Fin 20 → Fin D → EReal) (q s w : Fin 20 → EReal) :
    scoreRow e Pm q s w 0
      = oneW - (Finset.univ : Finset (Fin 20)).fold max negInfW (fun k => protoScore e (Pm k) (q k) (s k) (w k)) := rfl

theorem scoreRow_succ (e : Fin D → EReal) (Pm : Fin 20 → Fin D → EReal) (q s w : Fin 20 → EReal) (k : Fin 20) :
    scoreRow e Pm q s w k.succ = protoScore e (Pm k) (q k) (s k) (w k) := rfl

/-- The kernels negate by subtracting from the word `0.0`; that is the negation. -/
theorem zeroW_sub (a : EReal) : zeroW - a = -a := by
  show Ideal.ofBits .f32 0x00000000#32 - a = -a
  rw [Ideal.ofBits_zero_f32, zero_sub]

/-- A sum the host starts from the word `0.0` is the plain sum. -/
theorem zeroW_add (a : EReal) : zeroW + a = a := by
  show Ideal.ofBits .f32 0x00000000#32 + a = a
  rw [Ideal.ofBits_zero_f32, zero_add]

end Cert.RowSpec

end
-- ==== Proof.BoxHead.lean ====
/-
  The box-regression head's region: after its eight grid points, row `n` of the output array is the two-layer head of
  row `n` of the features — point `t` computes rows `1024·t … 1024·t + 1023` from the same rows of the features and
  the whole (resident) weights, and the eight blocks tile the array.
-/
import proofs.«138867_j36335423324183_1_alg».proof.Proof.Gen.KernelIdeal.Frame
import proofs.«138867_j36335423324183_1_alg».proof.Proof.RowSpec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.BoxHead

open Cert.KernelIdeal Cert.KernelIdeal.Gen Cert.RowSpec
open Idealize.ShloMosaic Idealize.ShloMosaic.TcCoe Idealize.SL.Sem Idealize.ShloMosaic.ValueIdx
open Idealize.ShloMosaic.Pipeline (Dat Cfg Window)

-- the TensorCore's buffer contents when the region is entered
variable (V : (c : Dev nD) → (b : Ref sig .tc) → Buf (Elt Ideal) ((c : Thread nD τ).loc b))

/-! ## The two matrix products' operand indices, axis by axis -/

/-- First product, left operand: the row is the output's row. -/
theorem hidden_lhs_row (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
/-- First product, left operand: the column is the contracted index. -/
theorem hidden_lhs_contr (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
/-- First product, right operand: the row is the contracted index. -/
theorem hidden_rhs_contr (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
/-- First product, right operand: the column is the output's column. -/
theorem hidden_rhs_col (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- Second product, left operand: the row is the output's row. -/
theorem out_lhs_row (i : S1024x84.Idx) (q : dot_S1024x1024_S1024x84_S1024x84_1_0_0_1_n_n.contr.Idx) :
    (dot_S1024x1024_S1024x84_S1024x84_1_0_0_1_n_n.lhsIdx i q 0).val = (i 0).val := by
  unfold DotDims.lhsIdx
  rw [dif_neg (show ¬(0 : Fin S1024x1024.rank) ∈ dot_S1024x1024_S1024x84_S1024x84_1_0_0_1_n_n.lhsBatch by decide), dif_pos (show (0 : Fin S1024x1024.rank) ∈ dot_S1024x1024_S1024x84_S1024x84_1_0_0_1_n_n.lhsNonContracting by decide)]
  rfl
/-- Second product, left operand: the column is the contracted index. -/
theorem out_lhs_contr (i : S1024x84.Idx) (q : dot_S1024x1024_S1024x84_S1024x84_1_0_0_1_n_n.contr.Idx) :
    (dot_S1024x1024_S1024x84_S1024x84_1_0_0_1_n_n.lhsIdx i q 1).val = (q ⟨0, by decide⟩).val :=
  dot_S1024x1024_S1024x84_S1024x84_1_0_0_1_n_n.lhsIdx_val_of_single rfl i q
/-- Second product, right operand: the row is the contracted index. -/
theorem out_rhs_contr (i : S1024x84.Idx) (q : dot_S1024x1024_S1024x84_S1024x84_1_0_0_1_n_n.contr.Idx) :
    (dot_S1024x1024_S1024x84_S1024x84_1_0_0_1_n_n.rhsIdx i q 0).val = (q ⟨0, by decide⟩).val :=
  dot_S1024x1024_S1024x84_S1024x84_1_0_0_1_n_n.rhsIdx_val_of_single rfl i q
/-- Second product, right operand: the column is the output's column. -/
theorem out_rhs_col (i : S1024x84.Idx) (q : dot_S1024x1024_S1024x84_S1024x84_1_0_0_1_n_n.contr.Idx) :
    (dot_S1024x1024_S1024x84_S1024x84_1_0_0_1_n_n.rhsIdx i q 1).val = (i 1).val := by
  unfold DotDims.rhsIdx
  rw [dif_neg (show ¬(1 : Fin S1024x84.rank) ∈ dot_S1024x1024_S1024x84_S1024x84_1_0_0_1_n_n.rhsBatch by decide), dif_pos (show (1 : Fin S1024x84.rank) ∈ dot_S1024x1024_S1024x84_S1024x84_1_0_0_1_n_n.rhsNonContracting by decide)]
  rfl

/-! ## The two matrix products and the two bias rows, read at an index -/

/-- The first product into the zero accumulator, at row `p` and column `h`: the inner product of row `p` of the left
    operand with column `h` of the right one. -/
theorem hidden_matmul_at (a b : FVec Ideal S1024x1024 .bf16) (p h : Fin 1024) :
    matmul dot_S1024x1024_S1024x1024_S1024x1024_1_0_0_1_n_n none a b (constant (F := Ideal) S1024x1024 .f32 0x00000000#32) (ix2 p h)
      = ∑ k : Fin 1024, a (ix2 p k) * b (ix2 k h) := by
  refine (Ideal.matmul_constant_zero_apply dot_S1024x1024_S1024x1024_S1024x1024_1_0_0_1_n_n none a b (ix2 p h)).trans ?_
  rw [← Equiv.sum_comp (ValueIdx.contrEquiv1 dot_S1024x1024_S1024x1024_S1024x1024_1_0_0_1_n_n 1024 rfl rfl).symm]
  refine Finset.sum_congr rfl fun k _ => ?_
  have hk := ValueIdx.contrEquiv1_symm_val dot_S1024x1024_S1024x1024_S1024x1024_1_0_0_1_n_n 1024 rfl rfl k
  have el : dot_S1024x1024_S1024x1024_S1024x1024_1_0_0_1_n_n.lhsIdx (ix2 p h) ((ValueIdx.contrEquiv1 dot_S1024x1024_S1024x1024_S1024x1024_1_0_0_1_n_n 1024 rfl rfl).symm k) = ix2 p k := funext fun a => Fin.ext (by
    match a with
    | ⟨0, _⟩ => exact hidden_lhs_row _ _
    | ⟨1, _⟩ => exact (hidden_lhs_contr _ _).trans hk)
  have er : dot_S1024x1024_S1024x1024_S1024x1024_1_0_0_1_n_n.rhsIdx (ix2 p h) ((ValueIdx.contrEquiv1 dot_S1024x1024_S1024x1024_S1024x1024_1_0_0_1_n_n 1024 rfl rfl).symm k) = ix2 k h := funext fun a => Fin.ext (by
    match a with
    | ⟨0, _⟩ => exact (hidden_rhs_contr _ _).trans hk
    | ⟨1, _⟩ => exact hidden_rhs_col _ _)
  rw [el, er]

/-- The second product into the zero accumulator, at row `p` and column `j`. -/
theorem out_matmul_at (a : FVec Ideal S1024x1024 .bf16) (b : FVec Ideal S1024x84 .bf16) (p : Fin 1024) (j : Fin 84) :
    matmul dot_S1024x1024_S1024x84_S1024x84_1_0_0_1_n_n none a b (constant (F := Ideal) S1024x84 .f32 0x00000000#32) (ix2 p j)
      = ∑ h : Fin 1024, a (ix2 p h) * b (ix2 h j) := by
  refine (Ideal.matmul_constant_zero_apply dot_S1024x1024_S1024x84_S1024x84_1_0_0_1_n_n none a b (ix2 p j)).trans ?_
  rw [← Equiv.sum_comp (ValueIdx.contrEquiv1 dot_S1024x1024_S1024x84_S1024x84_1_0_0_1_n_n 1024 rfl rfl).symm]
  refine Finset.sum_congr rfl fun k _ => ?_
  have hk := ValueIdx.contrEquiv1_symm_val dot_S1024x1024_S1024x84_S1024x84_1_0_0_1_n_n 1024 rfl rfl k
  have el : dot_S1024x1024_S1024x84_S1024x84_1_0_0_1_n_n.lhsIdx (ix2 p j) ((ValueIdx.contrEquiv1 dot_S1024x1024_S1024x84_S1024x84_1_0_0_1_n_n 1024 rfl rfl).symm k) = ix2 p k := funext fun a => Fin.ext (by
    match a with
    | ⟨0, _⟩ => exact out_lhs_row _ _
    | ⟨1, _⟩ => exact (out_lhs_contr _ _).trans hk)
  have er : dot_S1024x1024_S1024x84_S1024x84_1_0_0_1_n_n.rhsIdx (ix2 p j) ((ValueIdx.contrEquiv1 dot_S1024x1024_S1024x84_S1024x84_1_0_0_1_n_n 1024 rfl rfl).symm k) = ix2 k j := funext fun a => Fin.ext (by
    match a with
    | ⟨0, _⟩ => exact (out_rhs_contr _ _).trans hk
    | ⟨1, _⟩ => exact out_rhs_col _ _)
  rw [el, er]

/-- The first bias row repeated down the rows reads its own column. -/
theorem hidden_bias_at (b : FVec Ideal S1x1024 .f32) (p h : Fin 1024) :
    broadcastTo S1024x1024 b broadcasts_S1x1024_S1024x1024 (ix2 p h) = b (ix2 (0 : Fin 1) h) :=
  broadcastTo_apply b broadcasts_S1x1024_S1024x1024 (ix2 p h) (ix2 (0 : Fin 1) h) (fun a => by
    match a with
    | ⟨0, _⟩ => rfl
    | ⟨1, _⟩ => rfl)

/-- The second bias row repeated down the rows reads its own column. -/
theorem out_bias_at (b : FVec Ideal S1x84 .f32) (p : Fin 1024) (j : Fin 84) :
    broadcastTo S1024x84 b broadcasts_S1x84_S1024x84 (ix2 p j) = b (ix2 (0 : Fin 1) j) :=
  broadcastTo_apply b broadcasts_S1x84_S1024x84 (ix2 p j) (ix2 (0 : Fin 1) j) (fun a => by
    match a with
    | ⟨0, _⟩ => rfl
    | ⟨1, _⟩ => rfl)

/-! ## The kernel's payload at an index -/

/-- The rectifier as the body writes it (a select on "above the zero word" between the value and the slope word times
    it), at an index. -/
theorem leaky_at (a : FVec Ideal S1024x1024 .f32) (i : S1024x1024.Idx) :
    select (cmpf .ogt a (broadcast S1024x1024 (Scalar.ofBits (F := Ideal) .f32 0x00000000#32))) a
        (mulf (broadcast S1024x1024 (Scalar.ofBits (F := Ideal) .f32 0x3C23D70A#32)) a) i = leaky (a i) := rfl

/-- An affine layer as the body writes it (product into the zero accumulator, plus the bias row repeated down the
    rows), first layer, at an index. -/
theorem hidden_affine_at (x W : FVec Ideal S1024x1024 .bf16) (b : FVec Ideal S1x1024 .f32) (p h : Fin 1024) :
    addf (matmul dot_S1024x1024_S1024x1024_S1024x1024_1_0_0_1_n_n none x W (constant (F := Ideal) S1024x1024 .f32 0x00000000#32))
        (broadcastTo S1024x1024 b broadcasts_S1x1024_S1024x1024) (ix2 p h)
      = affine (fun k : Fin 1024 => x (ix2 p k)) (fun k h : Fin 1024 => W (ix2 k h)) (fun h : Fin 1024 => b (ix2 (0 : Fin 1) h)) h := by
  refine (addf_apply _ _ _).trans ?_
  rw [hidden_matmul_at, hidden_bias_at]
  rfl

/-- The same for the second layer. -/
theorem out_affine_at (x : FVec Ideal S1024x1024 .bf16) (W : FVec Ideal S1024x84 .bf16) (b : FVec Ideal S1x84 .f32) (p : Fin 1024) (j : Fin 84) :
    addf (matmul dot_S1024x1024_S1024x84_S1024x84_1_0_0_1_n_n none x W (constant (F := Ideal) S1024x84 .f32 0x00000000#32))
        (broadcastTo S1024x84 b broadcasts_S1x84_S1024x84) (ix2 p j)
      = affine (fun h : Fin 1024 => x (ix2 p h)) (fun (h : Fin 1024) (j : Fin 84) => W (ix2 h j)) (fun j : Fin 84 => b (ix2 (0 : Fin 1) j)) j := by
  refine (addf_apply _ _ _).trans ?_
  rw [out_matmul_at, out_bias_at]
  rfl

/-- THE PAYLOAD AT ROW `p`, COLUMN `j` of the block: the two-layer head of row `p` of the loaded features. -/
theorem payload_at (v0 : Vec Ideal S1024x1024 .f32) (v2 : Vec Ideal S1024x1024 .bf16) (v5 : Vec Ideal S1x1024 .f32)
    (v15 : Vec Ideal S1024x84 .bf16) (v18 : Vec Ideal S1x84 .f32) (p : Fin 1024) (j : Fin 84) :
    k1_pay1 (F := Ideal) v0 v2 v5 v15 v18 (ix2 p j)
      = twoLayer (fun k : Fin 1024 => v0 (ix2 p k)) (fun k h : Fin 1024 => v2 (ix2 k h))
          (fun h : Fin 1024 => v5 (ix2 (0 : Fin 1) h)) (fun (h : Fin 1024) (j : Fin 84) => v15 (ix2 h j))
          (fun j : Fin 84 => v18 (ix2 (0 : Fin 1) j)) j := by
  unfold k1_pay1
  rw [shapeCast_self v2, shapeCast_self v5, shapeCast_self v15, shapeCast_self v18]
  refine (out_affine_at _ _ _ p j).trans ?_
  unfold twoLayer
  refine congrArg (fun x => affine x (fun (h : Fin 1024) (j : Fin 84) => v15 (ix2 h j)) (fun j : Fin 84 => v18 (ix2 (0 : Fin 1) j)) j) (funext fun h => ?_)
  refine (leaky_at _ (ix2 p h)).trans ?_
  exact congrArg leaky (hidden_affine_at _ _ _ p h)

/-! ## From the blocks to the array -/

/-- The whole output array as one function of the arrays the region finds: row `i 0`, column `i 1` is the two-layer
    head of row `i 0` of the features. -/
def headOf (c : Dev nD) : S8192x84.Idx → Elt Ideal .f32 := fun i =>
  twoLayer (fun k : Fin 1024 => V c main_arg0 (ix2 (n0 := 8192) (i 0) k)) (fun (k h : Fin 1024) => V c main_v27 (ix2 k h))
    (fun h : Fin 1024 => V c main_v29 (ix2 (0 : Fin 1) h)) (fun (h : Fin 1024) (j : Fin 84) => V c main_v28 (ix2 h j))
    (fun j : Fin 84 => V c main_v30 (ix2 (0 : Fin 1) j)) (i 1)

theorem zero_offsets : (![0, 0] : Fin 2 → Nat) = fun _ => 0 := funext fun a => by fin_cases a <;> rfl

/-- The index maps over the grid: the features' block moves with the output's block down the rows, point `t` at block
    row `t`; the weights and the biases stay at block (0, 0). -/
theorem index_facts : ∀ t : Fin cfg1.N,
    win1_0.index t (0 : Fin 2) = win1_5.index t (0 : Fin 2) ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `p` of the features' block at point `t` is row `r` of the features, `r` the block's first row plus `p`. -/
theorem feat_row (c : Dev nD) (t : Fin cfg1.N) (p : Fin 1024) (r : Fin 8192)
    (hr : r.val = win1_0.index t (0 : Fin 2) * 1024 + 1 * p.val) (hc : win1_0.index t (1 : Fin 2) = 0) :
    (fun k : Fin 1024 => (iblk1 V c 0 t : S1024x1024.Idx → Elt Ideal .f32) (ix2 p k)) = fun k : Fin 1024 => V c main_arg0 (ix2 r k) := by
  funext k
  unfold iblk1
  rw [View.read_apply]
  refine congrArg (V c main_arg0) (funext fun a => Fin.ext ?_)
  match a with
  | ⟨0, _⟩ => show win1_0.index t (0 : Fin 2) * 1024 + 1 * p.val = r.val; omega
  | ⟨1, _⟩ => show win1_0.index t (1 : Fin 2) * 1024 + 1 * k.val = k.val; omega

/-- The first layer's weights are resident: their block at any point is the whole array. -/
theorem w1_blk (c : Dev nD) (t : Fin cfg1.N) : (iblk1 V c 1 t : S1024x1024.Idx → Elt Ideal .bf16) = V c main_v27 := by
  obtain ⟨-, -, e0, e1, -⟩ := index_facts t
  funext y
  unfold iblk1
  rw [View.read_apply]
  refine congrArg (V c main_v27) (funext fun a => Fin.ext ?_)
  match a with
  | ⟨0, _⟩ => show win1_1.index t (0 : Fin 2) * 1024 + 1 * (y 0).val = (y 0).val; omega
  | ⟨1, _⟩ => show win1_1.index t (1 : Fin 2) * 1024 + 1 * (y 1).val = (y 1).val; omega

/-- So is the first layer's bias row. -/
theorem b1_blk (c : Dev nD) (t : Fin cfg1.N) : (iblk1 V c 2 t : S1x1024.Idx → Elt Ideal .f32) = V c main_v29 := by
  obtain ⟨-, -, -, -, e0, e1, -⟩ := index_facts t
  funext y
  unfold iblk1
  rw [View.read_apply]
  refine congrArg (V c main_v29) (funext fun a => Fin.ext ?_)
  match a with
  | ⟨0, _⟩ => show win1_2.index t (0 : Fin 2) * 1 + 1 * (y 0).val = (y 0).val; omega
  | ⟨1, _⟩ => show win1_2.index t (1 : Fin 2) * 1024 + 1 * (y 1).val = (y 1).val; omega

/-- So are the second layer's weights. -/
theorem w2_blk (c : Dev nD) (t : Fin cfg1.N) : (iblk1 V c 3 t : S1024x84.Idx → Elt Ideal .bf16) = V c main_v28 := by
  obtain ⟨-, -, -, -, -, -, e0, e1, -⟩ := index_facts t
  funext y
  unfold iblk1
  rw [View.read_apply]
  refine congrArg (V c main_v28) (funext fun a => Fin.ext ?_)
  match a with
  | ⟨0, _⟩ => show win1_3.index t (0 : Fin 2) * 1024 + 1 * (y 0).val = (y 0).val; omega
  | ⟨1, _⟩ => show win1_3.index t (1 : Fin 2) * 84 + 1 * (y 1).val = (y 1).val; omega

/-- And the second layer's bias row. -/
theorem b2_blk (c : Dev nD) (t : Fin cfg1.N) : (iblk1 V c 4 t : S1x84.Idx → Elt Ideal .f32) = V c main_v30 := by
  obtain ⟨-, -, -, -, -, -, -, -, e0, e1, -⟩ := index_facts t
  funext y
  unfold iblk1
  rw [View.read_apply]
  refine congrArg (V c main_v30) (funext fun a => Fin.ext ?_)
  match a with
  | ⟨0, _⟩ => show win1_4.index t (0 : Fin 2) * 1 + 1 * (y 0).val = (y 0).val; omega
  | ⟨1, _⟩ => show win1_4.index t (1 : Fin 2) * 84 + 1 * (y 1).val = (y 1).val; omega

/-- WHAT POINT `t` WRITES BACK is block `t` of `headOf`. -/
theorem flushed_eq (c : Dev nD) (t : Fin cfg1.N) :
    (dat1 V c).flushed 5 t = ((cfg1.win 5).blk t).view.read (Elt Ideal) (headOf V c) := by
  show (cfg1.win 5).cut (grid1.coords t) ((dat1 V c).after 5 t) = _
  rw [after1_5]
  unfold out1_5
  rw [View.canon_unit_zero zero_offsets]
  simp only [View.ld_unit_zero (S := S1024x1024) zero_offsets, View.ld_unit_zero (S := S1x1024) zero_offsets,
    View.ld_unit_zero (S := S1024x84) zero_offsets, View.ld_unit_zero (S := S1x84) zero_offsets]
  obtain ⟨e00, e01, -, -, -, -, -, -, -, -, e50, e51⟩ := index_facts t
  have hN : cfg1.N = 8 := N_1
  have ht : t.val < 8 := hN ▸ t.isLt
  funext y
  obtain ⟨p, q, rfl⟩ : ∃ (p : Fin 1024) (q : Fin 84), y = ix2 p q := ⟨y 0, y 1, eq_ix2 y⟩
  have hp : p.val < 1024 := p.isLt
  have hemb : ((cfg1.win 5).blk t).view.emb (ix2 p q)
      = ix2 (⟨win1_5.index t (0 : Fin 2) * 1024 + 1 * p.val, by omega⟩ : Fin 8192) q := by
    funext a; apply Fin.ext
    match a with
    | ⟨0, _⟩ => rfl
    | ⟨1, _⟩ => show win1_5.index t (1 : Fin 2) * 84 + 1 * q.val = q.val; omega
  rw [View.read_apply, hemb]
  show k1_pay1 (F := Ideal) (iblk1 V c 0 t) (iblk1 V c 1 t) (iblk1 V c 2 t) (iblk1 V c 3 t) (iblk1 V c 4 t) (ix2 p q) = _
  rw [payload_at, w1_blk V c t, b1_blk V c t, w2_blk V c t, b2_blk V c t,
    feat_row V c t p ⟨win1_5.index t (0 : Fin 2) * 1024 + 1 * p.val, by omega⟩ (by show win1_5.index t (0 : Fin 2) * 1024 + 1 * p.val = _; omega) e01]
  rfl

/-- An index of the array is in point `t`'s block iff each coordinate is in the block's range on its axis. -/
theorem mem_blk (t : Fin cfg1.N) (i : S8192x84.Idx) :
    i ∈ ((cfg1.win 5).blk t).view.set ↔ ∀ a : Fin 2, win1_5.index t a * S1024x84.size a ≤ (i a).val ∧ (i a).val < win1_5.index t a * S1024x84.size a + S1024x84.size a := by
  show i ∈ ((View.whole main_v31).slice (win1_5.rect t)).set ↔ _
  rw [View.set_slice_whole, Rect.mem_set_unit]
  exact Iff.rfl

/-- The eight blocks tile the array: row `r` lies in the block of the point `r / 1024`, and every point writes back. -/
theorem covered (i : S8192x84.Idx) :
    ∃ t : Fin cfg1.N, (cfg1.win 5).flush t = true ∧ i ∈ ((cfg1.win 5).blk t).view.set := by
  have hi0 : (i 0).val < 8192 := (i 0).isLt
  have hi1 : (i 1).val < 84 := (i 1).isLt
  have hN : cfg1.N = 8 := N_1
  have hlt : (i 0).val / 1024 < cfg1.N := by rw [hN]; omega
  refine ⟨⟨(i 0).val / 1024, hlt⟩, flush1_5 _, ?_⟩
  obtain ⟨-, -, -, -, -, -, -, -, -, -, e50, e51⟩ := index_facts ⟨(i 0).val / 1024, hlt⟩
  have e50' : win1_5.index ⟨(i 0).val / 1024, hlt⟩ (0 : Fin 2) = (i 0).val / 1024 := e50
  rw [mem_blk]
  intro a
  match a with
  | ⟨0, _⟩ => show win1_5.index ⟨(i 0).val / 1024, _⟩ (0 : Fin 2) * 1024 ≤ (i 0).val ∧ (i 0).val < win1_5.index ⟨(i 0).val / 1024, _⟩ (0 : Fin 2) * 1024 + 1024; omega
  | ⟨1, _⟩ => show win1_5.index ⟨(i 0).val / 1024, _⟩ (1 : Fin 2) * 84 ≤ (i 1).val ∧ (i 1).val < win1_5.index ⟨(i 0).val / 1024, _⟩ (1 : Fin 2) * 84 + 84; omega

/-- THE ARRAY after the eight points is `headOf`. -/
theorem array_eq (c : Dev nD) : (dat1 V c).arrAt 5 cfg1.N = headOf V c :=
  (dat1 V c).arrAt_eq_of_cover 5 (headOf V c) (fun t _ => flushed_eq V c t) covered

/-- Row `n`, column `j` of the region's output array after the run. -/
theorem boxes_at (c : Dev nD) (n : Fin 8192) (j : Fin 84) :
    (dat1 V c).arrAt 5 cfg1.N (ix2 n j)
      = twoLayer (fun k : Fin 1024 => V c main_arg0 (ix2 n k)) (fun (k h : Fin 1024) => V c main_v27 (ix2 k h))
          (fun h : Fin 1024 => V c main_v29 (ix2 (0 : Fin 1) h)) (fun (h : Fin 1024) (j : Fin 84) => V c main_v28 (ix2 h j))
          (fun j : Fin 84 => V c main_v30 (ix2 (0 : Fin 1) j)) j :=
  (congrFun (array_eq V c) (ix2 n j)).trans rfl

end Cert.KernelIdeal.BoxHead

end
-- ==== Proof.Rebuild.lean ====
/-
  The reconstruction head's region: after its sixty-four grid points, row `n` of the output array is the two-layer head
  of row `n` of the region's first operand (the embeddings) — point `t` computes rows `128·t … 128·t + 127`, and the
  sixty-four blocks tile the array.
-/
import proofs.«138867_j36335423324183_1_alg».proof.Proof.Gen.KernelIdeal.Frame
import proofs.«138867_j36335423324183_1_alg».proof.Proof.RowSpec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Rebuild

open Cert.KernelIdeal Cert.KernelIdeal.Gen Cert.RowSpec
open Idealize.ShloMosaic Idealize.ShloMosaic.TcCoe Idealize.SL.Sem Idealize.ShloMosaic.ValueIdx
open Idealize.ShloMosaic.Pipeline (Dat Cfg Window)

-- the TensorCore's buffer contents when the region is entered
variable (V : (c : Dev nD) → (b : Ref sig .tc) → Buf (Elt Ideal) ((c : Thread nD τ).loc b))

/-! ## The two matrix products, read at an index -/

/-- First product, left operand: the row coordinate is the output's row. -/
theorem lhs_first_0 (i : S128x512.Idx) (q : dot_S128x256_S256x512_S128x512_1_0_0_1_n_n.contr.Idx) :
    (dot_S128x256_S256x512_S128x512_1_0_0_1_n_n.lhsIdx i q 0).val = (i 0).val := by
  unfold DotDims.lhsIdx
  rw [dif_neg (show ¬(0 : Fin S128x256.rank) ∈ dot_S128x256_S256x512_S128x512_1_0_0_1_n_n.lhsBatch by decide), dif_pos (show (0 : Fin S128x256.rank) ∈ dot_S128x256_S256x512_S128x512_1_0_0_1_n_n.lhsNonContracting by decide)]
  rfl
/-- First product, left operand: the column coordinate is the contracted one. -/
theorem lhs_first_1 (i : S128x512.Idx) (q : dot_S128x256_S256x512_S128x512_1_0_0_1_n_n.contr.Idx) :
    (dot_S128x256_S256x512_S128x512_1_0_0_1_n_n.lhsIdx i q 1).val = (q ⟨0, by decide⟩).val :=
  dot_S128x256_S256x512_S128x512_1_0_0_1_n_n.lhsIdx_val_of_single rfl i q
/-- First product, right operand: the row coordinate is the contracted one. -/
theorem rhs_first_0 (i : S128x512.Idx) (q : dot_S128x256_S256x512_S128x512_1_0_0_1_n_n.contr.Idx) :
    (dot_S128x256_S256x512_S128x512_1_0_0_1_n_n.rhsIdx i q 0).val = (q ⟨0, by decide⟩).val :=
  dot_S128x256_S256x512_S128x512_1_0_0_1_n_n.rhsIdx_val_of_single rfl i q
/-- First product, right operand: the column coordinate is the output's column. -/
theorem rhs_first_1 (i : S128x512.Idx) (q : dot_S128x256_S256x512_S128x512_1_0_0_1_n_n.contr.Idx) :
    (dot_S128x256_S256x512_S128x512_1_0_0_1_n_n.rhsIdx i q 1).val = (i 1).val := by
  unfold DotDims.rhsIdx
  rw [dif_neg (show ¬(1 : Fin S256x512.rank) ∈ dot_S128x256_S256x512_S128x512_1_0_0_1_n_n.rhsBatch by decide), dif_pos (show (1 : Fin S256x512.rank) ∈ dot_S128x256_S256x512_S128x512_1_0_0_1_n_n.rhsNonContracting by decide)]
  rfl

/-- The first product into the zero accumulator, at row `p` and column `h`: the inner product of row `p` of the left
    operand with column `h` of the right. -/
theorem first_product_apply (a : FVec Ideal S128x256 .bf16) (b : FVec Ideal S256x512 .bf16) (p : Fin 128) (h : Fin 512) :
    matmul dot_S128x256_S256x512_S128x512_1_0_0_1_n_n none a b (constant S128x512 .f32 0x00000000#32) (ix2 p h)
      = ∑ k : Fin 256, a (ix2 p k) * b (ix2 k h) := by
  simp only [matmul]
  rw [Ideal.matmul_constant_zero_apply, ← Equiv.sum_comp (ValueIdx.contrEquiv1 dot_S128x256_S256x512_S128x512_1_0_0_1_n_n 256 rfl rfl).symm]
  refine Finset.sum_congr rfl fun k _ => ?_
  have hk := ValueIdx.contrEquiv1_symm_val dot_S128x256_S256x512_S128x512_1_0_0_1_n_n 256 rfl rfl k
  have el : dot_S128x256_S256x512_S128x512_1_0_0_1_n_n.lhsIdx (ix2 p h) ((ValueIdx.contrEquiv1 dot_S128x256_S256x512_S128x512_1_0_0_1_n_n 256 rfl rfl).symm k) = ix2 p k := funext fun ax => Fin.ext (by
    match ax with
    | ⟨0, _⟩ => exact lhs_first_0 _ _
    | ⟨1, _⟩ => exact (lhs_first_1 _ _).trans hk)
  have er : dot_S128x256_S256x512_S128x512_1_0_0_1_n_n.rhsIdx (ix2 p h) ((ValueIdx.contrEquiv1 dot_S128x256_S256x512_S128x512_1_0_0_1_n_n 256 rfl rfl).symm k) = ix2 k h := funext fun ax => Fin.ext (by
    match ax with
    | ⟨0, _⟩ => exact (rhs_first_0 _ _).trans hk
    | ⟨1, _⟩ => exact rhs_first_1 _ _)
  rw [el, er]

/-- Second product, left operand: the row coordinate is the output's row. -/
theorem lhs_second_0 (i : S128x12544.Idx) (q : dot_S128x512_S512x12544_S128x12544_1_0_0_1_n_n.contr.Idx) :
    (dot_S128x512_S512x12544_S128x12544_1_0_0_1_n_n.lhsIdx i q 0).val = (i 0).val := by
  unfold DotDims.lhsIdx
  rw [dif_neg (show ¬(0 : Fin S128x512.rank) ∈ dot_S128x512_S512x12544_S128x12544_1_0_0_1_n_n.lhsBatch by decide), dif_pos (show (0 : Fin S128x512.rank) ∈ dot_S128x512_S512x12544_S128x12544_1_0_0_1_n_n.lhsNonContracting by decide)]
  rfl
/-- Second product, left operand: the column coordinate is the contracted one. -/
theorem lhs_second_1 (i : S128x12544.Idx) (q : dot_S128x512_S512x12544_S128x12544_1_0_0_1_n_n.contr.Idx) :
    (dot_S128x512_S512x12544_S128x12544_1_0_0_1_n_n.lhsIdx i q 1).val = (q ⟨0, by decide⟩).val :=
  dot_S128x512_S512x12544_S128x12544_1_0_0_1_n_n.lhsIdx_val_of_single rfl i q
/-- Second product, right operand: the row coordinate is the contracted one. -/
theorem rhs_second_0 (i : S128x12544.Idx) (q : dot_S128x512_S512x12544_S128x12544_1_0_0_1_n_n.contr.Idx) :
    (dot_S128x512_S512x12544_S128x12544_1_0_0_1_n_n.rhsIdx i q 0).val = (q ⟨0, by decide⟩).val :=
  dot_S128x512_S512x12544_S128x12544_1_0_0_1_n_n.rhsIdx_val_of_single rfl i q
/-- Second product, right operand: the column coordinate is the output's column. -/
theorem rhs_second_1 (i : S128x12544.Idx) (q : dot_S128x512_S512x12544_S128x12544_1_0_0_1_n_n.contr.Idx) :
    (dot_S128x512_S512x12544_S128x12544_1_0_0_1_n_n.rhsIdx i q 1).val = (i 1).val := by
  unfold DotDims.rhsIdx
  rw [dif_neg (show ¬(1 : Fin S512x12544.rank) ∈ dot_S128x512_S512x12544_S128x12544_1_0_0_1_n_n.rhsBatch by decide), dif_pos (show (1 : Fin S512x12544.rank) ∈ dot_S128x512_S512x12544_S128x12544_1_0_0_1_n_n.rhsNonContracting by decide)]
  rfl

/-- The second product into the zero accumulator, at row `p` and column `j`. -/
theorem second_product_apply (a : FVec Ideal S128x512 .bf16) (b : FVec Ideal S512x12544 .bf16) (p : Fin 128) (j : Fin 12544) :
    matmul dot_S128x512_S512x12544_S128x12544_1_0_0_1_n_n none a b (constant S128x12544 .f32 0x00000000#32) (ix2 p j)
      = ∑ h : Fin 512, a (ix2 p h) * b (ix2 h j) := by
  simp only [matmul]
  rw [Ideal.matmul_constant_zero_apply, ← Equiv.sum_comp (ValueIdx.contrEquiv1 dot_S128x512_S512x12544_S128x12544_1_0_0_1_n_n 512 rfl rfl).symm]
  refine Finset.sum_congr rfl fun k _ => ?_
  have hk := ValueIdx.contrEquiv1_symm_val dot_S128x512_S512x12544_S128x12544_1_0_0_1_n_n 512 rfl rfl k
  have el : dot_S128x512_S512x12544_S128x12544_1_0_0_1_n_n.lhsIdx (ix2 p j) ((ValueIdx.contrEquiv1 dot_S128x512_S512x12544_S128x12544_1_0_0_1_n_n 512 rfl rfl).symm k) = ix2 p k := funext fun ax => Fin.ext (by
    match ax with
    | ⟨0, _⟩ => exact lhs_second_0 _ _
    | ⟨1, _⟩ => exact (lhs_second_1 _ _).trans hk)
  have er : dot_S128x512_S512x12544_S128x12544_1_0_0_1_n_n.rhsIdx (ix2 p j) ((ValueIdx.contrEquiv1 dot_S128x512_S512x12544_S128x12544_1_0_0_1_n_n 512 rfl rfl).symm k) = ix2 k j := funext fun ax => Fin.ext (by
    match ax with
    | ⟨0, _⟩ => exact (rhs_second_0 _ _).trans hk
    | ⟨1, _⟩ => exact rhs_second_1 _ _)
  rw [el, er]

/-! ## The body's arithmetic at an index -/

/-- The block the body stores, at row `p` and column `j`: the two-layer head of row `p` of the loaded rows, with the
    loaded weights and biases. -/
theorem payload_apply (v0 : Vec Ideal S128x256 .f32) (v3 : Vec Ideal S256x512 .bf16) (v6 : Vec Ideal S1x512 .f32)
    (v16 : Vec Ideal S512x12544 .bf16) (v19 : Vec Ideal S1x12544 .f32) (p : Fin 128) (j : Fin 12544) :
    k2_pay1 v0 v3 v6 v16 v19 (ix2 p j)
      = twoLayer (fun k : Fin 256 => v0 (ix2 p k)) (fun (k : Fin 256) (h : Fin 512) => v3 (ix2 k h))
          (fun h : Fin 512 => v6 (ix2 (0 : Fin 1) h)) (fun (h : Fin 512) (j : Fin 12544) => v16 (ix2 h j))
          (fun j : Fin 12544 => v19 (ix2 (0 : Fin 1) j)) j := by
  unfold k2_pay1
  simp only [addf_apply, second_product_apply, first_product_apply, broadcastTo_1b_ab_apply, shapeCast_self,
    truncf_apply, select_apply, cmpf_apply, mulf_apply, broadcast_apply]
  unfold twoLayer affine leaky
  rfl

/-- The same at any index of the block, by its two coordinates. -/
theorem payload_at (v0 : Vec Ideal S128x256 .f32) (v3 : Vec Ideal S256x512 .bf16) (v6 : Vec Ideal S1x512 .f32)
    (v16 : Vec Ideal S512x12544 .bf16) (v19 : Vec Ideal S1x12544 .f32) (y : S128x12544.Idx) :
    k2_pay1 v0 v3 v6 v16 v19 y
      = twoLayer (fun k : Fin 256 => v0 (ix2 (y 0) k)) (fun (k : Fin 256) (h : Fin 512) => v3 (ix2 k h))
          (fun h : Fin 512 => v6 (ix2 (0 : Fin 1) h)) (fun (h : Fin 512) (j : Fin 12544) => v16 (ix2 h j))
          (fun j : Fin 12544 => v19 (ix2 (0 : Fin 1) j)) (y 1) := by
  obtain ⟨p, q, rfl⟩ : ∃ (p : Fin 128) (q : Fin 12544), y = ix2 p q := ⟨y 0, y 1, eq_ix2 y⟩
  exact payload_apply v0 v3 v6 v16 v19 p q

/-! ## From the blocks to the array -/

/-- The body's loads and its store start at the block's origin. -/
theorem origin_zero : (![0, 0] : Fin 2 → Nat) = fun _ => 0 := funext fun a => by fin_cases a <;> rfl

/-- The output array as ONE function of the region's operand arrays: row `i 0` is the two-layer head of row `i 0` of
    the embeddings. -/
abbrev wholeHead (c : Dev nD) : S8192x12544.Idx → EReal := fun i =>
  twoLayer (fun k : Fin 256 => V c main_v26_0 (ix2 (i 0 : Fin 8192) k)) (fun (k : Fin 256) (h : Fin 512) => V c main_v32 (ix2 k h))
    (fun h : Fin 512 => V c main_v34 (ix2 (0 : Fin 1) h)) (fun (h : Fin 512) (j : Fin 12544) => V c main_v33 (ix2 h j))
    (fun j : Fin 12544 => V c main_v35 (ix2 (0 : Fin 1) j)) (i 1 : Fin 12544)

/-- The windows' block indices over the grid: the embeddings' row block moves with the output's, point `t` owning row
    block `t`; every other block index is zero. -/
theorem index_facts : ∀ t : Fin cfg2.N, win2_0.index t (0 : Fin 2) = win2_5.index t (0 : Fin 2)
    ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Block `t` of the embeddings (rows `128·t … 128·t + 127`, every column), at local row `p`: row `r` of the array,
    where `r` is the output block's first row plus `p`. -/
theorem rows_block_apply (c : Dev nD) (t : Fin cfg2.N) (p : Fin 128) (k : Fin 256) (r : Fin 8192)
    (hr : r.val = win2_5.index t (0 : Fin 2) * 128 + 1 * p.val) :
    iblk2 V c 0 t (ix2 p k : S128x256.Idx) = V c main_v26_0 (ix2 r k : S8192x256.Idx) := by
  obtain ⟨e0, e1, -⟩ := index_facts t
  show V c main_v26_0 (((cfg2.win 0).blk t).view.emb (ix2 p k : S128x256.Idx)) = V c main_v26_0 (ix2 r k : S8192x256.Idx)
  refine congrArg _ (funext fun a => Fin.ext ?_)
  match a with
  | ⟨0, _⟩ => show win2_0.index t (0 : Fin 2) * 128 + 1 * p.val = r.val; omega
  | ⟨1, _⟩ => show win2_0.index t (1 : Fin 2) * 256 + 1 * k.val = k.val; omega

/-- The first layer's weights come whole: their one block is the array. -/
theorem weights1_block_apply (c : Dev nD) (t : Fin cfg2.N) (k : Fin 256) (h : Fin 512) :
    iblk2 V c 1 t (ix2 k h : S256x512.Idx) = V c main_v32 (ix2 k h : S256x512.Idx) := by
  obtain ⟨-, -, e0, e1, -⟩ := index_facts t
  show V c main_v32 (((cfg2.win 1).blk t).view.emb (ix2 k h : S256x512.Idx)) = V c main_v32 (ix2 k h : S256x512.Idx)
  refine congrArg _ (funext fun a => Fin.ext ?_)
  match a with
  | ⟨0, _⟩ => show win2_1.index t (0 : Fin 2) * 256 + 1 * k.val = k.val; omega
  | ⟨1, _⟩ => show win2_1.index t (1 : Fin 2) * 512 + 1 * h.val = h.val; omega

/-- The first layer's bias row comes whole. -/
theorem bias1_block_apply (c : Dev nD) (t : Fin cfg2.N) (u : Fin 1) (h : Fin 512) :
    iblk2 V c 2 t (ix2 u h : S1x512.Idx) = V c main_v34 (ix2 u h : S1x512.Idx) := by
  obtain ⟨-, -, -, -, e0, e1, -⟩ := index_facts t
  show V c main_v34 (((cfg2.win 2).blk t).view.emb (ix2 u h : S1x512.Idx)) = V c main_v34 (ix2 u h : S1x512.Idx)
  refine congrArg _ (funext fun a => Fin.ext ?_)
  match a with
  | ⟨0, _⟩ => show win2_2.index t (0 : Fin 2) * 1 + 1 * u.val = u.val; omega
  | ⟨1, _⟩ => show win2_2.index t (1 : Fin 2) * 512 + 1 * h.val = h.val; omega

/-- The second layer's weights come whole. -/
theorem weights2_block_apply (c : Dev nD) (t : Fin cfg2.N) (h : Fin 512) (j : Fin 12544) :
    iblk2 V c 3 t (ix2 h j : S512x12544.Idx) = V c main_v33 (ix2 h j : S512x12544.Idx) := by
  obtain ⟨-, -, -, -, -, -, e0, e1, -⟩ := index_facts t
  show V c main_v33 (((cfg2.win 3).blk t).view.emb (ix2 h j : S512x12544.Idx)) = V c main_v33 (ix2 h j : S512x12544.Idx)
  refine congrArg _ (funext fun a => Fin.ext ?_)
  match a with
  | ⟨0, _⟩ => show win2_3.index t (0 : Fin 2) * 512 + 1 * h.val = h.val; omega
  | ⟨1, _⟩ => show win2_3.index t (1 : Fin 2) * 12544 + 1 * j.val = j.val; omega

/-- The second layer's bias row comes whole. -/
theorem bias2_block_apply (c : Dev nD) (t : Fin cfg2.N) (u : Fin 1) (j : Fin 12544) :
    iblk2 V c 4 t (ix2 u j : S1x12544.Idx) = V c main_v35 (ix2 u j : S1x12544.Idx) := by
  obtain ⟨-, -, -, -, -, -, -, -, e0, e1, -⟩ := index_facts t
  show V c main_v35 (((cfg2.win 4).blk t).view.emb (ix2 u j : S1x12544.Idx)) = V c main_v35 (ix2 u j : S1x12544.Idx)
  refine congrArg _ (funext fun a => Fin.ext ?_)
  match a with
  | ⟨0, _⟩ => show win2_4.index t (0 : Fin 2) * 1 + 1 * u.val = u.val; omega
  | ⟨1, _⟩ => show win2_4.index t (1 : Fin 2) * 12544 + 1 * j.val = j.val; omega

/-- Two-layer heads of equal operands at equal columns are equal. -/
theorem twoLayer_congr {K H D : Nat} {x x' : Fin K → EReal} {W₁ W₁' : Fin K → Fin H → EReal} {b₁ b₁' : Fin H → EReal}
    {W₂ W₂' : Fin H → Fin D → EReal} {b₂ b₂' : Fin D → EReal} {j j' : Fin D}
    (hx : x = x') (hW₁ : W₁ = W₁') (hb₁ : b₁ = b₁') (hW₂ : W₂ = W₂') (hb₂ : b₂ = b₂') (hj : j = j') :
    twoLayer x W₁ b₁ W₂ b₂ j = twoLayer x' W₁' b₁' W₂' b₂' j' := by
  subst hx hW₁ hb₁ hW₂ hb₂ hj; rfl

/-- WHAT POINT `t` WRITES BACK is block `t` of the whole-array head: its rows are the embeddings' rows of the same
    numbers, the weights and biases are whole at every point. -/
theorem flushed_eq (c : Dev nD) (t : Fin cfg2.N) :
    (dat2 V c).flushed 5 t = ((cfg2.win 5).blk t).view.read (Elt Ideal) (wholeHead V c) := by
  show (cfg2.win 5).cut (grid2.coords t) ((dat2 V c).after 5 t) = _
  rw [after2_5]
  unfold out2_5
  rw [View.canon_unit_zero origin_zero]
  simp only [View.ld_unit_zero (S := S128x256) origin_zero, View.ld_unit_zero (S := S256x512) origin_zero,
    View.ld_unit_zero (S := S1x512) origin_zero, View.ld_unit_zero (S := S512x12544) origin_zero,
    View.ld_unit_zero (S := S1x12544) origin_zero]
  refine funext fun (y : S128x12544.Idx) => ?_
  refine (payload_at _ _ _ _ _ y).trans ?_
  show _ = wholeHead V c (((cfg2.win 5).blk t).view.emb y)
  obtain ⟨-, -, -, -, -, -, -, -, -, -, -, e1⟩ := index_facts t
  refine twoLayer_congr (funext fun k => rows_block_apply V c t (y 0) k _ rfl)
    (funext fun k => funext fun h => weights1_block_apply V c t k h)
    (funext fun h => bias1_block_apply V c t 0 h)
    (funext fun h => funext fun j => weights2_block_apply V c t h j)
    (funext fun j => bias2_block_apply V c t 0 j) (Fin.ext ?_)
  show (y 1).val = win2_5.index t (1 : Fin 2) * 12544 + 1 * (y 1).val
  omega

/-- An index of the array is in point `t`'s block iff each coordinate is in the block's range on its axis. -/
theorem mem_blk (t : Fin cfg2.N) (i : S8192x12544.Idx) :
    i ∈ ((cfg2.win 5).blk t).view.set ↔ ∀ a : Fin 2, win2_5.index t a * S128x12544.size a ≤ (i a).val ∧ (i a).val < win2_5.index t a * S128x12544.size a + S128x12544.size a := by
  show i ∈ ((View.whole main_v36).slice (win2_5.rect t)).set ↔ _
  rw [View.set_slice_whole, Rect.mem_set_unit]
  exact Iff.rfl

/-- THE COVER: row `r` lies in the block of point `r / 128`, and every point writes back. -/
theorem covered (i : S8192x12544.Idx) :
    ∃ t : Fin cfg2.N, (cfg2.win 5).flush t = true ∧ i ∈ ((cfg2.win 5).blk t).view.set := by
  have hi0 : (i 0).val < 8192 := (i 0).isLt
  have hi1 : (i 1).val < 12544 := (i 1).isLt
  have hN : cfg2.N = 64 := N_2
  let t : Fin cfg2.N := ⟨(i 0).val / 128, by rw [hN]; omega⟩
  obtain ⟨-, -, -, -, -, -, -, -, -, -, e0, e1⟩ := index_facts t
  have ht : t.val = (i 0).val / 128 := rfl
  refine ⟨t, flush2_5 t, ?_⟩
  rw [mem_blk]
  intro a
  match a with
  | ⟨0, _⟩ => show win2_5.index t (0 : Fin 2) * 128 ≤ (i 0).val ∧ (i 0).val < win2_5.index t (0 : Fin 2) * 128 + 128; omega
  | ⟨1, _⟩ => show win2_5.index t (1 : Fin 2) * 12544 ≤ (i 1).val ∧ (i 1).val < win2_5.index t (1 : Fin 2) * 12544 + 12544; omega

/-- THE ARRAY after the run is the whole-array head. -/
theorem final_array (c : Dev nD) : (dat2 V c).arrAt 5 cfg2.N = wholeHead V c :=
  (dat2 V c).arrAt_eq_of_cover 5 (wholeHead V c) (fun t _ => flushed_eq V c t) covered

/-- Row `n`, column `j` of the region's output array after the run. -/
theorem rebuilt_at (c : Dev nD) (n : Fin 8192) (j : Fin 12544) :
    (dat2 V c).arrAt 5 cfg2.N (ix2 n j)
      = twoLayer (fun k : Fin 256 => V c main_v26_0 (ix2 n k)) (fun (k : Fin 256) (h : Fin 512) => V c main_v32 (ix2 k h))
          (fun h : Fin 512 => V c main_v34 (ix2 (0 : Fin 1) h)) (fun (h : Fin 512) (j : Fin 12544) => V c main_v33 (ix2 h j))
          (fun j : Fin 12544 => V c main_v35 (ix2 (0 : Fin 1) j)) j := by
  exact congrFun (final_array V c) (ix2 n j)

end Cert.KernelIdeal.Rebuild

end
-- ==== Proof.Embed.lean ====
/-
  The embedding output of the fused region: what the body's first store holds at a block index, and, after the eight grid
  points, row `n` of the embeddings array — the two-layer head of row `n` of the features divided by its Euclidean
  length. Point `t` computes rows `1024·t … 1024·t + 1023`, and the eight blocks tile the array.
-/
import proofs.«138867_j36335423324183_1_alg».proof.Proof.Gen.KernelIdeal.Frame
import proofs.«138867_j36335423324183_1_alg».proof.Proof.RowSpec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Embed

open Cert.KernelIdeal Cert.KernelIdeal.Gen Cert.RowSpec
open Idealize.ShloMosaic Idealize.ShloMosaic.TcCoe Idealize.SL.Sem Idealize.ShloMosaic.ValueIdx
open Idealize.ShloMosaic.Pipeline (Dat Cfg Window)

/-! ## The two matrix products' operand indices, axis by axis -/

theorem lhs_first_0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem lhs_first_1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
theorem rhs_first_0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
theorem rhs_first_1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

theorem lhs_second_0 (i : S1024x256.Idx) (q : dot_S1024x1024_S1024x256_S1024x256_1_0_0_1_n_n.contr.Idx) :
    (dot_S1024x1024_S1024x256_S1024x256_1_0_0_1_n_n.lhsIdx i q 0).val = (i 0).val := by
  unfold DotDims.lhsIdx
  rw [dif_neg (show ¬(0 : Fin S1024x1024.rank) ∈ dot_S1024x1024_S1024x256_S1024x256_1_0_0_1_n_n.lhsBatch by decide), dif_pos (show (0 : Fin S1024x1024.rank) ∈ dot_S1024x1024_S1024x256_S1024x256_1_0_0_1_n_n.lhsNonContracting by decide)]
  rfl
theorem lhs_second_1 (i : S1024x256.Idx) (q : dot_S1024x1024_S1024x256_S1024x256_1_0_0_1_n_n.contr.Idx) :
    (dot_S1024x1024_S1024x256_S1024x256_1_0_0_1_n_n.lhsIdx i q 1).val = (q ⟨0, by decide⟩).val :=
  dot_S1024x1024_S1024x256_S1024x256_1_0_0_1_n_n.lhsIdx_val_of_single rfl i q
theorem rhs_second_0 (i : S1024x256.Idx) (q : dot_S1024x1024_S1024x256_S1024x256_1_0_0_1_n_n.contr.Idx) :
    (dot_S1024x1024_S1024x256_S1024x256_1_0_0_1_n_n.rhsIdx i q 0).val = (q ⟨0, by decide⟩).val :=
  dot_S1024x1024_S1024x256_S1024x256_1_0_0_1_n_n.rhsIdx_val_of_single rfl i q
theorem rhs_second_1 (i : S1024x256.Idx) (q : dot_S1024x1024_S1024x256_S1024x256_1_0_0_1_n_n.contr.Idx) :
    (dot_S1024x1024_S1024x256_S1024x256_1_0_0_1_n_n.rhsIdx i q 1).val = (i 1).val := by
  unfold DotDims.rhsIdx
  rw [dif_neg (show ¬(1 : Fin S1024x256.rank) ∈ dot_S1024x1024_S1024x256_S1024x256_1_0_0_1_n_n.rhsBatch by decide), dif_pos (show (1 : Fin S1024x256.rank) ∈ dot_S1024x1024_S1024x256_S1024x256_1_0_0_1_n_n.rhsNonContracting by decide)]
  rfl

/-- The first product into the zero splat, at row `p`, column `h`: the inner product of row `p` of the left operand
    with column `h` of the right one. -/
theorem first_product_at (a : FVec Ideal S1024x1024 .bf16) (b : FVec Ideal S1024x1024 .bf16) (p h : Fin 1024) :
    matmul dot_S1024x1024_S1024x1024_S1024x1024_1_0_0_1_n_n none a b (constant S1024x1024 .f32 0x00000000#32) (ix2 p h)
      = ∑ k : Fin 1024, a (ix2 p k) * b (ix2 k h) := by
  show FloatOps.matmul dot_S1024x1024_S1024x1024_S1024x1024_1_0_0_1_n_n none a b (constant S1024x1024 .f32 0x00000000#32) (ix2 p h) = _
  rw [Ideal.matmul_constant_zero_apply, ← Equiv.sum_comp (ValueIdx.contrEquiv1 dot_S1024x1024_S1024x1024_S1024x1024_1_0_0_1_n_n 1024 rfl rfl).symm]
  refine Finset.sum_congr rfl fun k _ => ?_
  have hk := ValueIdx.contrEquiv1_symm_val dot_S1024x1024_S1024x1024_S1024x1024_1_0_0_1_n_n 1024 rfl rfl k
  have el : dot_S1024x1024_S1024x1024_S1024x1024_1_0_0_1_n_n.lhsIdx (ix2 p h) ((ValueIdx.contrEquiv1 dot_S1024x1024_S1024x1024_S1024x1024_1_0_0_1_n_n 1024 rfl rfl).symm k) = ix2 p k := funext fun a => Fin.ext (by
    match a with
    | ⟨0, _⟩ => exact lhs_first_0 _ _
    | ⟨1, _⟩ => exact (lhs_first_1 _ _).trans hk)
  have er : dot_S1024x1024_S1024x1024_S1024x1024_1_0_0_1_n_n.rhsIdx (ix2 p h) ((ValueIdx.contrEquiv1 dot_S1024x1024_S1024x1024_S1024x1024_1_0_0_1_n_n 1024 rfl rfl).symm k) = ix2 k h := funext fun a => Fin.ext (by
    match a with
    | ⟨0, _⟩ => exact (rhs_first_0 _ _).trans hk
    | ⟨1, _⟩ => exact rhs_first_1 _ _)
  rw [el, er]

/-- The second product into the zero splat, at row `p`, column `d`. -/
theorem second_product_at (a : FVec Ideal S1024x1024 .bf16) (b : FVec Ideal S1024x256 .bf16) (p : Fin 1024) (d : Fin 256) :
    matmul dot_S1024x1024_S1024x256_S1024x256_1_0_0_1_n_n none a b (constant S1024x256 .f32 0x00000000#32) (ix2 p d)
      = ∑ k : Fin 1024, a (ix2 p k) * b (ix2 k d) := by
  show FloatOps.matmul dot_S1024x1024_S1024x256_S1024x256_1_0_0_1_n_n none a b (constant S1024x256 .f32 0x00000000#32) (ix2 p d) = _
  rw [Ideal.matmul_constant_zero_apply, ← Equiv.sum_comp (ValueIdx.contrEquiv1 dot_S1024x1024_S1024x256_S1024x256_1_0_0_1_n_n 1024 rfl rfl).symm]
  refine Finset.sum_congr rfl fun k _ => ?_
  have hk := ValueIdx.contrEquiv1_symm_val dot_S1024x1024_S1024x256_S1024x256_1_0_0_1_n_n 1024 rfl rfl k
  have el : dot_S1024x1024_S1024x256_S1024x256_1_0_0_1_n_n.lhsIdx (ix2 p d) ((ValueIdx.contrEquiv1 dot_S1024x1024_S1024x256_S1024x256_1_0_0_1_n_n 1024 rfl rfl).symm k) = ix2 p k := funext fun a => Fin.ext (by
    match a with
    | ⟨0, _⟩ => exact lhs_second_0 _ _
    | ⟨1, _⟩ => exact (lhs_second_1 _ _).trans hk)
  have er : dot_S1024x1024_S1024x256_S1024x256_1_0_0_1_n_n.rhsIdx (ix2 p d) ((ValueIdx.contrEquiv1 dot_S1024x1024_S1024x256_S1024x256_1_0_0_1_n_n 1024 rfl rfl).symm k) = ix2 k d := funext fun a => Fin.ext (by
    match a with
    | ⟨0, _⟩ => exact (rhs_second_0 _ _).trans hk
    | ⟨1, _⟩ => exact rhs_second_1 _ _)
  rw [el, er]

/-! ## The stored value, stage by stage, over any loaded blocks -/

section Stages
variable {F : FTy → Type} [FloatOps F]

/-- The hidden layer before the rectifier: first product plus the first bias row. -/
def hiddenPre (v0 : Vec F S1024x1024 .f32) (v2 : Vec F S1024x1024 .bf16) (v5 : Vec F S1x1024 .f32) :
    FVec F S1024x1024 .f32 :=
  have v1 : FVec F S1024x1024 .bf16 := truncf .bf16 v0 bitsLt_bf16_f32
  have v3 : FVec F S1024x1024 .bf16 := shapeCast S1024x1024 v2 shapeCasts_S1024x1024_S1024x1024
  have cst : FVec F S1024x1024 .f32 := constant S1024x1024 .f32 0x00000000#32
  have v4 : FVec F S1024x1024 .f32 := matmul dot_S1024x1024_S1024x1024_S1024x1024_1_0_0_1_n_n none v1 v3 cst
  have v6 : FVec F S1x1024 .f32 := shapeCast S1x1024 v5 shapeCasts_S1x1024_S1x1024
  have v7 : FVec F S1024x1024 .f32 := broadcastTo S1024x1024 v6 broadcasts_S1x1024_S1024x1024
  addf v4 v7

/-- The leaky rectifier on a block. -/
def rectified (v8 : FVec F S1024x1024 .f32) : FVec F S1024x1024 .f32 :=
  have cst_5 : F .f32 := Scalar.ofBits .f32 0x00000000#32
  have v9 : FVec F S1024x1024 .f32 := broadcast S1024x1024 cst_5
  have v10 : IVec S1024x1024 1 := cmpf .ogt v8 v9
  have cst_6 : F .f32 := Scalar.ofBits .f32 0x3C23D70A#32
  have v11 : FVec F S1024x1024 .f32 := broadcast S1024x1024 cst_6
  have v12 : FVec F S1024x1024 .f32 := mulf v11 v8
  select v10 v8 v12

/-- The head before normalisation: second product of the rectified hidden layer plus the second bias row. -/
def headPre (v0 : Vec F S1024x1024 .f32) (v2 : Vec F S1024x1024 .bf16) (v5 : Vec F S1x1024 .f32)
    (v15 : Vec F S1024x256 .bf16) (v18 : Vec F S1x256 .f32) : FVec F S1024x256 .f32 :=
  have v14 : FVec F S1024x1024 .bf16 := truncf .bf16 (rectified (hiddenPre v0 v2 v5)) bitsLt_bf16_f32
  have v16 : FVec F S1024x256 .bf16 := shapeCast S1024x256 v15 shapeCasts_S1024x256_S1024x256
  have cst_9 : FVec F S1024x256 .f32 := constant S1024x256 .f32 0x00000000#32
  have v17 : FVec F S1024x256 .f32 := matmul dot_S1024x1024_S1024x256_S1024x256_1_0_0_1_n_n none v14 v16 cst_9
  have v19 : FVec F S1x256 .f32 := shapeCast S1x256 v18 shapeCasts_S1x256_S1x256
  have v20 : FVec F S1024x256 .f32 := broadcastTo S1024x256 v19 broadcasts_S1x256_S1024x256
  addf v17 v20

/-- A row's Euclidean length laid along the row, from the block `w` of rows. -/
def rowNorm (w : FVec F S1024x256 .f32) : FVec F S1024x256 .f32 :=
  have v22 : FVec F S1024x256 .f32 := mulf w w
  have v23 : FVec F S1024 .f32 := multiReduction .add [1] S1024 v22 0x00000000#32 reduces_S1024x256_S1024 (.inl rfl) rfl
  have v24 : FVec F S1024x1 .f32 := shapeCast S1024x1 v23 shapeCasts_S1024_S1024x1
  have v25 : FVec F S1024x1 .f32 := sqrt v24
  broadcastTo S1024x256 v25 broadcasts_S1024x1_S1024x256

/-- The stored value is the head divided by its rows' lengths. -/
theorem pay_eq (v0 : Vec F S1024x1024 .f32) (v2 : Vec F S1024x1024 .bf16) (v5 : Vec F S1x1024 .f32)
    (v15 : Vec F S1024x256 .bf16) (v18 : Vec F S1x256 .f32) :
    k0_pay3 v0 v2 v5 v15 v18 = divf (headPre v0 v2 v5 v15 v18) (rowNorm (headPre v0 v2 v5 v15 v18)) := rfl

end Stages

/-- The hidden layer at row `p`, unit `h`: the first affine layer of row `p`. -/
theorem hiddenPre_at (v0 : Vec Ideal S1024x1024 .f32) (v2 : Vec Ideal S1024x1024 .bf16) (v5 : Vec Ideal S1x1024 .f32)
    (p h : Fin 1024) :
    hiddenPre (F := Ideal) v0 v2 v5 (ix2 p h)
      = affine (fun k : Fin 1024 => v0 (ix2 p k)) (fun (k h : Fin 1024) => v2 (ix2 k h))
          (fun h : Fin 1024 => v5 (ix2 (0 : Fin 1) h)) h := by
  unfold hiddenPre affine
  refine (addf_apply _ _ _).trans ?_
  refine congrArg₂ (· + ·) ?_ ?_
  · refine (first_product_at _ _ p h).trans ?_
    rw [shapeCast_self]
    rfl
  · refine (broadcastTo_1b_ab_apply _ _ p h).trans ?_
    rw [shapeCast_self]

/-- The rectifier acts entry by entry. -/
theorem rectified_at (v8 : FVec Ideal S1024x1024 .f32) (i : S1024x1024.Idx) :
    rectified (F := Ideal) v8 i = leaky (v8 i) := rfl

/-- The head at row `p`, column `d`: the two-layer head of row `p`. -/
theorem headPre_at (v0 : Vec Ideal S1024x1024 .f32) (v2 : Vec Ideal S1024x1024 .bf16) (v5 : Vec Ideal S1x1024 .f32)
    (v15 : Vec Ideal S1024x256 .bf16) (v18 : Vec Ideal S1x256 .f32) (p : Fin 1024) (d : Fin 256) :
    headPre (F := Ideal) v0 v2 v5 v15 v18 (ix2 p d)
      = twoLayer (fun k : Fin 1024 => v0 (ix2 p k)) (fun (k h : Fin 1024) => v2 (ix2 k h))
          (fun h : Fin 1024 => v5 (ix2 (0 : Fin 1) h)) (fun (h : Fin 1024) (d : Fin 256) => v15 (ix2 h d))
          (fun d : Fin 256 => v18 (ix2 (0 : Fin 1) d)) d := by
  unfold headPre twoLayer
  refine (addf_apply _ _ _).trans ?_
  show _ = (∑ k : Fin 1024, leaky (affine (fun k : Fin 1024 => v0 (ix2 p k)) (fun (k h : Fin 1024) => v2 (ix2 k h))
          (fun h : Fin 1024 => v5 (ix2 (0 : Fin 1) h)) k) * v15 (ix2 k d)) + v18 (ix2 (0 : Fin 1) d)
  refine congrArg₂ (· + ·) ?_ ?_
  · refine (second_product_at _ _ p d).trans ?_
    rw [shapeCast_self]
    refine Finset.sum_congr rfl fun k _ => ?_
    refine congrArg (· * v15 (ix2 k d)) ?_
    show rectified (F := Ideal) (hiddenPre v0 v2 v5) (ix2 p k) = _
    rw [rectified_at, hiddenPre_at]
  · refine (broadcastTo_1b_ab_apply _ _ p d).trans ?_
    rw [shapeCast_self]

/-- A row's length, laid along the row, at row `p`: the root of the row's sum of squares. -/
theorem rowNorm_at (w : FVec Ideal S1024x256 .f32) (p : Fin 1024) (d : Fin 256) :
    rowNorm (F := Ideal) w (ix2 p d) = Ideal.sqrt (∑ k : Fin 256, w (ix2 p k) * w (ix2 p k)) := by
  unfold rowNorm
  refine (broadcastTo_apply _ broadcasts_S1024x1_S1024x256 (ix2 p d) (ix2 p (0 : Fin 1)) fun a => ?_).trans ?_
  · match a with
    | ⟨0, _⟩ => rfl
    | ⟨1, _⟩ => rfl
  show Ideal.sqrt (shapeCast S1024x1 _ shapeCasts_S1024_S1024x1 (ix2 p (0 : Fin 1))) = _
  refine congrArg Ideal.sqrt ?_
  refine (shapeCast_apply _ shapeCasts_S1024_S1024x1 (ix2 p (0 : Fin 1)) (ix1 p) ?_).trans ?_
  · rw [Shape.rowMajor_val_two, Shape.rowMajor_val_one]
    show p.val = p.val * 1 + 0
    omega
  refine (Ideal.multiReduction_add_single (mulf w w) _ reduces_S1024x256_S1024 _ _ (ix1 p)).trans ?_
  refine Finset.sum_congr rfl fun k _ => ?_
  have e : reduces_S1024x256_S1024.lift (ix1 p) k = ix2 p k := funext fun a => Fin.ext (by
    match a with
    | ⟨0, _⟩ => rfl
    | ⟨1, _⟩ => rfl)
  rw [e]
  rfl

/-- The body's embedding value (the payload of its first store) at row `p`, column `d` of the block: the unit row of the
    two-layer head of row `p` of the loaded feature block. -/
theorem emb_block_at (v0 : Vec Ideal S1024x1024 .f32) (v2 : Vec Ideal S1024x1024 .bf16) (v5 : Vec Ideal S1x1024 .f32)
    (v15 : Vec Ideal S1024x256 .bf16) (v18 : Vec Ideal S1x256 .f32) (p : Fin 1024) (d : Fin 256) :
    k0_pay3 v0 v2 v5 v15 v18 (ix2 p d)
      = unitRow (twoLayer (fun k : Fin 1024 => v0 (ix2 p k)) (fun (k h : Fin 1024) => v2 (ix2 k h))
          (fun h : Fin 1024 => v5 (ix2 (0 : Fin 1) h)) (fun (h : Fin 1024) (d : Fin 256) => v15 (ix2 h d))
          (fun d : Fin 256 => v18 (ix2 (0 : Fin 1) d))) d := by
  rw [pay_eq]
  refine (divf_apply _ _ _).trans ?_
  unfold unitRow sumSq
  rw [rowNorm_at, headPre_at]
  refine congrArg (fun s => Ideal.div _ (Ideal.sqrt s)) ?_
  refine Finset.sum_congr rfl fun k _ => ?_
  rw [headPre_at]

/-! ## What the run stores into the embeddings' staging buffer -/

theorem hz : (![0, 0] : Fin 2 → Nat) = fun _ => 0 := funext fun a => by fin_cases a <;> rfl

section Piece
variable {F : FTy → Type} [FloatOps F]

/-- The run's one store into the embeddings' buffer covers it, and its loads read whole buffers: the buffer ends at the
    stored value of the five loaded blocks. -/
theorem emb_piece (c : Dev nD) (i : grid0.Coords) (arg1 : Memref sig .tc .vmem S1024x1024 .f32) (harg1 : arg1.IsWhole) (arg2 : Memref sig .tc .vmem S1024x1024 .bf16) (harg2 : arg2.IsWhole) (arg3 : Memref sig .tc .vmem S1x1024 .f32) (harg3 : arg3.IsWhole) (arg4 : Memref sig .tc .vmem S1024x256 .bf16) (harg4 : arg4.IsWhole) (arg5 : Memref sig .tc .vmem S1x256 .f32) (harg5 : arg5.IsWhole) (arg6 : Memref sig .tc .vmem S20x256 .f32) (harg6 : arg6.IsWhole) (arg7 : Memref sig .tc .vmem S1x20 .f32) (harg7 : arg7.IsWhole) (arg8 : Memref sig .tc .vmem S1x20 .f32) (harg8 : arg8.IsWhole) (arg9 : Memref sig .tc .vmem S1x20 .f32) (harg9 : arg9.IsWhole) (arg10 : Memref sig .tc .vmem S1024x256 .f32) (harg10 : arg10.IsWhole) (arg11 : Memref sig .tc .vmem S1024x21 .f32) (harg11 : arg11.IsWhole)
    (x0 : Vec F S1024x1024 .f32) (x1 : Vec F S1024x1024 .bf16) (x2 : Vec F S1x1024 .f32) (x3 : Vec F S1024x256 .bf16) (x4 : Vec F S1x256 .f32) (x5 : Vec F S20x256 .f32) (x6 : Vec F S1x20 .f32) (x7 : Vec F S1x20 .f32) (x8 : Vec F S1x20 .f32) :
    out0_A_9 c i arg1 harg1 arg2 harg2 arg3 harg3 arg4 harg4 arg5 harg5 arg6 harg6 arg7 harg7 arg8 harg8 arg9 harg9 arg10 harg10 arg11 harg11 x0 x1 x2 x3 x4 x5 x6 x7 x8 = k0_pay3 x0 x1 x2 x3 x4 := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 x0 x1 x2 x3 x4 x5 x6 x7 x8)]
  unfold kernelRun0_A
  dsimp only
  sl_unfold_words
  rw [View.canon_unit_zero hz]
  simp only [View.readAt_eq_ld, harg1.read_unread, harg2.read_unread, harg3.read_unread, harg4.read_unread, harg5.read_unread,
    View.ld_unit_zero (S := S1024x1024) hz, View.ld_unit_zero (S := S1x1024) hz, View.ld_unit_zero (S := S1024x256) hz,
    View.ld_unit_zero (S := S1x256) hz]

end Piece

-- the TensorCore's buffer contents when the region is entered
variable (V : (c : Dev nD) → (b : Ref sig .tc) → Buf (Elt Ideal) ((c : Thread nD τ).loc b))

/-- Row `n` of the embeddings, as a function of the region's operands as it finds them. -/
def embRowOf (c : Dev nD) (n : Fin 8192) : Fin 256 → EReal :=
  unitRow (twoLayer (fun k : Fin 1024 => V c main_arg0 (ix2 n k)) (fun (k h : Fin 1024) => V c main_v22 (ix2 k h))
    (fun h : Fin 1024 => V c main_v24 (ix2 (0 : Fin 1) h)) (fun (h : Fin 1024) (d : Fin 256) => V c main_v23 (ix2 h d))
    (fun d : Fin 256 => V c main_v25 (ix2 (0 : Fin 1) d)))

/-! ## The blocks a point loads, read off the arrays -/

/-- The block index of every window the stored value reads, and of the embeddings' window, at every point: the
    features' and the embeddings' blocks move down with the point, the weights' and biases' blocks are their arrays. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_9.index t (0 : Fin 2) = t.val ∧ win0_9.index t (1 : Fin 2) = 0 :=
  (by decide +kernel : ∀ t : Fin grid0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_9.index t (0 : Fin 2) = t.val ∧ win0_9.index t (1 : Fin 2) = 0)

/-- The five blocks the stored value reads at point `t`, at their literal types. -/
abbrev featBlk (c : Dev nD) (t : Fin cfg0.N) : Vec Ideal S1024x1024 .f32 := iblk0 V c 0 t
abbrev w1Blk (c : Dev nD) (t : Fin cfg0.N) : Vec Ideal S1024x1024 .bf16 := iblk0 V c 1 t
abbrev b1Blk (c : Dev nD) (t : Fin cfg0.N) : Vec Ideal S1x1024 .f32 := iblk0 V c 2 t
abbrev w2Blk (c : Dev nD) (t : Fin cfg0.N) : Vec Ideal S1024x256 .bf16 := iblk0 V c 3 t
abbrev b2Blk (c : Dev nD) (t : Fin cfg0.N) : Vec Ideal S1x256 .f32 := iblk0 V c 4 t

/-- Row `p` of point `t`'s feature block is row `1024·t + p` of the features. -/
theorem featBlk_at (c : Dev nD) (t : Fin cfg0.N) (p k : Fin 1024) (n : Fin 8192) (hn : n.val = t.val * 1024 + p.val) :
    featBlk V c t (ix2 p k) = V c main_arg0 (ix2 n k) := by
  obtain ⟨e0, e1, -⟩ := idx_facts t
  show V c main_arg0 (((cfg0.win 0).blk t).view.emb (ix2 p k)) = V c main_arg0 (ix2 n k)
  congr 1
  funext a
  apply Fin.ext
  match a with
  | ⟨0, _⟩ => show win0_0.index t (0 : Fin 2) * 1024 + 1 * p.val = n.val; rw [e0]; omega
  | ⟨1, _⟩ => show win0_0.index t (1 : Fin 2) * 1024 + 1 * k.val = k.val; rw [e1]; omega

/-- The first weights' block is their array. -/
theorem w1Blk_at (c : Dev nD) (t : Fin cfg0.N) (k h : Fin 1024) : w1Blk V c t (ix2 k h) = V c main_v22 (ix2 k h) := by
  obtain ⟨-, -, e0, e1, -⟩ := idx_facts t
  show V c main_v22 (((cfg0.win 1).blk t).view.emb (ix2 k h)) = V c main_v22 (ix2 k h)
  congr 1
  funext a
  apply Fin.ext
  match a with
  | ⟨0, _⟩ => show win0_1.index t (0 : Fin 2) * 1024 + 1 * k.val = k.val; rw [e0]; omega
  | ⟨1, _⟩ => show win0_1.index t (1 : Fin 2) * 1024 + 1 * h.val = h.val; rw [e1]; omega

/-- The first bias row's block is its array. -/
theorem b1Blk_at (c : Dev nD) (t : Fin cfg0.N) (h : Fin 1024) :
    b1Blk V c t (ix2 (0 : Fin 1) h) = V c main_v24 (ix2 (0 : Fin 1) h) := by
  obtain ⟨-, -, -, -, e0, e1, -⟩ := idx_facts t
  show V c main_v24 (((cfg0.win 2).blk t).view.emb (ix2 (0 : Fin 1) h)) = V c main_v24 (ix2 (0 : Fin 1) h)
  congr 1
  funext a
  apply Fin.ext
  match a with
  | ⟨0, _⟩ => show win0_2.index t (0 : Fin 2) * 1 + 1 * 0 = 0; rw [e0]
  | ⟨1, _⟩ => show win0_2.index t (1 : Fin 2) * 1024 + 1 * h.val = h.val; rw [e1]; omega

/-- The second weights' block is their array. -/
theorem w2Blk_at (c : Dev nD) (t : Fin cfg0.N) (h : Fin 1024) (d : Fin 256) :
    w2Blk V c t (ix2 h d) = V c main_v23 (ix2 h d) := by
  obtain ⟨-, -, -, -, -, -, e0, e1, -⟩ := idx_facts t
  show V c main_v23 (((cfg0.win 3).blk t).view.emb (ix2 h d)) = V c main_v23 (ix2 h d)
  congr 1
  funext a
  apply Fin.ext
  match a with
  | ⟨0, _⟩ => show win0_3.index t (0 : Fin 2) * 1024 + 1 * h.val = h.val; rw [e0]; omega
  | ⟨1, _⟩ => show win0_3.index t (1 : Fin 2) * 256 + 1 * d.val = d.val; rw [e1]; omega

/-- The second bias row's block is its array. -/
theorem b2Blk_at (c : Dev nD) (t : Fin cfg0.N) (d : Fin 256) :
    b2Blk V c t (ix2 (0 : Fin 1) d) = V c main_v25 (ix2 (0 : Fin 1) d) := by
  obtain ⟨-, -, -, -, -, -, -, -, e0, e1, -⟩ := idx_facts t
  show V c main_v25 (((cfg0.win 4).blk t).view.emb (ix2 (0 : Fin 1) d)) = V c main_v25 (ix2 (0 : Fin 1) d)
  congr 1
  funext a
  apply Fin.ext
  match a with
  | ⟨0, _⟩ => show win0_4.index t (0 : Fin 2) * 1 + 1 * 0 = 0; rw [e0]
  | ⟨1, _⟩ => show win0_4.index t (1 : Fin 2) * 256 + 1 * d.val = d.val; rw [e1]; omega

/-- What point `t` stores at row `p` of its block is row `1024·t + p` of the embeddings. -/
theorem emb_point (c : Dev nD) (t : Fin cfg0.N) (p : Fin 1024) (d : Fin 256) (n : Fin 8192)
    (hn : n.val = t.val * 1024 + p.val) :
    k0_pay3 (F := Ideal) (featBlk V c t) (w1Blk V c t) (b1Blk V c t) (w2Blk V c t) (b2Blk V c t) (ix2 p d)
      = embRowOf V c n d := by
  refine (emb_block_at (featBlk V c t) (w1Blk V c t) (b1Blk V c t) (w2Blk V c t) (b2Blk V c t) p d).trans ?_
  have e0 : (fun k : Fin 1024 => featBlk V c t (ix2 p k)) = fun k : Fin 1024 => V c main_arg0 (ix2 n k) :=
    funext fun k => featBlk_at V c t p k n hn
  have e1 : (fun (k h : Fin 1024) => w1Blk V c t (ix2 k h)) = fun (k h : Fin 1024) => V c main_v22 (ix2 k h) :=
    funext fun k => funext fun h => w1Blk_at V c t k h
  have e2 : (fun h : Fin 1024 => b1Blk V c t (ix2 (0 : Fin 1) h)) = fun h : Fin 1024 => V c main_v24 (ix2 (0 : Fin 1) h) :=
    funext fun h => b1Blk_at V c t h
  have e3 : (fun (h : Fin 1024) (d : Fin 256) => w2Blk V c t (ix2 h d))
      = fun (h : Fin 1024) (d : Fin 256) => V c main_v23 (ix2 h d) :=
    funext fun h => funext fun d => w2Blk_at V c t h d
  have e4 : (fun d : Fin 256 => b2Blk V c t (ix2 (0 : Fin 1) d)) = fun d : Fin 256 => V c main_v25 (ix2 (0 : Fin 1) d) :=
    funext fun d => b2Blk_at V c t d
  rw [e0, e1, e2, e3, e4]
  rfl

/-! ## The eight blocks are one array -/

/-- The whole embeddings array: row `n` is the unit row of the two-layer head of row `n` of the features. -/
def embArr (c : Dev nD) : S8192x256.Idx → EReal :=
  fun i => embRowOf V c ⟨(i 0).val, (i 0).isLt⟩ ⟨(i 1).val, (i 1).isLt⟩

theorem embArr_at (c : Dev nD) (i : S8192x256.Idx) (n : Fin 8192) (d : Fin 256) (h0 : (i 0).val = n.val)
    (h1 : (i 1).val = d.val) : embArr V c i = embRowOf V c n d := by
  have e0 : (⟨(i 0).val, (i 0).isLt⟩ : Fin 8192) = n := Fin.ext h0
  have e1 : (⟨(i 1).val, (i 1).isLt⟩ : Fin 256) = d := Fin.ext h1
  show embRowOf V c ⟨(i 0).val, (i 0).isLt⟩ ⟨(i 1).val, (i 1).isLt⟩ = _
  rw [e0, e1]

/-- What point `t` writes back is block `t` of that array. -/
theorem emb_flushed (c : Dev nD) (t : Fin cfg0.N) :
    (dat0 V c).flushed 9 t = ((cfg0.win 9).blk t).view.read (Elt Ideal) (embArr V c) := by
  show (cfg0.win 9).cut (grid0.coords t) ((dat0 V c).after 9 t) = _
  rw [after0_9]
  dsimp only [outsAt0]
  rw [emb_piece (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk0 V c 0 t) (iblk0 V c 1 t) (iblk0 V c 2 t) (iblk0 V c 3 t) (iblk0 V c 4 t) (iblk0 V c 5 t) (iblk0 V c 6 t) (iblk0 V c 7 t) (iblk0 V c 8 t)]
  obtain ⟨-, -, -, -, -, -, -, -, -, -, e0, e1⟩ := idx_facts t
  have hN : grid0.N = 8 := N_0
  have ht : t.val < 8 := by have h : t.val < grid0.N := t.isLt; omega
  funext y
  have hy0 : (y 0).val < 1024 := (y 0).isLt
  have hy1 : (y 1).val < 256 := (y 1).isLt
  have hy : (y : S1024x256.Idx) = ix2 (⟨(y 0).val, hy0⟩ : Fin 1024) (⟨(y 1).val, hy1⟩ : Fin 256) :=
    funext fun a => Fin.ext (by
      match a with
      | ⟨0, _⟩ => rfl
      | ⟨1, _⟩ => rfl)
  show k0_pay3 (F := Ideal) (featBlk V c t) (w1Blk V c t) (b1Blk V c t) (w2Blk V c t) (b2Blk V c t) y
      = embArr V c (((cfg0.win 9).blk t).view.emb y)
  refine (congrArg (k0_pay3 (F := Ideal) (featBlk V c t) (w1Blk V c t) (b1Blk V c t) (w2Blk V c t) (b2Blk V c t)) hy).trans ?_
  refine (emb_point V c t ⟨(y 0).val, hy0⟩ ⟨(y 1).val, hy1⟩ ⟨t.val * 1024 + (y 0).val, by omega⟩ rfl).trans ?_
  refine (embArr_at V c _ _ _ ?_ ?_).symm
  · show win0_9.index t (0 : Fin 2) * 1024 + 1 * (y 0).val = t.val * 1024 + (y 0).val
    rw [e0]; omega
  · show win0_9.index t (1 : Fin 2) * 256 + 1 * (y 1).val = (y 1).val
    rw [e1]; omega

/-- An index of the array is in point `t`'s block iff each coordinate is in the block's range on its axis. -/
theorem mem_blk (t : Fin cfg0.N) (i : S8192x256.Idx) :
    i ∈ ((cfg0.win 9).blk t).view.set ↔ ∀ a : Fin 2, win0_9.index t a * S1024x256.size a ≤ (i a).val
      ∧ (i a).val < win0_9.index t a * S1024x256.size a + S1024x256.size a := by
  show i ∈ ((View.whole main_v26_0).slice (win0_9.rect t)).set ↔ _
  rw [View.set_slice_whole, Rect.mem_set_unit]
  exact Iff.rfl

/-- Row `r` of the array lies in the block of point `r / 1024`. -/
theorem emb_cover (i : S8192x256.Idx) :
    ∃ t : Fin cfg0.N, (cfg0.win 9).flush t = true ∧ i ∈ ((cfg0.win 9).blk t).view.set := by
  have hN : grid0.N = 8 := N_0
  have hi0 : (i 0).val < 8192 := (i 0).isLt
  have hi1 : (i 1).val < 256 := (i 1).isLt
  obtain ⟨t, ht⟩ : ∃ t : Fin cfg0.N, t.val = (i 0).val / 1024 :=
    ⟨⟨(i 0).val / 1024, by show _ < grid0.N; omega⟩, rfl⟩
  obtain ⟨-, -, -, -, -, -, -, -, -, -, e0, e1⟩ := idx_facts t
  refine ⟨t, flush0_9 t, ?_⟩
  rw [mem_blk]
  intro a
  match a with
  | ⟨0, _⟩ =>
    show win0_9.index t (0 : Fin 2) * 1024 ≤ (i 0).val ∧ (i 0).val < win0_9.index t (0 : Fin 2) * 1024 + 1024
    rw [e0]; omega
  | ⟨1, _⟩ =>
    show win0_9.index t (1 : Fin 2) * 256 ≤ (i 1).val ∧ (i 1).val < win0_9.index t (1 : Fin 2) * 256 + 256
    rw [e1]; omega

/-- Row `n`, column `d` of the embeddings array after the run. -/
theorem emb_at (c : Dev nD) (n : Fin 8192) (d : Fin 256) :
    (dat0 V c).arrAt 9 cfg0.N (ix2 n d) = embRowOf V c n d := by
  rw [(dat0 V c).arrAt_eq_of_cover 9 (embArr V c) (fun t _ => emb_flushed V c t) (fun i => emb_cover i)]
  exact embArr_at V c (ix2 n d) n d rfl rfl

end Cert.KernelIdeal.Embed

end
-- ==== Proof.ScorePay.lean ====
/-
  The two values the fused region's body stores into a block of scores, at a block index, over ANY block `e` of
  embeddings: the prototype scores (a matrix-unit product of `e` with the transposed prototypes for the inner products, the
  row's squared length by a lane sum, then `exp (-(dist²) / 2 / s) · w`, the negation spelled `0 - d`), and one minus the
  row's largest score (a lane maximum from `-∞`).
-/
import proofs.«138867_j36335423324183_1_alg».proof.Proof.Gen.KernelIdeal.Frame
import proofs.«138867_j36335423324183_1_alg».proof.Proof.RowSpec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.ScorePay

open Cert.KernelIdeal Cert.KernelIdeal.Gen Cert.RowSpec
open Idealize.ShloMosaic Idealize.ShloMosaic.TcCoe Idealize.SL.Sem Idealize.ShloMosaic.ValueIdx
open Idealize.ShloMosaic.Pipeline (Dat Cfg Window)

/-! ## Layout forms read at coordinates: a vector as a column, a column along its rows -/

/-- A vector cast to a one-column matrix reads, at (i, u), the vector at i: both positions in row-major order are i. -/
private theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A one-column matrix broadcast along its rows reads, at (p, c), the column at p. -/
private theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The two contractions: a row's squared length, and its inner product with a prototype -/

/-- The lane sum of the entrywise squares of a block, at row p: the sum over the row's 256 entries of each entry times itself. -/
private theorem sumSq_at (e : FVec Ideal S1024x256 .f32) (p : Fin 1024) :
    multiReduction (F := Ideal) .add [1] S1024 (mulf e e) 0x00000000#32 reduces_S1024x256_S1024 (.inl rfl) rfl (ix1 p)
      = ∑ d : Fin 256, e (ix2 p d) * e (ix2 p d) := by
  refine (Ideal.multiReduction_add_single (mulf e e) _ reduces_S1024x256_S1024 _ _ (ix1 p)).trans ?_
  refine Finset.sum_congr rfl fun d _ => ?_
  -- the reduced index p with the lane d put back is (p, d)
  have hl : reduces_S1024x256_S1024.lift (ix1 p) d = ix2 p d := by
    funext a
    match a with
    | ⟨0, _⟩ => rfl
    | ⟨1, _⟩ => rfl
  exact congrArg (mulf e e) hl

/-- The left operand's index of the product, at output index i and contraction index q: its row is the row of i … -/
private theorem dotL0 (i : S1024x20.Idx) (q : dot_S1024x256_S256x20_S1024x20_1_0_0_1_n_n.contr.Idx) :
    (dot_S1024x256_S256x20_S1024x20_1_0_0_1_n_n.lhsIdx i q 0).val = (i 0).val := by
  unfold DotDims.lhsIdx
  rw [dif_neg (show ¬(0 : Fin S1024x256.rank) ∈ dot_S1024x256_S256x20_S1024x20_1_0_0_1_n_n.lhsBatch by decide), dif_pos (show (0 : Fin S1024x256.rank) ∈ dot_S1024x256_S256x20_S1024x20_1_0_0_1_n_n.lhsNonContracting by decide)]
  rfl
/-- … and its column is the contraction coordinate. -/
private theorem dotL1 (i : S1024x20.Idx) (q : dot_S1024x256_S256x20_S1024x20_1_0_0_1_n_n.contr.Idx) :
    (dot_S1024x256_S256x20_S1024x20_1_0_0_1_n_n.lhsIdx i q 1).val = (q ⟨0, by decide⟩).val :=
  dot_S1024x256_S256x20_S1024x20_1_0_0_1_n_n.lhsIdx_val_of_single rfl i q
/-- The right operand's index: its row is the contraction coordinate … -/
private theorem dotR0 (i : S1024x20.Idx) (q : dot_S1024x256_S256x20_S1024x20_1_0_0_1_n_n.contr.Idx) :
    (dot_S1024x256_S256x20_S1024x20_1_0_0_1_n_n.rhsIdx i q 0).val = (q ⟨0, by decide⟩).val :=
  dot_S1024x256_S256x20_S1024x20_1_0_0_1_n_n.rhsIdx_val_of_single rfl i q
/-- … and its column is the column of i. -/
private theorem dotR1 (i : S1024x20.Idx) (q : dot_S1024x256_S256x20_S1024x20_1_0_0_1_n_n.contr.Idx) :
    (dot_S1024x256_S256x20_S1024x20_1_0_0_1_n_n.rhsIdx i q 1).val = (i 1).val := by
  unfold DotDims.rhsIdx
  rw [dif_neg (show ¬(1 : Fin S256x20.rank) ∈ dot_S1024x256_S256x20_S1024x20_1_0_0_1_n_n.rhsBatch by decide), dif_pos (show (1 : Fin S256x20.rank) ∈ dot_S1024x256_S256x20_S1024x20_1_0_0_1_n_n.rhsNonContracting by decide)]
  rfl

/-- The matrix product of a [1024, 256] block with a [256, 20] one into the zero block, at (p, k): the sum over d of the
    left operand at (p, d) times the right at (d, k); the zero it starts from adds nothing. -/
private theorem inner_at (e : FVec Ideal S1024x256 .f32) (w : FVec Ideal S256x20 .f32) (p : Fin 1024) (k : Fin 20) :
    matmul dot_S1024x256_S256x20_S1024x20_1_0_0_1_n_n none e w (constant (F := Ideal) S1024x20 .f32 0x00000000#32) (ix2 p k)
      = ∑ d : Fin 256, e (ix2 p d) * w (ix2 d k) := by
  refine (Ideal.matmul_constant_zero_apply dot_S1024x256_S256x20_S1024x20_1_0_0_1_n_n none e w (ix2 p k)).trans ?_
  -- the one-axis contraction index is its coordinate
  rw [← Equiv.sum_comp (ValueIdx.contrEquiv1 dot_S1024x256_S256x20_S1024x20_1_0_0_1_n_n 256 rfl rfl).symm]
  refine Finset.sum_congr rfl fun d _ => ?_
  have hk := ValueIdx.contrEquiv1_symm_val dot_S1024x256_S256x20_S1024x20_1_0_0_1_n_n 256 rfl rfl d
  have el : dot_S1024x256_S256x20_S1024x20_1_0_0_1_n_n.lhsIdx (ix2 p k) ((ValueIdx.contrEquiv1 dot_S1024x256_S256x20_S1024x20_1_0_0_1_n_n 256 rfl rfl).symm d) = ix2 p d := funext fun a => Fin.ext (by
    match a with
    | ⟨0, _⟩ => exact dotL0 _ _
    | ⟨1, _⟩ => exact (dotL1 _ _).trans hk)
  have er : dot_S1024x256_S256x20_S1024x20_1_0_0_1_n_n.rhsIdx (ix2 p k) ((ValueIdx.contrEquiv1 dot_S1024x256_S256x20_S1024x20_1_0_0_1_n_n 256 rfl rfl).symm d) = ix2 d k := funext fun a => Fin.ext (by
    match a with
    | ⟨0, _⟩ => exact (dotR0 _ _).trans hk
    | ⟨1, _⟩ => exact dotR1 _ _)
  rw [el, er]

/-! ## The two stored values -/

/-- The prototype scores' value at row `p`, prototype `k` of the block. -/
theorem proto_block_at (e : FVec Ideal S1024x256 .f32) (v30 : FVec Ideal S20x256 .f32) (v32 v34 : FVec Ideal S1x20 .f32)
    (v35 : Vec Ideal S1x20 .f32) (p : Fin 1024) (k : Fin 20) :
    k0_pay1 e v30 v32 v34 v35 (ix2 p k)
      = protoScore (fun d : Fin 256 => e (ix2 p d)) (fun d : Fin 256 => v30 (ix2 k d)) (v32 (ix2 (0 : Fin 1) k))
          (v34 (ix2 (0 : Fin 1) k)) (v35 (ix2 (0 : Fin 1) k)) := by
  unfold k0_pay1
  -- the squared length of row p, through the lane sum, the cast to a column and the broadcast along the row
  have hA : broadcastTo S1024x20 (shapeCast S1024x1 (multiReduction (F := Ideal) .add [1] S1024 (mulf e e) 0x00000000#32
        reduces_S1024x256_S1024 (.inl rfl) rfl) shapeCasts_S1024_S1024x1) broadcasts_S1024x1_S1024x20 (ix2 p k)
      = ∑ d : Fin 256, e (ix2 p d) * e (ix2 p d) :=
    (broadcastTo_a1_ab_apply _ broadcasts_S1024x1_S1024x20 p k).trans
      ((shapeCast_a_a1_apply _ shapeCasts_S1024_S1024x1 p 0).trans (sumSq_at e p))
  -- the three per-prototype rows, each broadcast down the block
  have hB : broadcastTo S1024x20 v32 broadcasts_S1x20_S1024x20 (ix2 p k) = v32 (ix2 (0 : Fin 1) k) :=
    broadcastTo_1b_ab_apply v32 broadcasts_S1x20_S1024x20 p k
  have hS : broadcastTo S1024x20 v34 broadcasts_S1x20_S1024x20 (ix2 p k) = v34 (ix2 (0 : Fin 1) k) :=
    broadcastTo_1b_ab_apply v34 broadcasts_S1x20_S1024x20 p k
  have hW : broadcastTo S1024x20 (shapeCast S1x20 v35 shapeCasts_S1x20_S1x20) broadcasts_S1x20_S1024x20 (ix2 p k)
      = v35 (ix2 (0 : Fin 1) k) :=
    (broadcastTo_1b_ab_apply _ broadcasts_S1x20_S1024x20 p k).trans
      (congrFun (shapeCast_self v35 shapeCasts_S1x20_S1x20) (ix2 (0 : Fin 1) k))
  -- the inner product of row p with prototype k, through the product with the transposed prototypes
  have hM : matmul dot_S1024x256_S256x20_S1024x20_1_0_0_1_n_n none e
        (transpose S256x20 [1, 0] v30 transposes_S20x256_p1_0_S256x20) (constant (F := Ideal) S1024x20 .f32 0x00000000#32) (ix2 p k)
      = ∑ d : Fin 256, e (ix2 p d) * v30 (ix2 k d) :=
    (inner_at e _ p k).trans (Finset.sum_congr rfl fun d _ =>
      congrArg (e (ix2 p d) * ·) (transpose_ix2_apply v30 transposes_S20x256_p1_0_S256x20 d k))
  -- every remaining operation acts entry by entry, so the entry at (p, k) is this expression of the five entries above
  show Ideal.exp (Ideal.div (Ideal.div (zeroW -
        ((broadcastTo S1024x20 (shapeCast S1024x1 (multiReduction (F := Ideal) .add [1] S1024 (mulf e e) 0x00000000#32
              reduces_S1024x256_S1024 (.inl rfl) rfl) shapeCasts_S1024_S1024x1) broadcasts_S1024x1_S1024x20 (ix2 p k)
            + broadcastTo S1024x20 v32 broadcasts_S1x20_S1024x20 (ix2 p k))
          - twoW * matmul dot_S1024x256_S256x20_S1024x20_1_0_0_1_n_n none e
              (transpose S256x20 [1, 0] v30 transposes_S20x256_p1_0_S256x20) (constant (F := Ideal) S1024x20 .f32 0x00000000#32) (ix2 p k)))
        twoW) (broadcastTo S1024x20 v34 broadcasts_S1x20_S1024x20 (ix2 p k)))
      * broadcastTo S1024x20 (shapeCast S1x20 v35 shapeCasts_S1x20_S1x20) broadcasts_S1x20_S1024x20 (ix2 p k) = _
  -- subtracting from the word 0.0 is negation; what is left is the score's definition
  rw [hA, hB, hS, hW, hM, zeroW_sub]
  rfl

/-- The background score's value at row `p` of the block: one minus the largest prototype score of the row. -/
theorem bg_block_at (e : FVec Ideal S1024x256 .f32) (v30 : FVec Ideal S20x256 .f32) (v32 v34 : FVec Ideal S1x20 .f32)
    (v35 : Vec Ideal S1x20 .f32) (p : Fin 1024) :
    k0_pay2 e v30 v32 v34 v35 (ix2 p (0 : Fin 1))
      = oneW - (Finset.univ : Finset (Fin 20)).fold max negInfW (fun k : Fin 20 =>
          protoScore (fun d : Fin 256 => e (ix2 p d)) (fun d : Fin 256 => v30 (ix2 k d)) (v32 (ix2 (0 : Fin 1) k))
            (v34 (ix2 (0 : Fin 1) k)) (v35 (ix2 (0 : Fin 1) k))) := by
  unfold k0_pay2
  show oneW - shapeCast S1024x1 (multiReduction (F := Ideal) .maximumf [1] S1024 (k0_pay1 e v30 v32 v34 v35) 0xFF800000#32
      reduces_S1024x20_S1024 (.inl rfl) rfl) shapeCasts_S1024_S1024x1 (ix2 p (0 : Fin 1)) = _
  refine congrArg (oneW - ·) ?_
  -- the column entry is the lane maximum at row p, a fold of max from the word -∞ over the row's twenty scores
  refine (shapeCast_a_a1_apply _ shapeCasts_S1024_S1024x1 p 0).trans ?_
  refine (Ideal.multiReduction_maximumf_single (k0_pay1 e v30 v32 v34 v35) _ reduces_S1024x20_S1024 _ _ (ix1 p)).trans ?_
  refine congrArg (fun f : Fin 20 → EReal => (Finset.univ : Finset (Fin 20)).fold max negInfW f) (funext fun k => ?_)
  -- the reduced index p with the lane k put back is (p, k); there the entry is the prototype score
  have hl : reduces_S1024x20_S1024.lift (ix1 p) k = ix2 p k := by
    funext a
    match a with
    | ⟨0, _⟩ => rfl
    | ⟨1, _⟩ => rfl
  exact (congrArg (k0_pay1 e v30 v32 v34 v35) hl).trans (proto_block_at e v30 v32 v34 v35 p k)

end Cert.KernelIdeal.ScorePay

end
-- ==== Proof.Scores.lean ====
/-
  The scores output of the fused region. The body writes a block of scores in two pieces: column `0` holds one minus the
  row's largest prototype score, columns `1 … 20` the prototype scores, each computed from the row of embeddings the
  same body has just formed. After the eight grid points row `n` of the scores array is the score row of row `n` of the
  embeddings against the prototype operands.
-/
import proofs.«138867_j36335423324183_1_alg».proof.Proof.Gen.KernelIdeal.Frame
import proofs.«138867_j36335423324183_1_alg».proof.Proof.RowSpec
import proofs.«138867_j36335423324183_1_alg».proof.Proof.Embed
import proofs.«138867_j36335423324183_1_alg».proof.Proof.ScorePay
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Scores

open Cert.KernelIdeal Cert.KernelIdeal.Gen Cert.RowSpec
open Idealize.ShloMosaic Idealize.ShloMosaic.TcCoe Idealize.SL.Sem Idealize.ShloMosaic.ValueIdx
open Idealize.ShloMosaic.Pipeline (Dat Cfg Window)
open Idealize.ShloMosaic.Tactic

open Cert.KernelIdeal.Embed Cert.KernelIdeal.ScorePay

-- the TensorCore's buffer contents when the region is entered
variable (V : (c : Dev nD) → (b : Ref sig .tc) → Buf (Elt Ideal) ((c : Thread nD τ).loc b))

/-- The zero offsets of a whole-block access, as the constant function. -/
theorem scoresZeroOff : (![0, 0] : Fin 2 → Nat) = fun _ => 0 := funext fun a => by fin_cases a <;> rfl

/-- The score block a row block of embeddings makes against the prototype operands: entry `(p, q)` is column `q` of the
    score row of the embeddings' row `p`. -/
def scoreBlk (e : FVec Ideal S1024x256 .f32) (x5 : Vec Ideal S20x256 .f32) (x6 x7 x8 : Vec Ideal S1x20 .f32)
    (p : Fin 1024) (q : Fin 21) : EReal :=
  scoreRow (fun d : Fin 256 => e (ix2 p d)) (fun (k : Fin 20) (d : Fin 256) => x5 (ix2 k d))
    (fun k : Fin 20 => x6 (ix2 (0 : Fin 1) k)) (fun k : Fin 20 => x7 (ix2 (0 : Fin 1) k))
    (fun k : Fin 20 => x8 (ix2 (0 : Fin 1) k)) q

theorem scores_pay4_eq (x5 : Vec Ideal S20x256 .f32) : k0_pay4 x5 = x5 := shapeCast_self x5 _
theorem scores_pay5_eq (x6 : Vec Ideal S1x20 .f32) : k0_pay5 x6 = x6 := shapeCast_self x6 _
theorem scores_pay6_eq (x7 : Vec Ideal S1x20 .f32) : k0_pay6 x7 = x7 := shapeCast_self x7 _

theorem proto_piece (e : FVec Ideal S1024x256 .f32) (x5 : Vec Ideal S20x256 .f32) (x6 x7 x8 : Vec Ideal S1x20 .f32)
    (p : Fin 1024) (k : Fin 20) :
    k0_pay1 e (k0_pay4 x5) (k0_pay5 x6) (k0_pay6 x7) x8 (ix2 p k) = scoreBlk e x5 x6 x7 x8 p k.succ := by
  rw [scores_pay4_eq, scores_pay5_eq, scores_pay6_eq]
  exact proto_block_at e x5 x6 x7 x8 p k

theorem bg_piece (e : FVec Ideal S1024x256 .f32) (x5 : Vec Ideal S20x256 .f32) (x6 x7 x8 : Vec Ideal S1x20 .f32)
    (p : Fin 1024) :
    k0_pay2 e (k0_pay4 x5) (k0_pay5 x6) (k0_pay6 x7) x8 (ix2 p (0 : Fin 1)) = scoreBlk e x5 x6 x7 x8 p 0 := by
  rw [scores_pay4_eq, scores_pay5_eq, scores_pay6_eq]
  exact bg_block_at e x5 x6 x7 x8 p

theorem proto_piece_idx (e : FVec Ideal S1024x256 .f32) (x5 : Vec Ideal S20x256 .f32) (x6 x7 x8 : Vec Ideal S1x20 .f32)
    (x : S1024x20.Idx) :
    k0_pay1 e (k0_pay4 x5) (k0_pay5 x6) (k0_pay6 x7) x8 x = scoreBlk e x5 x6 x7 x8 (x 0) (x 1).succ :=
  (congrArg (k0_pay1 e (k0_pay4 x5) (k0_pay5 x6) (k0_pay6 x7) x8) (eq_ix2 x)).trans
    (proto_piece e x5 x6 x7 x8 (x 0) (x 1))

theorem bg_piece_idx (e : FVec Ideal S1024x256 .f32) (x5 : Vec Ideal S20x256 .f32) (x6 x7 x8 : Vec Ideal S1x20 .f32)
    (x : S1024x1.Idx) :
    k0_pay2 e (k0_pay4 x5) (k0_pay5 x6) (k0_pay6 x7) x8 x = scoreBlk e x5 x6 x7 x8 (x 0) 0 := by
  have h1 : x 1 = (0 : Fin 1) := Fin.ext (by have h : (x 1).val < 1 := (x 1).isLt; show (x 1).val = 0; omega)
  have hx : x = ix2 (x 0) (0 : Fin 1) := by
    have h := eq_ix2 x
    rw [h1] at h
    exact h
  exact (congrArg (k0_pay2 e (k0_pay4 x5) (k0_pay5 x6) (k0_pay6 x7) x8) hx).trans (bg_piece e x5 x6 x7 x8 (x 0))

set_option maxHeartbeats 400000 in
/-- What the body leaves in the scores block: its two stores, the background column and the twenty prototype columns,
    are the two column ranges of one function of the block index, and together they cover the block. -/
theorem out10_eq (c : Dev nD) (i : grid0.Coords) (arg1 : Memref sig .tc .vmem S1024x1024 .f32) (harg1 : arg1.IsWhole) (arg2 : Memref sig .tc .vmem S1024x1024 .bf16) (harg2 : arg2.IsWhole) (arg3 : Memref sig .tc .vmem S1x1024 .f32) (harg3 : arg3.IsWhole) (arg4 : Memref sig .tc .vmem S1024x256 .bf16) (harg4 : arg4.IsWhole) (arg5 : Memref sig .tc .vmem S1x256 .f32) (harg5 : arg5.IsWhole) (arg6 : Memref sig .tc .vmem S20x256 .f32) (harg6 : arg6.IsWhole) (arg7 : Memref sig .tc .vmem S1x20 .f32) (harg7 : arg7.IsWhole) (arg8 : Memref sig .tc .vmem S1x20 .f32) (harg8 : arg8.IsWhole) (arg9 : Memref sig .tc .vmem S1x20 .f32) (harg9 : arg9.IsWhole) (arg10 : Memref sig .tc .vmem S1024x256 .f32) (harg10 : arg10.IsWhole) (arg11 : Memref sig .tc .vmem S1024x21 .f32) (harg11 : arg11.IsWhole)
    (x0 : Vec Ideal S1024x1024 .f32) (x1 : Vec Ideal S1024x1024 .bf16) (x2 : Vec Ideal S1x1024 .f32) (x3 : Vec Ideal S1024x256 .bf16) (x4 : Vec Ideal S1x256 .f32) (x5 : Vec Ideal S20x256 .f32) (x6 : Vec Ideal S1x20 .f32) (x7 : Vec Ideal S1x20 .f32) (x8 : Vec Ideal S1x20 .f32) :
    out0_A_10 (F := Ideal) c i arg1 harg1 arg2 harg2 arg3 harg3 arg4 harg4 arg5 harg5 arg6 harg6 arg7 harg7 arg8 harg8 arg9 harg9 arg10 harg10 arg11 harg11 x0 x1 x2 x3 x4 x5 x6 x7 x8
      = fun y : S1024x21.Idx => scoreBlk (k0_pay3 x0 x1 x2 x3 x4) x5 x6 x7 x8 (y 0) (y 1) := by
  funext y
  have hc := cover0_A_10 (F := Ideal) c i arg1 harg1 arg2 harg2 arg3 harg3 arg4 harg4 arg5 harg5 arg6 harg6 arg7 harg7 arg8 harg8 arg9 harg9 arg10 harg10 arg11 harg11 x0 x1 x2 x3 x4 x5 x6 x7 x8 y
  revert hc
  unfold out0_A_10
  unfold kernelRun0_A
  dsimp only
  sl_unfold_words
  simp only [View.readAt_eq_ld, harg1.read_unread, harg2.read_unread, harg3.read_unread, harg4.read_unread, harg5.read_unread,
    harg6.read_unread, harg7.read_unread, harg8.read_unread, harg9.read_unread,
    View.ld_unit_zero (S := S1024x1024) scoresZeroOff, View.ld_unit_zero (S := S1x1024) scoresZeroOff, View.ld_unit_zero (S := S1024x256) scoresZeroOff,
    View.ld_unit_zero (S := S1x256) scoresZeroOff, View.ld_unit_zero (S := S20x256) scoresZeroOff, View.ld_unit_zero (S := S1x20) scoresZeroOff]
  intro hc
  refine View.read_writes_apply_of_pieces VO0_10 _
    (fun y : S1024x21.Idx => scoreBlk (k0_pay3 x0 x1 x2 x3 x4) x5 x6 x7 x8 (y 0) (y 1)) _ ?_ y hc
  intro pc hpc x
  rcases List.mem_cons.mp hpc with rfl | hpc
  · -- the twenty prototype columns: local column `k` is column `k + 1` of the block
    refine (proto_piece_idx (k0_pay3 x0 x1 x2 x3 x4) x5 x6 x7 x8 x).trans ?_
    exact congrArg₂ (scoreBlk (k0_pay3 x0 x1 x2 x3 x4) x5 x6 x7 x8)
      (Fin.ext (by show (x 0).val = 0 + 1 * (x 0).val; omega))
      (Fin.ext (by show (x 1).val + 1 = 1 + 1 * (x 1).val; omega))
  rcases List.mem_cons.mp hpc with rfl | hpc
  · -- the background column: column `0` of the block
    refine (bg_piece_idx (k0_pay3 x0 x1 x2 x3 x4) x5 x6 x7 x8 x).trans ?_
    have hx1 : (x 1).val < 1 := (x 1).isLt
    exact congrArg₂ (scoreBlk (k0_pay3 x0 x1 x2 x3 x4) x5 x6 x7 x8)
      (Fin.ext (by show (x 0).val = 0 + 1 * (x 0).val; omega))
      (Fin.ext (by show 0 = 0 + 1 * (x 1).val; omega))
  exact absurd hpc List.not_mem_nil

/-! ## The input blocks at a grid point, each at its literal type -/

abbrev scIn0 (c : Dev nD) (t : Fin cfg0.N) : Vec Ideal S1024x1024 .f32 := iblk0 V c 0 t
abbrev scIn1 (c : Dev nD) (t : Fin cfg0.N) : Vec Ideal S1024x1024 .bf16 := iblk0 V c 1 t
abbrev scIn2 (c : Dev nD) (t : Fin cfg0.N) : Vec Ideal S1x1024 .f32 := iblk0 V c 2 t
abbrev scIn3 (c : Dev nD) (t : Fin cfg0.N) : Vec Ideal S1024x256 .bf16 := iblk0 V c 3 t
abbrev scIn4 (c : Dev nD) (t : Fin cfg0.N) : Vec Ideal S1x256 .f32 := iblk0 V c 4 t
abbrev scIn5 (c : Dev nD) (t : Fin cfg0.N) : Vec Ideal S20x256 .f32 := iblk0 V c 5 t
abbrev scIn6 (c : Dev nD) (t : Fin cfg0.N) : Vec Ideal S1x20 .f32 := iblk0 V c 6 t
abbrev scIn7 (c : Dev nD) (t : Fin cfg0.N) : Vec Ideal S1x20 .f32 := iblk0 V c 7 t
abbrev scIn8 (c : Dev nD) (t : Fin cfg0.N) : Vec Ideal S1x20 .f32 := iblk0 V c 8 t

/-- The index maps at every grid point: the features' and the scores' blocks move with the point along the rows and
    stay at column block `0`; every other operand's one block is its whole array. -/
theorem scores_idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_10.index t (0 : Fin 2) = t.val ∧ win0_10.index t (1 : Fin 2) = 0 :=
  (by decide +kernel : ∀ t : Fin grid0.N, _)

/-- Row `p` of the features' block at point `t` is row `1024·t + p` of the features. -/
theorem scIn0_at (c : Dev nD) (t : Fin cfg0.N) (p : Fin 1024) (k : Fin 1024) (n : Fin 8192)
    (hn : n.val = 1024 * t.val + p.val) : scIn0 V c t (ix2 p k) = V c main_arg0 (ix2 n k) := by
  obtain ⟨e0, e1, -⟩ := scores_idx_facts t
  unfold scIn0 iblk0
  rw [View.read_apply]
  show V c main_arg0 _ = V c main_arg0 _
  congr 1
  funext a
  apply Fin.ext
  match a with
  | ⟨0, _⟩ => show win0_0.index t (0 : Fin 2) * 1024 + 1 * p.val = n.val; omega
  | ⟨1, _⟩ => show win0_0.index t (1 : Fin 2) * 1024 + 1 * k.val = k.val; omega

/-! ## Every other operand's block is its whole array -/

theorem scIn1_eq (c : Dev nD) (t : Fin cfg0.N) : scIn1 V c t = V c main_v22 := by
  obtain ⟨-, -, e0, e1, -⟩ := scores_idx_facts t
  funext j
  unfold scIn1 iblk0
  rw [View.read_apply]
  show V c main_v22 _ = V c main_v22 j
  congr 1
  funext a
  apply Fin.ext
  match a with
  | ⟨0, _⟩ => show win0_1.index t (0 : Fin 2) * 1024 + 1 * (j 0).val = (j 0).val; omega
  | ⟨1, _⟩ => show win0_1.index t (1 : Fin 2) * 1024 + 1 * (j 1).val = (j 1).val; omega

theorem scIn2_eq (c : Dev nD) (t : Fin cfg0.N) : scIn2 V c t = V c main_v24 := by
  obtain ⟨-, -, -, -, e0, e1, -⟩ := scores_idx_facts t
  funext j
  unfold scIn2 iblk0
  rw [View.read_apply]
  show V c main_v24 _ = V c main_v24 j
  congr 1
  funext a
  apply Fin.ext
  match a with
  | ⟨0, _⟩ => show win0_2.index t (0 : Fin 2) * 1 + 1 * (j 0).val = (j 0).val; omega
  | ⟨1, _⟩ => show win0_2.index t (1 : Fin 2) * 1024 + 1 * (j 1).val = (j 1).val; omega

theorem scIn3_eq (c : Dev nD) (t : Fin cfg0.N) : scIn3 V c t = V c main_v23 := by
  obtain ⟨-, -, -, -, -, -, e0, e1, -⟩ := scores_idx_facts t
  funext j
  unfold scIn3 iblk0
  rw [View.read_apply]
  show V c main_v23 _ = V c main_v23 j
  congr 1
  funext a
  apply Fin.ext
  match a with
  | ⟨0, _⟩ => show win0_3.index t (0 : Fin 2) * 1024 + 1 * (j 0).val = (j 0).val; omega
  | ⟨1, _⟩ => show win0_3.index t (1 : Fin 2) * 256 + 1 * (j 1).val = (j 1).val; omega

theorem scIn4_eq (c : Dev nD) (t : Fin cfg0.N) : scIn4 V c t = V c main_v25 := by
  obtain ⟨-, -, -, -, -, -, -, -, e0, e1, -⟩ := scores_idx_facts t
  funext j
  unfold scIn4 iblk0
  rw [View.read_apply]
  show V c main_v25 _ = V c main_v25 j
  congr 1
  funext a
  apply Fin.ext
  match a with
  | ⟨0, _⟩ => show win0_4.index t (0 : Fin 2) * 1 + 1 * (j 0).val = (j 0).val; omega
  | ⟨1, _⟩ => show win0_4.index t (1 : Fin 2) * 256 + 1 * (j 1).val = (j 1).val; omega

theorem scIn5_eq (c : Dev nD) (t : Fin cfg0.N) : scIn5 V c t = V c main_v2 := by
  obtain ⟨-, -, -, -, -, -, -, -, -, -, e0, e1, -⟩ := scores_idx_facts t
  funext j
  unfold scIn5 iblk0
  rw [View.read_apply]
  show V c main_v2 _ = V c main_v2 j
  congr 1
  funext a
  apply Fin.ext
  match a with
  | ⟨0, _⟩ => show win0_5.index t (0 : Fin 2) * 20 + 1 * (j 0).val = (j 0).val; omega
  | ⟨1, _⟩ => show win0_5.index t (1 : Fin 2) * 256 + 1 * (j 1).val = (j 1).val; omega

theorem scIn6_eq (c : Dev nD) (t : Fin cfg0.N) : scIn6 V c t = V c main_v5 := by
  obtain ⟨-, -, -, -, -, -, -, -, -, -, -, -, e0, e1, -⟩ := scores_idx_facts t
  funext j
  unfold scIn6 iblk0
  rw [View.read_apply]
  show V c main_v5 _ = V c main_v5 j
  congr 1
  funext a
  apply Fin.ext
  match a with
  | ⟨0, _⟩ => show win0_6.index t (0 : Fin 2) * 1 + 1 * (j 0).val = (j 0).val; omega
  | ⟨1, _⟩ => show win0_6.index t (1 : Fin 2) * 20 + 1 * (j 1).val = (j 1).val; omega

theorem scIn7_eq (c : Dev nD) (t : Fin cfg0.N) : scIn7 V c t = V c main_v7 := by
  obtain ⟨-, -, -, -, -, -, -, -, -, -, -, -, -, -, e0, e1, -⟩ := scores_idx_facts t
  funext j
  unfold scIn7 iblk0
  rw [View.read_apply]
  show V c main_v7 _ = V c main_v7 j
  congr 1
  funext a
  apply Fin.ext
  match a with
  | ⟨0, _⟩ => show win0_7.index t (0 : Fin 2) * 1 + 1 * (j 0).val = (j 0).val; omega
  | ⟨1, _⟩ => show win0_7.index t (1 : Fin 2) * 20 + 1 * (j 1).val = (j 1).val; omega

theorem scIn8_eq (c : Dev nD) (t : Fin cfg0.N) : scIn8 V c t = V c main_v21 := by
  obtain ⟨-, -, -, -, -, -, -, -, -, -, -, -, -, -, -, -, e0, e1, -⟩ := scores_idx_facts t
  funext j
  unfold scIn8 iblk0
  rw [View.read_apply]
  show V c main_v21 _ = V c main_v21 j
  congr 1
  funext a
  apply Fin.ext
  match a with
  | ⟨0, _⟩ => show win0_8.index t (0 : Fin 2) * 1 + 1 * (j 0).val = (j 0).val; omega
  | ⟨1, _⟩ => show win0_8.index t (1 : Fin 2) * 20 + 1 * (j 1).val = (j 1).val; omega

/-- Row `p` of the embeddings' block the body forms at point `t` is the embeddings' row of row `1024·t + p` of the
    features. -/
theorem scores_emb_row (c : Dev nD) (t : Fin cfg0.N) (p : Fin 1024) (n : Fin 8192) (hn : n.val = 1024 * t.val + p.val) :
    (fun d : Fin 256 => k0_pay3 (scIn0 V c t) (scIn1 V c t) (scIn2 V c t) (scIn3 V c t) (scIn4 V c t) (ix2 p d))
      = embRowOf V c n := by
  funext d
  refine (emb_block_at (scIn0 V c t) (scIn1 V c t) (scIn2 V c t) (scIn3 V c t) (scIn4 V c t) p d).trans ?_
  have h0 : (fun k : Fin 1024 => scIn0 V c t (ix2 p k)) = fun k : Fin 1024 => V c main_arg0 (ix2 n k) :=
    funext fun k => scIn0_at V c t p k n hn
  rw [h0, scIn1_eq, scIn2_eq, scIn3_eq, scIn4_eq]
  rfl

/-! ## The scores array as one function of the arrays the region finds -/

/-- Entry `(n, j)` of the scores: column `j` of the score row of the embeddings' row of row `n` of the features. -/
def scoreArr (c : Dev nD) : S8192x21.Idx → EReal := fun i =>
  scoreRow (embRowOf V c (i 0)) (fun (k : Fin 20) (d : Fin 256) => V c main_v2 (ix2 k d))
    (fun k : Fin 20 => V c main_v5 (ix2 (0 : Fin 1) k)) (fun k : Fin 20 => V c main_v7 (ix2 (0 : Fin 1) k))
    (fun k : Fin 20 => V c main_v21 (ix2 (0 : Fin 1) k)) (i 1)

/-- A score row depends on its six arguments only. -/
theorem scoreRow_congr {e e' : Fin 256 → EReal} {Pm Pm' : Fin 20 → Fin 256 → EReal} {q q' s s' w w' : Fin 20 → EReal}
    {j j' : Fin 21} (he : e = e') (hP : Pm = Pm') (hq : q = q') (hs : s = s') (hw : w = w') (hj : j = j') :
    scoreRow e Pm q s w j = scoreRow e' Pm' q' s' w' j' := by
  subst he hP hq hs hw hj
  rfl

set_option maxHeartbeats 400000 in
/-- What point `t` writes back is block `t` of the scores array's function. -/
theorem scores_flushed_eq (c : Dev nD) (t : Fin cfg0.N) :
    (dat0 V c).flushed 10 t = ((cfg0.win 10).blk t).view.read (Elt Ideal) (scoreArr V c) := by
  show (cfg0.win 10).cut (grid0.coords t) ((dat0 V c).after 10 t) = _
  rw [after0_10]
  unfold outsAt0
  dsimp only
  rw [out10_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (scIn0 V c t) (scIn1 V c t) (scIn2 V c t) (scIn3 V c t) (scIn4 V c t) (scIn5 V c t) (scIn6 V c t) (scIn7 V c t) (scIn8 V c t)]
  obtain ⟨-, -, -, -, -, -, -, -, -, -, -, -, -, -, -, -, -, -, e0, e1⟩ := scores_idx_facts t
  funext y
  rw [View.read_apply]
  show scoreBlk (k0_pay3 (scIn0 V c t) (scIn1 V c t) (scIn2 V c t) (scIn3 V c t) (scIn4 V c t)) (scIn5 V c t) (scIn6 V c t) (scIn7 V c t)
      (scIn8 V c t) (y 0) (y 1) = scoreArr V c (((cfg0.win 10).blk t).view.emb y)
  unfold scoreBlk scoreArr
  refine scoreRow_congr ?_ ?_ ?_ ?_ ?_ ?_
  · exact scores_emb_row V c t (y 0) _ (by
      show win0_10.index t (0 : Fin 2) * 1024 + 1 * (y 0).val = 1024 * t.val + (y 0).val; omega)
  · rw [scIn5_eq]
  · rw [scIn6_eq]
  · rw [scIn7_eq]
  · rw [scIn8_eq]
  · exact Fin.ext (by show (y 1).val = win0_10.index t (1 : Fin 2) * 21 + 1 * (y 1).val; omega)

/-- An index of the scores array is in point `t`'s block iff each coordinate is in the block's range on its axis. -/
theorem scores_mem_blk (t : Fin cfg0.N) (i : S8192x21.Idx) :
    i ∈ ((cfg0.win 10).blk t).view.set ↔ ∀ a : Fin 2, win0_10.index t a * S1024x21.size a ≤ (i a).val
      ∧ (i a).val < win0_10.index t a * S1024x21.size a + S1024x21.size a := by
  show i ∈ ((View.whole main_v26_1).slice (win0_10.rect t)).set ↔ _
  rw [View.set_slice_whole, Rect.mem_set_unit]
  exact Iff.rfl

/-- Row `r` of the scores lies in the block of point `r / 1024`. -/
theorem scores_covered (i : S8192x21.Idx) :
    ∃ t : Fin cfg0.N, (cfg0.win 10).flush t = true ∧ i ∈ ((cfg0.win 10).blk t).view.set := by
  have hi0 : (i 0).val < 8192 := (i 0).isLt
  have hi1 : (i 1).val < 21 := (i 1).isLt
  have hlt : (i 0).val / 1024 < cfg0.N := by
    have hN := N_0
    show (i 0).val / 1024 < grid0.N
    omega
  obtain ⟨t, ht⟩ : ∃ t : Fin cfg0.N, t.val = (i 0).val / 1024 := ⟨⟨_, hlt⟩, rfl⟩
  obtain ⟨-, -, -, -, -, -, -, -, -, -, -, -, -, -, -, -, -, -, e0, e1⟩ := scores_idx_facts t
  refine ⟨t, flush0_10 t, ?_⟩
  rw [scores_mem_blk]
  intro a
  match a with
  | ⟨0, _⟩ =>
    show win0_10.index t (0 : Fin 2) * 1024 ≤ (i 0).val ∧ (i 0).val < win0_10.index t (0 : Fin 2) * 1024 + 1024
    omega
  | ⟨1, _⟩ =>
    show win0_10.index t (1 : Fin 2) * 21 ≤ (i 1).val ∧ (i 1).val < win0_10.index t (1 : Fin 2) * 21 + 21
    omega

/-- The scores array after the eight points. -/
theorem scores_arr (c : Dev nD) : (dat0 V c).arrAt 10 cfg0.N = scoreArr V c :=
  (dat0 V c).arrAt_eq_of_cover 10 (scoreArr V c) (fun t _ => scores_flushed_eq V c t) scores_covered

/-- Row `n`, column `j` of the scores array after the run. -/
theorem scores_at (c : Dev nD) (n : Fin 8192) (j : Fin 21) :
    (dat0 V c).arrAt 10 cfg0.N (ix2 n j)
      = scoreRow (embRowOf V c n) (fun (k : Fin 20) (d : Fin 256) => V c main_v2 (ix2 k d))
          (fun k : Fin 20 => V c main_v5 (ix2 (0 : Fin 1) k)) (fun k : Fin 20 => V c main_v7 (ix2 (0 : Fin 1) k))
          (fun k : Fin 20 => V c main_v21 (ix2 (0 : Fin 1) k)) j :=
  congrFun (scores_arr V c) (ix2 n j)

end Cert.KernelIdeal.Scores

end
-- ==== Proof.Entry.lean ====
/-
  Where the four results sit in the fold through @main, and what each region finds in its operands.
  The last boundary's contents at a result buffer walk back to the region that wrote it: no later host operation and no
  later region touches it. At a region's entry an operand is an argument array as launched (the features), a weight
  array after a change of float format (the identity on the extended reals), a bias row reshaped from `[n]` to
  `[1, n]`, or — for the reconstruction head — the embeddings the fused region left.
-/
import proofs.«138867_j36335423324183_1_alg».proof.Proof.Gen.KernelIdeal.Frame
import proofs.«138867_j36335423324183_1_alg».proof.Proof.RowSpec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Entry

open Cert.KernelIdeal Cert.KernelIdeal.Gen Cert.RowSpec
open Idealize.ShloMosaic Idealize.ShloMosaic.TcCoe Idealize.SL.Sem Idealize.ShloMosaic.ValueIdx
open Idealize.ShloMosaic.Pipeline (Dat Cfg Window)

variable (m : (ℓ : Loc nD τ sig) → Buf (Elt Ideal) ℓ) (ρ : Dev nD → PrngReg)

/-- A stretch of host operations leaves a buffer as it found it when none of its operations writes that buffer:
    the written buffer of each operation is compared with the buffer asked about, one operation at a time. -/
local macro "stretch_keeps " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

/-! ## What a stretch of host operations leaves in a buffer it writes, from any contents `V`

A weight buffer is written once, by a change of float format of an argument; a bias buffer once, by a reshape of an
argument from `[n]` to `[1, n]`. Every later operation of the stretch writes another buffer, and the argument read is
written by none before it, so the result is the operation's function at the argument as `V` holds it. -/

section Stretch
variable (V : Valuation τ sig (Elt Ideal))

theorem ops01_v22 : StableHlo.after (hostOps0_1 (F := Ideal)) V (Proc.devRef .tc main_v22)
    = truncf (F := Ideal) .bf16 (V (Proc.devRef .tc main_arg4)) bitsLt_bf16_f32 := by
  after_results
theorem ops01_v23 : StableHlo.after (hostOps0_1 (F := Ideal)) V (Proc.devRef .tc main_v23)
    = truncf (F := Ideal) .bf16 (V (Proc.devRef .tc main_arg6)) bitsLt_bf16_f32 := by
  after_results
theorem ops1_v27 : StableHlo.after (hostOps1 (F := Ideal)) V (Proc.devRef .tc main_v27)
    = truncf (F := Ideal) .bf16 (V (Proc.devRef .tc main_arg8)) bitsLt_bf16_f32 := by
  after_results
theorem ops1_v28 : StableHlo.after (hostOps1 (F := Ideal)) V (Proc.devRef .tc main_v28)
    = truncf (F := Ideal) .bf16 (V (Proc.devRef .tc main_arg10)) bitsLt_bf16_f32 := by
  after_results
theorem ops2_v32 : StableHlo.after (hostOps2 (F := Ideal)) V (Proc.devRef .tc main_v32)
    = truncf (F := Ideal) .bf16 (V (Proc.devRef .tc main_arg12)) bitsLt_bf16_f32 := by
  after_results
theorem ops2_v33 : StableHlo.after (hostOps2 (F := Ideal)) V (Proc.devRef .tc main_v33)
    = truncf (F := Ideal) .bf16 (V (Proc.devRef .tc main_arg14)) bitsLt_bf16_f32 := by
  after_results
theorem ops01_v24 : StableHlo.after (hostOps0_1 (F := Ideal)) V (Proc.devRef .tc main_v24)
    = shapeCast S1x1024 (V (Proc.devRef .tc main_arg5)) shapeCasts_S1024_S1x1024 := by
  after_results
  rfl
theorem ops01_v25 : StableHlo.after (hostOps0_1 (F := Ideal)) V (Proc.devRef .tc main_v25)
    = shapeCast S1x256 (V (Proc.devRef .tc main_arg7)) shapeCasts_S256_S1x256 := by
  after_results
  rfl
theorem ops1_v29 : StableHlo.after (hostOps1 (F := Ideal)) V (Proc.devRef .tc main_v29)
    = shapeCast S1x1024 (V (Proc.devRef .tc main_arg9)) shapeCasts_S1024_S1x1024 := by
  after_results
  rfl
theorem ops1_v30 : StableHlo.after (hostOps1 (F := Ideal)) V (Proc.devRef .tc main_v30)
    = shapeCast S1x84 (V (Proc.devRef .tc main_arg11)) shapeCasts_S84_S1x84 := by
  after_results
  rfl
theorem ops2_v34 : StableHlo.after (hostOps2 (F := Ideal)) V (Proc.devRef .tc main_v34)
    = shapeCast S1x512 (V (Proc.devRef .tc main_arg13)) shapeCasts_S512_S1x512 := by
  after_results
  rfl
theorem ops2_v35 : StableHlo.after (hostOps2 (F := Ideal)) V (Proc.devRef .tc main_v35)
    = shapeCast S1x12544 (V (Proc.devRef .tc main_arg15)) shapeCasts_S12544_S1x12544 := by
  after_results
  rfl

end Stretch

/-! ## An argument array, walked back to the launch

No host operation and no region writes an argument. From the boundary just before the stretch that reads it, an
argument's buffer is carried unchanged across each earlier stretch (none of whose operations writes it) and across
each earlier region (it is none of that region's arrays) down to the launch memory. -/

theorem W1_arg4 (c : Dev nD) : W1 m ρ c (Proc.devRef .tc main_arg4) = m ((c : Thread nD τ).loc main_arg4) :=
  calc W1 m ρ c (Proc.devRef .tc main_arg4)
    _ = W0 m ρ c (Proc.devRef .tc main_arg4) := by stretch_keeps hostOps0
    _ = m ((c : Thread nD τ).loc main_arg4) := rfl
theorem W1_arg5 (c : Dev nD) : W1 m ρ c (Proc.devRef .tc main_arg5) = m ((c : Thread nD τ).loc main_arg5) :=
  calc W1 m ρ c (Proc.devRef .tc main_arg5)
    _ = W0 m ρ c (Proc.devRef .tc main_arg5) := by stretch_keeps hostOps0
    _ = m ((c : Thread nD τ).loc main_arg5) := rfl
theorem W1_arg6 (c : Dev nD) : W1 m ρ c (Proc.devRef .tc main_arg6) = m ((c : Thread nD τ).loc main_arg6) :=
  calc W1 m ρ c (Proc.devRef .tc main_arg6)
    _ = W0 m ρ c (Proc.devRef .tc main_arg6) := by stretch_keeps hostOps0
    _ = m ((c : Thread nD τ).loc main_arg6) := rfl
theorem W1_arg7 (c : Dev nD) : W1 m ρ c (Proc.devRef .tc main_arg7) = m ((c : Thread nD τ).loc main_arg7) :=
  calc W1 m ρ c (Proc.devRef .tc main_arg7)
    _ = W0 m ρ c (Proc.devRef .tc main_arg7) := by stretch_keeps hostOps0
    _ = m ((c : Thread nD τ).loc main_arg7) := rfl
theorem W3_arg8 (c : Dev nD) : W3 m ρ c (Proc.devRef .tc main_arg8) = m ((c : Thread nD τ).loc main_arg8) :=
  calc W3 m ρ c (Proc.devRef .tc main_arg8)
    _ = W2 m ρ c (Proc.devRef .tc main_arg8) := W3_of_ne m ρ c main_arg8 (by decide)
    _ = W1 m ρ c (Proc.devRef .tc main_arg8) := by stretch_keeps hostOps0_1
    _ = W0 m ρ c (Proc.devRef .tc main_arg8) := by stretch_keeps hostOps0
    _ = m ((c : Thread nD τ).loc main_arg8) := rfl
theorem W3_arg9 (c : Dev nD) : W3 m ρ c (Proc.devRef .tc main_arg9) = m ((c : Thread nD τ).loc main_arg9) :=
  calc W3 m ρ c (Proc.devRef .tc main_arg9)
    _ = W2 m ρ c (Proc.devRef .tc main_arg9) := W3_of_ne m ρ c main_arg9 (by decide)
    _ = W1 m ρ c (Proc.devRef .tc main_arg9) := by stretch_keeps hostOps0_1
    _ = W0 m ρ c (Proc.devRef .tc main_arg9) := by stretch_keeps hostOps0
    _ = m ((c : Thread nD τ).loc main_arg9) := rfl
theorem W3_arg10 (c : Dev nD) : W3 m ρ c (Proc.devRef .tc main_arg10) = m ((c : Thread nD τ).loc main_arg10) :=
  calc W3 m ρ c (Proc.devRef .tc main_arg10)
    _ = W2 m ρ c (Proc.devRef .tc main_arg10) := W3_of_ne m ρ c main_arg10 (by decide)
    _ = W1 m ρ c (Proc.devRef .tc main_arg10) := by stretch_keeps hostOps0_1
    _ = W0 m ρ c (Proc.devRef .tc main_arg10) := by stretch_keeps hostOps0
    _ = m ((c : Thread nD τ).loc main_arg10) := rfl
theorem W3_arg11 (c : Dev nD) : W3 m ρ c (Proc.devRef .tc main_arg11) = m ((c : Thread nD τ).loc main_arg11) :=
  calc W3 m ρ c (Proc.devRef .tc main_arg11)
    _ = W2 m ρ c (Proc.devRef .tc main_arg11) := W3_of_ne m ρ c main_arg11 (by decide)
    _ = W1 m ρ c (Proc.devRef .tc main_arg11) := by stretch_keeps hostOps0_1
    _ = W0 m ρ c (Proc.devRef .tc main_arg11) := by stretch_keeps hostOps0
    _ = m ((c : Thread nD τ).loc main_arg11) := rfl
theorem W5_arg12 (c : Dev nD) : W5 m ρ c (Proc.devRef .tc main_arg12) = m ((c : Thread nD τ).loc main_arg12) :=
  calc W5 m ρ c (Proc.devRef .tc main_arg12)
    _ = W4 m ρ c (Proc.devRef .tc main_arg12) := W5_of_ne m ρ c main_arg12 (by decide)
    _ = W3 m ρ c (Proc.devRef .tc main_arg12) := by stretch_keeps hostOps1
    _ = W2 m ρ c (Proc.devRef .tc main_arg12) := W3_of_ne m ρ c main_arg12 (by decide)
    _ = W1 m ρ c (Proc.devRef .tc main_arg12) := by stretch_keeps hostOps0_1
    _ = W0 m ρ c (Proc.devRef .tc main_arg12) := by stretch_keeps hostOps0
    _ = m ((c : Thread nD τ).loc main_arg12) := rfl
theorem W5_arg13 (c : Dev nD) : W5 m ρ c (Proc.devRef .tc main_arg13) = m ((c : Thread nD τ).loc main_arg13) :=
  calc W5 m ρ c (Proc.devRef .tc main_arg13)
    _ = W4 m ρ c (Proc.devRef .tc main_arg13) := W5_of_ne m ρ c main_arg13 (by decide)
    _ = W3 m ρ c (Proc.devRef .tc main_arg13) := by stretch_keeps hostOps1
    _ = W2 m ρ c (Proc.devRef .tc main_arg13) := W3_of_ne m ρ c main_arg13 (by decide)
    _ = W1 m ρ c (Proc.devRef .tc main_arg13) := by stretch_keeps hostOps0_1
    _ = W0 m ρ c (Proc.devRef .tc main_arg13) := by stretch_keeps hostOps0
    _ = m ((c : Thread nD τ).loc main_arg13) := rfl
theorem W5_arg14 (c : Dev nD) : W5 m ρ c (Proc.devRef .tc main_arg14) = m ((c : Thread nD τ).loc main_arg14) :=
  calc W5 m ρ c (Proc.devRef .tc main_arg14)
    _ = W4 m ρ c (Proc.devRef .tc main_arg14) := W5_of_ne m ρ c main_arg14 (by decide)
    _ = W3 m ρ c (Proc.devRef .tc main_arg14) := by stretch_keeps hostOps1
    _ = W2 m ρ c (Proc.devRef .tc main_arg14) := W3_of_ne m ρ c main_arg14 (by decide)
    _ = W1 m ρ c (Proc.devRef .tc main_arg14) := by stretch_keeps hostOps0_1
    _ = W0 m ρ c (Proc.devRef .tc main_arg14) := by stretch_keeps hostOps0
    _ = m ((c : Thread nD τ).loc main_arg14) := rfl
theorem W5_arg15 (c : Dev nD) : W5 m ρ c (Proc.devRef .tc main_arg15) = m ((c : Thread nD τ).loc main_arg15) :=
  calc W5 m ρ c (Proc.devRef .tc main_arg15)
    _ = W4 m ρ c (Proc.devRef .tc main_arg15) := W5_of_ne m ρ c main_arg15 (by decide)
    _ = W3 m ρ c (Proc.devRef .tc main_arg15) := by stretch_keeps hostOps1
    _ = W2 m ρ c (Proc.devRef .tc main_arg15) := W3_of_ne m ρ c main_arg15 (by decide)
    _ = W1 m ρ c (Proc.devRef .tc main_arg15) := by stretch_keeps hostOps0_1
    _ = W0 m ρ c (Proc.devRef .tc main_arg15) := by stretch_keeps hostOps0
    _ = m ((c : Thread nD τ).loc main_arg15) := rfl

/-! ## The results, walked back to the region that wrote them -/

/-- The embeddings at the reconstruction head's entry: neither stretch after the fused region writes them and the box
    head does not have them among its arrays, so they are what the fused region's ninth window left. -/
theorem W6_emb (c : Dev nD) : W6 m ρ c (Proc.devRef .tc main_v26_0) = (dat0 (V2 m ρ) c).arrAt 9 cfg0.N :=
  calc W6 m ρ c (Proc.devRef .tc main_v26_0)
    _ = W5 m ρ c (Proc.devRef .tc main_v26_0) := by stretch_keeps hostOps2
    _ = W4 m ρ c (Proc.devRef .tc main_v26_0) := W5_of_ne m ρ c main_v26_0 (by decide)
    _ = W3 m ρ c (Proc.devRef .tc main_v26_0) := by stretch_keeps hostOps1
    _ = (dat0 (V2 m ρ) c).arrAt 9 cfg0.N := W3_arr m ρ c 9

theorem W7_scores (c : Dev nD) : W7 m ρ c (Proc.devRef .tc main_v26_1) = (dat0 (V2 m ρ) c).arrAt 10 cfg0.N :=
  calc W7 m ρ c (Proc.devRef .tc main_v26_1)
    _ = W6 m ρ c (Proc.devRef .tc main_v26_1) := W7_of_ne m ρ c main_v26_1 (by decide)
    _ = W5 m ρ c (Proc.devRef .tc main_v26_1) := by stretch_keeps hostOps2
    _ = W4 m ρ c (Proc.devRef .tc main_v26_1) := W5_of_ne m ρ c main_v26_1 (by decide)
    _ = W3 m ρ c (Proc.devRef .tc main_v26_1) := by stretch_keeps hostOps1
    _ = (dat0 (V2 m ρ) c).arrAt 10 cfg0.N := W3_arr m ρ c 10
theorem W7_boxes (c : Dev nD) : W7 m ρ c (Proc.devRef .tc main_v31) = (dat1 (V4 m ρ) c).arrAt 5 cfg1.N :=
  calc W7 m ρ c (Proc.devRef .tc main_v31)
    _ = W6 m ρ c (Proc.devRef .tc main_v31) := W7_of_ne m ρ c main_v31 (by decide)
    _ = W5 m ρ c (Proc.devRef .tc main_v31) := by stretch_keeps hostOps2
    _ = (dat1 (V4 m ρ) c).arrAt 5 cfg1.N := W5_arr m ρ c 5
/-- The embeddings are the reconstruction head's first array, an input window: its exit contents are its entry
    contents. -/
theorem W7_emb (c : Dev nD) : W7 m ρ c (Proc.devRef .tc main_v26_0) = (dat0 (V2 m ρ) c).arrAt 9 cfg0.N :=
  calc W7 m ρ c (Proc.devRef .tc main_v26_0)
    _ = W6 m ρ c (Proc.devRef .tc main_v26_0) :=
        (W7_arr m ρ c 0).trans (((dat2 (V6 m ρ) c).arrAt_in 0 rfl _).trans (A_eq2 (V6 m ρ) c 0))
    _ = (dat0 (V2 m ρ) c).arrAt 9 cfg0.N := W6_emb m ρ c
theorem W7_rebuilt (c : Dev nD) : W7 m ρ c (Proc.devRef .tc main_v36) = (dat2 (V6 m ρ) c).arrAt 5 cfg2.N :=
  W7_arr m ρ c 5

/-! ## The fused region's operands (entry contents `V2`) -/

theorem V2_x (c : Dev nD) : V2 m ρ c main_arg0 = m ((c : Thread nD τ).loc main_arg0) :=
  calc W2 m ρ c (Proc.devRef .tc main_arg0)
    _ = W1 m ρ c (Proc.devRef .tc main_arg0) := by stretch_keeps hostOps0_1
    _ = W0 m ρ c (Proc.devRef .tc main_arg0) := by stretch_keeps hostOps0
    _ = m ((c : Thread nD τ).loc main_arg0) := rfl
theorem V2_w1 (c : Dev nD) (k h : Fin 1024) : V2 m ρ c main_v22 (ix2 k h) = m ((c : Thread nD τ).loc main_arg4) (ix2 k h) :=
  calc V2 m ρ c main_v22 (ix2 k h)
    _ = truncf (F := Ideal) .bf16 (W1 m ρ c (Proc.devRef .tc main_arg4)) bitsLt_bf16_f32 (ix2 k h) :=
        congrFun (ops01_v22 (W1 m ρ c)) (ix2 k h)
    _ = W1 m ρ c (Proc.devRef .tc main_arg4) (ix2 k h) := truncf_apply _ _ _
    _ = m ((c : Thread nD τ).loc main_arg4) (ix2 k h) := congrFun (W1_arg4 m ρ c) (ix2 k h)
theorem V2_b1 (c : Dev nD) (h : Fin 1024) : V2 m ρ c main_v24 (ix2 (0 : Fin 1) h) = m ((c : Thread nD τ).loc main_arg5) (ix1 h) :=
  calc V2 m ρ c main_v24 (ix2 (0 : Fin 1) h)
    _ = shapeCast S1x1024 (W1 m ρ c (Proc.devRef .tc main_arg5)) shapeCasts_S1024_S1x1024 (ix2 (0 : Fin 1) h) :=
        congrFun (ops01_v24 (W1 m ρ c)) (ix2 (0 : Fin 1) h)
    _ = W1 m ρ c (Proc.devRef .tc main_arg5) (ix1 h) := shapeCast_a_1a_apply _ _ _ _
    _ = m ((c : Thread nD τ).loc main_arg5) (ix1 h) := congrFun (W1_arg5 m ρ c) (ix1 h)
theorem V2_w2 (c : Dev nD) (h : Fin 1024) (d : Fin 256) : V2 m ρ c main_v23 (ix2 h d) = m ((c : Thread nD τ).loc main_arg6) (ix2 h d) :=
  calc V2 m ρ c main_v23 (ix2 h d)
    _ = truncf (F := Ideal) .bf16 (W1 m ρ c (Proc.devRef .tc main_arg6)) bitsLt_bf16_f32 (ix2 h d) :=
        congrFun (ops01_v23 (W1 m ρ c)) (ix2 h d)
    _ = W1 m ρ c (Proc.devRef .tc main_arg6) (ix2 h d) := truncf_apply _ _ _
    _ = m ((c : Thread nD τ).loc main_arg6) (ix2 h d) := congrFun (W1_arg6 m ρ c) (ix2 h d)
theorem V2_b2 (c : Dev nD) (d : Fin 256) : V2 m ρ c main_v25 (ix2 (0 : Fin 1) d) = m ((c : Thread nD τ).loc main_arg7) (ix1 d) :=
  calc V2 m ρ c main_v25 (ix2 (0 : Fin 1) d)
    _ = shapeCast S1x256 (W1 m ρ c (Proc.devRef .tc main_arg7)) shapeCasts_S256_S1x256 (ix2 (0 : Fin 1) d) :=
        congrFun (ops01_v25 (W1 m ρ c)) (ix2 (0 : Fin 1) d)
    _ = W1 m ρ c (Proc.devRef .tc main_arg7) (ix1 d) := shapeCast_a_1a_apply _ _ _ _
    _ = m ((c : Thread nD τ).loc main_arg7) (ix1 d) := congrFun (W1_arg7 m ρ c) (ix1 d)

/-! ## The box head's operands (entry contents `V4`) -/

/-- The features are the fused region's first array, an input window, so that region hands them on as it found them. -/
theorem V4_x (c : Dev nD) : V4 m ρ c main_arg0 = m ((c : Thread nD τ).loc main_arg0) :=
  calc W4 m ρ c (Proc.devRef .tc main_arg0)
    _ = W3 m ρ c (Proc.devRef .tc main_arg0) := by stretch_keeps hostOps1
    _ = W2 m ρ c (Proc.devRef .tc main_arg0) :=
        (W3_arr m ρ c 0).trans (((dat0 (V2 m ρ) c).arrAt_in 0 rfl _).trans (A_eq0 (V2 m ρ) c 0))
    _ = m ((c : Thread nD τ).loc main_arg0) := V2_x m ρ c
theorem V4_w1 (c : Dev nD) (k h : Fin 1024) : V4 m ρ c main_v27 (ix2 k h) = m ((c : Thread nD τ).loc main_arg8) (ix2 k h) :=
  calc V4 m ρ c main_v27 (ix2 k h)
    _ = truncf (F := Ideal) .bf16 (W3 m ρ c (Proc.devRef .tc main_arg8)) bitsLt_bf16_f32 (ix2 k h) :=
        congrFun (ops1_v27 (W3 m ρ c)) (ix2 k h)
    _ = W3 m ρ c (Proc.devRef .tc main_arg8) (ix2 k h) := truncf_apply _ _ _
    _ = m ((c : Thread nD τ).loc main_arg8) (ix2 k h) := congrFun (W3_arg8 m ρ c) (ix2 k h)
theorem V4_b1 (c : Dev nD) (h : Fin 1024) : V4 m ρ c main_v29 (ix2 (0 : Fin 1) h) = m ((c : Thread nD τ).loc main_arg9) (ix1 h) :=
  calc V4 m ρ c main_v29 (ix2 (0 : Fin 1) h)
    _ = shapeCast S1x1024 (W3 m ρ c (Proc.devRef .tc main_arg9)) shapeCasts_S1024_S1x1024 (ix2 (0 : Fin 1) h) :=
        congrFun (ops1_v29 (W3 m ρ c)) (ix2 (0 : Fin 1) h)
    _ = W3 m ρ c (Proc.devRef .tc main_arg9) (ix1 h) := shapeCast_a_1a_apply _ _ _ _
    _ = m ((c : Thread nD τ).loc main_arg9) (ix1 h) := congrFun (W3_arg9 m ρ c) (ix1 h)
theorem V4_w2 (c : Dev nD) (h : Fin 1024) (j : Fin 84) : V4 m ρ c main_v28 (ix2 h j) = m ((c : Thread nD τ).loc main_arg10) (ix2 h j) :=
  calc V4 m ρ c main_v28 (ix2 h j)
    _ = truncf (F := Ideal) .bf16 (W3 m ρ c (Proc.devRef .tc main_arg10)) bitsLt_bf16_f32 (ix2 h j) :=
        congrFun (ops1_v28 (W3 m ρ c)) (ix2 h j)
    _ = W3 m ρ c (Proc.devRef .tc main_arg10) (ix2 h j) := truncf_apply _ _ _
    _ = m ((c : Thread nD τ).loc main_arg10) (ix2 h j) := congrFun (W3_arg10 m ρ c) (ix2 h j)
theorem V4_b2 (c : Dev nD) (j : Fin 84) : V4 m ρ c main_v30 (ix2 (0 : Fin 1) j) = m ((c : Thread nD τ).loc main_arg11) (ix1 j) :=
  calc V4 m ρ c main_v30 (ix2 (0 : Fin 1) j)
    _ = shapeCast S1x84 (W3 m ρ c (Proc.devRef .tc main_arg11)) shapeCasts_S84_S1x84 (ix2 (0 : Fin 1) j) :=
        congrFun (ops1_v30 (W3 m ρ c)) (ix2 (0 : Fin 1) j)
    _ = W3 m ρ c (Proc.devRef .tc main_arg11) (ix1 j) := shapeCast_a_1a_apply _ _ _ _
    _ = m ((c : Thread nD τ).loc main_arg11) (ix1 j) := congrFun (W3_arg11 m ρ c) (ix1 j)

/-! ## The reconstruction head's operands (entry contents `V6`) -/

theorem V6_emb (c : Dev nD) : V6 m ρ c main_v26_0 = (dat0 (V2 m ρ) c).arrAt 9 cfg0.N :=
  W6_emb m ρ c
theorem V6_w1 (c : Dev nD) (k : Fin 256) (h : Fin 512) : V6 m ρ c main_v32 (ix2 k h) = m ((c : Thread nD τ).loc main_arg12) (ix2 k h) :=
  calc V6 m ρ c main_v32 (ix2 k h)
    _ = truncf (F := Ideal) .bf16 (W5 m ρ c (Proc.devRef .tc main_arg12)) bitsLt_bf16_f32 (ix2 k h) :=
        congrFun (ops2_v32 (W5 m ρ c)) (ix2 k h)
    _ = W5 m ρ c (Proc.devRef .tc main_arg12) (ix2 k h) := truncf_apply _ _ _
    _ = m ((c : Thread nD τ).loc main_arg12) (ix2 k h) := congrFun (W5_arg12 m ρ c) (ix2 k h)
theorem V6_b1 (c : Dev nD) (h : Fin 512) : V6 m ρ c main_v34 (ix2 (0 : Fin 1) h) = m ((c : Thread nD τ).loc main_arg13) (ix1 h) :=
  calc V6 m ρ c main_v34 (ix2 (0 : Fin 1) h)
    _ = shapeCast S1x512 (W5 m ρ c (Proc.devRef .tc main_arg13)) shapeCasts_S512_S1x512 (ix2 (0 : Fin 1) h) :=
        congrFun (ops2_v34 (W5 m ρ c)) (ix2 (0 : Fin 1) h)
    _ = W5 m ρ c (Proc.devRef .tc main_arg13) (ix1 h) := shapeCast_a_1a_apply _ _ _ _
    _ = m ((c : Thread nD τ).loc main_arg13) (ix1 h) := congrFun (W5_arg13 m ρ c) (ix1 h)
theorem V6_w2 (c : Dev nD) (h : Fin 512) (j : Fin 12544) : V6 m ρ c main_v33 (ix2 h j) = m ((c : Thread nD τ).loc main_arg14) (ix2 h j) :=
  calc V6 m ρ c main_v33 (ix2 h j)
    _ = truncf (F := Ideal) .bf16 (W5 m ρ c (Proc.devRef .tc main_arg14)) bitsLt_bf16_f32 (ix2 h j) :=
        congrFun (ops2_v33 (W5 m ρ c)) (ix2 h j)
    _ = W5 m ρ c (Proc.devRef .tc main_arg14) (ix2 h j) := truncf_apply _ _ _
    _ = m ((c : Thread nD τ).loc main_arg14) (ix2 h j) := congrFun (W5_arg14 m ρ c) (ix2 h j)
theorem V6_b2 (c : Dev nD) (j : Fin 12544) : V6 m ρ c main_v35 (ix2 (0 : Fin 1) j) = m ((c : Thread nD τ).loc main_arg15) (ix1 j) :=
  calc V6 m ρ c main_v35 (ix2 (0 : Fin 1) j)
    _ = shapeCast S1x12544 (W5 m ρ c (Proc.devRef .tc main_arg15)) shapeCasts_S12544_S1x12544 (ix2 (0 : Fin 1) j) :=
        congrFun (ops2_v35 (W5 m ρ c)) (ix2 (0 : Fin 1) j)
    _ = W5 m ρ c (Proc.devRef .tc main_arg15) (ix1 j) := shapeCast_a_1a_apply _ _ _ _
    _ = m ((c : Thread nD τ).loc main_arg15) (ix1 j) := congrFun (W5_arg15 m ρ c) (ix1 j)

end Cert.KernelIdeal.Entry

end
-- ==== Proof.HostBridge.lean ====
/-
  The prototype operands of the fused region are the reference's own host terms. Both programs compute, on the host and
  with the same operations in the same order, the prototypes divided by their Euclidean lengths, the squared lengths of
  those, the squared widths, and the prior weights (a softmax of the priors over their maximum); they differ only in how
  a `[20]` vector becomes a `[1, 20]` row (a reshape here, a broadcast there) and, for the squared widths, in whether
  the squaring comes before or after it. So each operand equals the reference's stage as a whole array, and the
  softmax and the norms are never opened.
-/
import proofs.«138867_j36335423324183_1_alg».proof.Proof.Gen.KernelIdeal.Frame
import proofs.«138867_j36335423324183_1_alg».proof.Proof.RefRead
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.HostBridge

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ) (ρ : Dev nD → PrngReg)

/-- A stretch of host operations leaves a buffer as it found it when none of its operations writes that buffer:
    the written buffer of each operation is compared with the buffer asked about, one operation at a time. -/
local macro "stretch_keeps " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

/-! ## A `[20]` vector made a `[1, 20]` row -/

/-- The reshape of a `[20]` vector to a `[1, 20]` row and its broadcast along the last axis are the same row: at
    `(a, k)` both read the vector at `k` (the reshape because `a = 0` and the row-major positions agree, the
    broadcast because the vector's one axis has more than one point and is sent to the row's second axis). -/
theorem row20 {α : Type} (x : (⟨1, ![20]⟩ : Shape).Idx → α)
    (hc : (⟨1, ![20]⟩ : Shape).ShapeCasts ⟨2, ![1, 20]⟩)
    (hb : (⟨1, ![20]⟩ : Shape).BroadcastsInDim ⟨2, ![1, 20]⟩ ![1]) :
    shapeCast ⟨2, ![1, 20]⟩ x hc = broadcastInDim ⟨2, ![1, 20]⟩ ![1] hb x := by
  funext i
  rw [eq_ix2 i]
  refine (shapeCast_a_1a_apply x hc (i 0) (i 1)).trans (Eq.symm ?_)
  exact broadcastInDim_apply _ hb x _ (ix1 (i 1)) (fun a => match a with
    | ⟨0, _⟩ => by
      show (i 1).val = if (20 : Nat) = 1 then 0 else (i 1).val
      rw [if_neg (by decide)])

/-! ## What the two host stretches before the fused region leave in its prototype operands, from any contents `V`

Each operand's buffer is written once; read back operation by operation, its contents are the reference's stage of the
same name applied to the argument as `V` holds it, because the two programs apply the same operations in the same
order (the shapes and the shape facts they carry are equal, being the same literals). For the three rows the last
operation, the reshape to `[1, 20]`, is kept apart. -/

section Stretch
variable (V : Valuation τ sig (Elt Ideal))

theorem protos_of : StableHlo.after (hostOps0_1 (F := Ideal)) (StableHlo.after (hostOps0 (F := Ideal)) V) (Proc.devRef .tc main_v2)
    = Cert.ReferenceIdeal.ReadP.val_main_v31 (F := Ideal) (V (Proc.devRef .tc main_arg1)) := by
  after_results
  rfl
theorem protoSq_of : StableHlo.after (hostOps0_1 (F := Ideal)) (StableHlo.after (hostOps0 (F := Ideal)) V) (Proc.devRef .tc main_v5)
    = shapeCast S1x20 (Cert.ReferenceIdeal.ReadP.val_main_v36 (F := Ideal) (V (Proc.devRef .tc main_arg1))) shapeCasts_S20_S1x20 := by
  after_results
  rfl
theorem widthSq_of : StableHlo.after (hostOps0_1 (F := Ideal)) (StableHlo.after (hostOps0 (F := Ideal)) V) (Proc.devRef .tc main_v7)
    = shapeCast S1x20 (mulf (F := Ideal) (s := S20) (φ := .f32) (V (Proc.devRef .tc main_arg2)) (V (Proc.devRef .tc main_arg2))) shapeCasts_S20_S1x20 := by
  after_results
  rfl
/-- The softmax is seventeen operations, several of whose results feed two later ones. It is taken from the contents
    `V` at the second stretch's own beginning: the priors are an argument, which the first stretch does not write. -/
theorem prior_of : StableHlo.after (hostOps0_1 (F := Ideal)) V (Proc.devRef .tc main_v21)
    = shapeCast S1x20 (Cert.ReferenceIdeal.ReadP.val_main_v66 (F := Ideal) (V (Proc.devRef .tc main_arg3))) shapeCasts_S20_S1x20 := by
  after_results_simp
  rfl

end Stretch

/-! ## The four operands at the fused region's entry -/

/-- The priors are an argument: no operation of the first stretch writes them. -/
theorem W1_arg3 (c : Dev nD) : W1 m ρ c (Proc.devRef .tc main_arg3) = m ((c : Thread nD τ).loc main_arg3) :=
  calc W1 m ρ c (Proc.devRef .tc main_arg3)
    _ = W0 m ρ c (Proc.devRef .tc main_arg3) := by stretch_keeps hostOps0
    _ = m ((c : Thread nD τ).loc main_arg3) := rfl

/-- The unit prototypes the fused region reads are the reference's. -/
theorem protos_eq (c : Dev nD) :
    V2 m ρ c main_v2 = Cert.ReferenceIdeal.ReadP.val_main_v31 (F := Ideal) (m ((c : Thread nD τ).loc main_arg1)) :=
  protos_of (W0 m ρ c)
/-- Their squared lengths, as a `[1, 20]` row. -/
theorem protoSq_eq (c : Dev nD) :
    V2 m ρ c main_v5 = Cert.ReferenceIdeal.ReadP.val_main_v37 (F := Ideal) (m ((c : Thread nD τ).loc main_arg1)) :=
  calc V2 m ρ c main_v5
    _ = shapeCast S1x20 (Cert.ReferenceIdeal.ReadP.val_main_v36 (F := Ideal) (m ((c : Thread nD τ).loc main_arg1))) shapeCasts_S20_S1x20 := protoSq_of (W0 m ρ c)
    _ = Cert.ReferenceIdeal.ReadP.val_main_v37 (F := Ideal) (m ((c : Thread nD τ).loc main_arg1)) := row20 _ _ Cert.ReferenceIdeal.Gen.bcast_S20_S1x20_1
/-- The squared widths, as a `[1, 20]` row: the broadcast of the squares is the square of the broadcast, both being
    the product of the width at the row index's second coordinate with itself. -/
theorem widthSq_eq (c : Dev nD) :
    V2 m ρ c main_v7 = Cert.ReferenceIdeal.ReadP.val_main_v50 (F := Ideal) (m ((c : Thread nD τ).loc main_arg2)) :=
  calc V2 m ρ c main_v7
    _ = shapeCast S1x20 (mulf (F := Ideal) (s := S20) (φ := .f32) (m ((c : Thread nD τ).loc main_arg2)) (m ((c : Thread nD τ).loc main_arg2))) shapeCasts_S20_S1x20 := widthSq_of (W0 m ρ c)
    _ = broadcastInDim S1x20 ![1] Cert.ReferenceIdeal.Gen.bcast_S20_S1x20_1
          (mulf (F := Ideal) (s := S20) (φ := .f32) (m ((c : Thread nD τ).loc main_arg2)) (m ((c : Thread nD τ).loc main_arg2))) := row20 _ _ _
    _ = Cert.ReferenceIdeal.ReadP.val_main_v50 (F := Ideal) (m ((c : Thread nD τ).loc main_arg2)) := rfl
/-- The prior weights, as a `[1, 20]` row. -/
theorem prior_eq (c : Dev nD) :
    V2 m ρ c main_v21 = Cert.ReferenceIdeal.ReadP.val_main_v67 (F := Ideal) (m ((c : Thread nD τ).loc main_arg3)) :=
  calc V2 m ρ c main_v21
    _ = shapeCast S1x20 (Cert.ReferenceIdeal.ReadP.val_main_v66 (F := Ideal) (W1 m ρ c (Proc.devRef .tc main_arg3))) shapeCasts_S20_S1x20 := prior_of (W1 m ρ c)
    _ = shapeCast S1x20 (Cert.ReferenceIdeal.ReadP.val_main_v66 (F := Ideal) (m ((c : Thread nD τ).loc main_arg3))) shapeCasts_S20_S1x20 := by rw [W1_arg3]
    _ = Cert.ReferenceIdeal.ReadP.val_main_v67 (F := Ideal) (m ((c : Thread nD τ).loc main_arg3)) := row20 _ _ Cert.ReferenceIdeal.Gen.bcast_S20_S1x20_1

end Cert.HostBridge

end
-- ==== Proof.KernelRows.lean ====
/-
  The idealized kernel program's four results, row by row, over the argument arrays as launched: each result's buffer
  at the end of the run is its region's output array; the region's operands are the arguments (through identities of
  format and reshapes), or the embeddings the fused region left; the fused region's prototype operands are the
  reference's own host terms. So row `n` of the embeddings is the unit row of the two-layer head of row `n` of the
  features, the box deltas and reconstructions are two-layer heads of the features and of the embeddings, and the scores
  are the score row of the embeddings.
-/
import proofs.«138867_j36335423324183_1_alg».proof.Proof.Gen.KernelIdeal.Frame
import proofs.«138867_j36335423324183_1_alg».proof.Proof.RowSpec
import proofs.«138867_j36335423324183_1_alg».proof.Proof.BoxHead
import proofs.«138867_j36335423324183_1_alg».proof.Proof.Rebuild
import proofs.«138867_j36335423324183_1_alg».proof.Proof.Embed
import proofs.«138867_j36335423324183_1_alg».proof.Proof.Scores
import proofs.«138867_j36335423324183_1_alg».proof.Proof.Entry
import proofs.«138867_j36335423324183_1_alg».proof.Proof.HostBridge
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Rows

open Cert.KernelIdeal Cert.KernelIdeal.Gen Cert.RowSpec
open Idealize.ShloMosaic Idealize.ShloMosaic.TcCoe Idealize.SL.Sem Idealize.ShloMosaic.ValueIdx
open Idealize.ShloMosaic.Pipeline (Dat Cfg Window)

variable (m : (ℓ : Loc nD τ sig) → Buf (Elt Ideal) ℓ) (ρ : Dev nD → PrngReg)

/-- Row `n` of the embeddings over the arguments. -/
def embRow (c : Dev nD) (n : Fin 8192) : Fin 256 → EReal :=
  unitRow (twoLayer (fun k : Fin 1024 => m ((c : Thread nD τ).loc main_arg0) (ix2 n k)) (fun (k h : Fin 1024) => m ((c : Thread nD τ).loc main_arg4) (ix2 k h))
    (fun h : Fin 1024 => m ((c : Thread nD τ).loc main_arg5) (ix1 h)) (fun (h : Fin 1024) (d : Fin 256) => m ((c : Thread nD τ).loc main_arg6) (ix2 h d))
    (fun d : Fin 256 => m ((c : Thread nD τ).loc main_arg7) (ix1 d)))

/-- The fused region's embedding row, at the run's entry contents, is the row over the arguments. -/
theorem embRowOf_eq (c : Dev nD) (n : Fin 8192) : Embed.embRowOf (V2 m ρ) c n = embRow m c n := by
  unfold Embed.embRowOf embRow
  have e0 : (fun k : Fin 1024 => V2 m ρ c main_arg0 (ix2 n k)) = fun k => m ((c : Thread nD τ).loc main_arg0) (ix2 n k) :=
    funext fun k => by rw [Entry.V2_x]
  have e1 : (fun (k : Fin 1024) (h : Fin 1024) => V2 m ρ c main_v22 (ix2 k h)) = fun k h => m ((c : Thread nD τ).loc main_arg4) (ix2 k h) :=
    funext fun k => funext fun h => Entry.V2_w1 m ρ c k h
  have e2 : (fun h : Fin 1024 => V2 m ρ c main_v24 (ix2 (0 : Fin 1) h)) = fun h => m ((c : Thread nD τ).loc main_arg5) (ix1 h) :=
    funext fun h => Entry.V2_b1 m ρ c h
  have e3 : (fun (h : Fin 1024) (j : Fin 256) => V2 m ρ c main_v23 (ix2 h j)) = fun h j => m ((c : Thread nD τ).loc main_arg6) (ix2 h j) :=
    funext fun h => funext fun j => Entry.V2_w2 m ρ c h j
  have e4 : (fun j : Fin 256 => V2 m ρ c main_v25 (ix2 (0 : Fin 1) j)) = fun j => m ((c : Thread nD τ).loc main_arg7) (ix1 j) :=
    funext fun j => Entry.V2_b2 m ρ c j
  rw [e0, e1, e2, e3, e4]

theorem emb_row (c : Dev nD) (n : Fin 8192) (d : Fin 256) :
    W7 m ρ c (Proc.devRef .tc main_v26_0) (ix2 n d) = embRow m c n d := by
  rw [Entry.W7_emb, Embed.emb_at, embRowOf_eq]

theorem boxes_row (c : Dev nD) (n : Fin 8192) (j : Fin 84) :
    W7 m ρ c (Proc.devRef .tc main_v31) (ix2 n j)
      = twoLayer (fun k : Fin 1024 => m ((c : Thread nD τ).loc main_arg0) (ix2 n k)) (fun (k h : Fin 1024) => m ((c : Thread nD τ).loc main_arg8) (ix2 k h))
          (fun h : Fin 1024 => m ((c : Thread nD τ).loc main_arg9) (ix1 h)) (fun (h : Fin 1024) (j : Fin 84) => m ((c : Thread nD τ).loc main_arg10) (ix2 h j))
          (fun j : Fin 84 => m ((c : Thread nD τ).loc main_arg11) (ix1 j)) j := by
  rw [Entry.W7_boxes, BoxHead.boxes_at]
  have e0 : (fun k : Fin 1024 => V4 m ρ c main_arg0 (ix2 n k)) = fun k => m ((c : Thread nD τ).loc main_arg0) (ix2 n k) :=
    funext fun k => by rw [Entry.V4_x]
  have e1 : (fun (k : Fin 1024) (h : Fin 1024) => V4 m ρ c main_v27 (ix2 k h)) = fun k h => m ((c : Thread nD τ).loc main_arg8) (ix2 k h) :=
    funext fun k => funext fun h => Entry.V4_w1 m ρ c k h
  have e2 : (fun h : Fin 1024 => V4 m ρ c main_v29 (ix2 (0 : Fin 1) h)) = fun h => m ((c : Thread nD τ).loc main_arg9) (ix1 h) :=
    funext fun h => Entry.V4_b1 m ρ c h
  have e3 : (fun (h : Fin 1024) (j : Fin 84) => V4 m ρ c main_v28 (ix2 h j)) = fun h j => m ((c : Thread nD τ).loc main_arg10) (ix2 h j) :=
    funext fun h => funext fun j => Entry.V4_w2 m ρ c h j
  have e4 : (fun j : Fin 84 => V4 m ρ c main_v30 (ix2 (0 : Fin 1) j)) = fun j => m ((c : Thread nD τ).loc main_arg11) (ix1 j) :=
    funext fun j => Entry.V4_b2 m ρ c j
  rw [e0, e1, e2, e3, e4]

theorem rebuilt_row (c : Dev nD) (n : Fin 8192) (j : Fin 12544) :
    W7 m ρ c (Proc.devRef .tc main_v36) (ix2 n j)
      = twoLayer (embRow m c n) (fun (k : Fin 256) (h : Fin 512) => m ((c : Thread nD τ).loc main_arg12) (ix2 k h))
          (fun h : Fin 512 => m ((c : Thread nD τ).loc main_arg13) (ix1 h)) (fun (h : Fin 512) (j : Fin 12544) => m ((c : Thread nD τ).loc main_arg14) (ix2 h j))
          (fun j : Fin 12544 => m ((c : Thread nD τ).loc main_arg15) (ix1 j)) j := by
  rw [Entry.W7_rebuilt, Rebuild.rebuilt_at]
  have e0 : (fun k : Fin 256 => V6 m ρ c main_v26_0 (ix2 n k)) = embRow m c n :=
    funext fun k => by rw [Entry.V6_emb, Embed.emb_at, embRowOf_eq]
  have e1 : (fun (k : Fin 256) (h : Fin 512) => V6 m ρ c main_v32 (ix2 k h)) = fun k h => m ((c : Thread nD τ).loc main_arg12) (ix2 k h) :=
    funext fun k => funext fun h => Entry.V6_w1 m ρ c k h
  have e2 : (fun h : Fin 512 => V6 m ρ c main_v34 (ix2 (0 : Fin 1) h)) = fun h => m ((c : Thread nD τ).loc main_arg13) (ix1 h) :=
    funext fun h => Entry.V6_b1 m ρ c h
  have e3 : (fun (h : Fin 512) (j : Fin 12544) => V6 m ρ c main_v33 (ix2 h j)) = fun h j => m ((c : Thread nD τ).loc main_arg14) (ix2 h j) :=
    funext fun h => funext fun j => Entry.V6_w2 m ρ c h j
  have e4 : (fun j : Fin 12544 => V6 m ρ c main_v35 (ix2 (0 : Fin 1) j)) = fun j => m ((c : Thread nD τ).loc main_arg15) (ix1 j) :=
    funext fun j => Entry.V6_b2 m ρ c j
  rw [e0, e1, e2, e3, e4]

theorem scores_row (c : Dev nD) (n : Fin 8192) (j : Fin 21) :
    W7 m ρ c (Proc.devRef .tc main_v26_1) (ix2 n j)
      = scoreRow (embRow m c n)
          (fun (k : Fin 20) (d : Fin 256) => Cert.ReferenceIdeal.ReadP.val_main_v31 (F := Ideal) (m ((c : Thread nD τ).loc main_arg1)) (ix2 k d))
          (fun k : Fin 20 => Cert.ReferenceIdeal.ReadP.val_main_v37 (F := Ideal) (m ((c : Thread nD τ).loc main_arg1)) (ix2 (0 : Fin 1) k))
          (fun k : Fin 20 => Cert.ReferenceIdeal.ReadP.val_main_v50 (F := Ideal) (m ((c : Thread nD τ).loc main_arg2)) (ix2 (0 : Fin 1) k))
          (fun k : Fin 20 => Cert.ReferenceIdeal.ReadP.val_main_v67 (F := Ideal) (m ((c : Thread nD τ).loc main_arg3)) (ix2 (0 : Fin 1) k)) j := by
  rw [Entry.W7_scores, Scores.scores_at, embRowOf_eq, HostBridge.protos_eq, HostBridge.protoSq_eq, HostBridge.widthSq_eq,
    HostBridge.prior_eq]

end Cert.KernelIdeal.Rows

end
-- ==== Proof.RefEmb.lean ====
/-
  The reference's embeddings, row by row: read one operation at a time, row `n` is the unit row of the two-layer head of
  row `n` of the features. A `dot_general` is the plain sum of products; the host's sum of squares starts from the word
  `0.0`, which adds nothing; the bias rows are broadcasts of the bias vectors.
-/
import proofs.«138867_j36335423324183_1_alg».proof.Proof.RefRead
import proofs.«138867_j36335423324183_1_alg».proof.Proof.RowSpec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.ReferenceIdeal.Rows

open Cert.ReferenceIdeal Cert.ReferenceIdeal.ReadP Cert.RowSpec
open Idealize.ShloMosaic Idealize.ShloMosaic.TcCoe Idealize.SL.Sem Idealize.ShloMosaic.ValueIdx

/-! ## The composed index functions at a row and a column, as coordinates -/

/-- First product at `(n, h)`, left operand at `k`: row `n`, column `k` of the features. -/
theorem hidden_lidx (n : Fin 8192) (h k : Fin 1024) : lidx_main_v0 (ix2 n h) k = ix2 n k :=
  funext fun a => Fin.ext (by match a with | ⟨0, _⟩ => rfl | ⟨1, _⟩ => rfl)
/-- First product at `(n, h)`, right operand at `k`: row `k`, column `h` of the first weights. -/
theorem hidden_ridx (n : Fin 8192) (h k : Fin 1024) : ridx_main_v0 (ix2 n h) k = ix2 k h :=
  funext fun a => Fin.ext (by match a with | ⟨0, _⟩ => rfl | ⟨1, _⟩ => rfl)
/-- The first bias, broadcast to a row and then down the rows, at `(n, h)`: entry `h` of the bias vector. -/
theorem hidden_bidx (n : Fin 8192) (h : Fin 1024) : idx_main_v1 (idx_main_v2 (ix2 n h)) = ix1 h :=
  funext fun a => Fin.ext (by match a with | ⟨0, _⟩ => rfl)
/-- Second product at `(n, d)`, left operand at `h`: row `n`, column `h` of the rectified layer. -/
theorem out_lidx (n : Fin 8192) (d : Fin 256) (h : Fin 1024) : lidx_main_v9 (ix2 n d) h = ix2 n h :=
  funext fun a => Fin.ext (by match a with | ⟨0, _⟩ => rfl | ⟨1, _⟩ => rfl)
/-- Second product at `(n, d)`, right operand at `h`: row `h`, column `d` of the second weights. -/
theorem out_ridx (n : Fin 8192) (d : Fin 256) (h : Fin 1024) : ridx_main_v9 (ix2 n d) h = ix2 h d :=
  funext fun a => Fin.ext (by match a with | ⟨0, _⟩ => rfl | ⟨1, _⟩ => rfl)
/-- The second bias, broadcast to a row and then down the rows, at `(n, d)`: entry `d` of the bias vector. -/
theorem out_bidx (n : Fin 8192) (d : Fin 256) : idx_main_v10 (idx_main_v11 (ix2 n d)) = ix1 d :=
  funext fun a => Fin.ext (by match a with | ⟨0, _⟩ => rfl)
/-- The row's sum of squares, broadcast to a column and then along the row, at `(n, d)`, summand `e`: row `n`,
    column `e` of the head. -/
theorem norm_idx (n : Fin 8192) (d e : Fin 256) :
    idx_main_call1_v1 (idx_main_call1_v2 (idx_main_v14 (ix2 n d))) e = ix2 n e :=
  funext fun a => Fin.ext (by match a with | ⟨0, _⟩ => rfl | ⟨1, _⟩ => rfl)

/-! ## The stages at a row and a column -/

/-- The first layer before the rectifier, at `(n, h)`. -/
theorem hidden_pre_at (x0 : (⟨S8192x1024, .f32⟩ : BufTy).Contents (Elt Ideal)) (x4 : (⟨S1024x1024, .f32⟩ : BufTy).Contents (Elt Ideal)) (x5 : (⟨S1024, .f32⟩ : BufTy).Contents (Elt Ideal)) (n : Fin 8192) (h : Fin 1024) :
    val_main_v3 (F := Ideal) x0 x4 x5 (ix2 n h)
      = affine (fun k : Fin 1024 => x0 (ix2 n k)) (fun (k h : Fin 1024) => x4 (ix2 k h)) (fun h : Fin 1024 => x5 (ix1 h)) h := by
  rw [val_main_v3_apply, val_main_v0_apply, val_main_v2_apply, val_main_v1_apply, hidden_bidx]
  simp only [hidden_lidx, hidden_ridx, Ideal.addf_def]
  rfl

/-- The rectifier as the reference writes it (a select on "above the zero word" between the value and the slope word
    times it), at any index. -/
theorem rectified_at (x0 : (⟨S8192x1024, .f32⟩ : BufTy).Contents (Elt Ideal)) (x4 : (⟨S1024x1024, .f32⟩ : BufTy).Contents (Elt Ideal)) (x5 : (⟨S1024, .f32⟩ : BufTy).Contents (Elt Ideal)) (i : S8192x1024.Idx) :
    val_main_v8 (F := Ideal) x0 x4 x5 i = leaky (val_main_v3 (F := Ideal) x0 x4 x5 i) := by
  rw [val_main_v8_apply, val_main_v5_apply, val_main_v7_apply, val_main_v4_apply, val_main_v6_apply,
    val_main_cst_apply, val_main_cst_0_apply]
  rfl

/-- The two-layer head, at `(n, d)`. -/
theorem head_at (x0 : (⟨S8192x1024, .f32⟩ : BufTy).Contents (Elt Ideal)) (x4 : (⟨S1024x1024, .f32⟩ : BufTy).Contents (Elt Ideal)) (x5 : (⟨S1024, .f32⟩ : BufTy).Contents (Elt Ideal)) (x6 : (⟨S1024x256, .f32⟩ : BufTy).Contents (Elt Ideal)) (x7 : (⟨S256, .f32⟩ : BufTy).Contents (Elt Ideal)) (n : Fin 8192) (d : Fin 256) :
    val_main_v12 (F := Ideal) x0 x4 x5 x6 x7 (ix2 n d)
      = twoLayer (fun k : Fin 1024 => x0 (ix2 n k)) (fun (k h : Fin 1024) => x4 (ix2 k h)) (fun h : Fin 1024 => x5 (ix1 h))
          (fun (h : Fin 1024) (d : Fin 256) => x6 (ix2 h d)) (fun d : Fin 256 => x7 (ix1 d)) d := by
  rw [val_main_v12_apply, val_main_v9_apply, val_main_v11_apply, val_main_v10_apply, out_bidx]
  simp only [out_lidx, out_ridx, rectified_at, hidden_pre_at, Ideal.addf_def]
  rfl

/-- The row's Euclidean length, at `(n, d)`: the host's sum of the head's squares along row `n` starts from the zero
    word, which adds nothing. -/
theorem row_norm_at (x0 : (⟨S8192x1024, .f32⟩ : BufTy).Contents (Elt Ideal)) (x4 : (⟨S1024x1024, .f32⟩ : BufTy).Contents (Elt Ideal)) (x5 : (⟨S1024, .f32⟩ : BufTy).Contents (Elt Ideal)) (x6 : (⟨S1024x256, .f32⟩ : BufTy).Contents (Elt Ideal)) (x7 : (⟨S256, .f32⟩ : BufTy).Contents (Elt Ideal)) (n : Fin 8192) (d : Fin 256) :
    val_main_v14 (F := Ideal) x0 x4 x5 x6 x7 (ix2 n d)
      = Ideal.sqrt (sumSq (twoLayer (fun k : Fin 1024 => x0 (ix2 n k)) (fun (k h : Fin 1024) => x4 (ix2 k h)) (fun h : Fin 1024 => x5 (ix1 h))
          (fun (h : Fin 1024) (d : Fin 256) => x6 (ix2 h d)) (fun d : Fin 256 => x7 (ix1 d)))) := by
  rw [val_main_v14_apply, val_main_v13_apply, val_main_call1_v2_apply, val_main_call1_v1_apply, val_main_call1_cst_apply]
  simp only [norm_idx, val_main_call1_v0_apply, head_at, Ideal.mulf_def, Ideal.hostUnary_sqrt_def, Ideal.ofBits_def]
  rw [show Ideal.ofBits .f32 0x00000000#32 = zeroW from rfl, zeroW_add]
  rfl

/-- Row `n` of the reference's embeddings. -/
theorem emb_row (x0 : (⟨S8192x1024, .f32⟩ : BufTy).Contents (Elt Ideal)) (x4 : (⟨S1024x1024, .f32⟩ : BufTy).Contents (Elt Ideal)) (x5 : (⟨S1024, .f32⟩ : BufTy).Contents (Elt Ideal)) (x6 : (⟨S1024x256, .f32⟩ : BufTy).Contents (Elt Ideal)) (x7 : (⟨S256, .f32⟩ : BufTy).Contents (Elt Ideal))
    (n : Fin 8192) (d : Fin 256) :
    val_main_v15 (F := Ideal) x0 x4 x5 x6 x7 (ix2 n d)
      = unitRow (twoLayer (fun k : Fin 1024 => x0 (ix2 n k)) (fun (k h : Fin 1024) => x4 (ix2 k h)) (fun h : Fin 1024 => x5 (ix1 h))
          (fun (h : Fin 1024) (d : Fin 256) => x6 (ix2 h d)) (fun d : Fin 256 => x7 (ix1 d))) d := by
  rw [val_main_v15_apply, head_at, row_norm_at, Ideal.hostDivf_def]
  rfl

end Cert.ReferenceIdeal.Rows

end
-- ==== Proof.RefBoxes.lean ====
/-
  The reference's box deltas, row by row: read one operation at a time, row `n` is the two-layer head of row `n` of the
  features. A `dot_general` is the plain sum of products; the bias rows are broadcasts of the bias vectors.
-/
import proofs.«138867_j36335423324183_1_alg».proof.Proof.RefRead
import proofs.«138867_j36335423324183_1_alg».proof.Proof.RowSpec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.ReferenceIdeal.Rows

open Cert.ReferenceIdeal Cert.ReferenceIdeal.ReadP Cert.RowSpec
open Idealize.ShloMosaic Idealize.ShloMosaic.TcCoe Idealize.SL.Sem Idealize.ShloMosaic.ValueIdx

/-! ## Where each operation reads its operands, at row `n` -/

/-- The first product's left operand at `(n, h)`, summand `k`: row `n`, column `k`. -/
theorem boxes_first_left_index (n : Fin 8192) (h k : Fin 1024) : lidx_main_v16 (ix2 n h) k = ix2 n k :=
  funext fun a => Fin.ext (by match a with | ⟨0, _⟩ => rfl | ⟨1, _⟩ => rfl)
/-- The first product's right operand at `(n, h)`, summand `k`: row `k`, column `h`. -/
theorem boxes_first_right_index (n : Fin 8192) (h k : Fin 1024) : ridx_main_v16 (ix2 n h) k = ix2 k h :=
  funext fun a => Fin.ext (by match a with | ⟨0, _⟩ => rfl | ⟨1, _⟩ => rfl)
/-- The first bias, broadcast to a row and then over the rows, at `(n, h)`: entry `h` of the vector. -/
theorem boxes_first_bias_index (n : Fin 8192) (h : Fin 1024) : idx_main_v17 (idx_main_v18 (ix2 n h)) = ix1 h :=
  funext fun a => Fin.ext (by match a with | ⟨0, _⟩ => rfl)
/-- The second product's left operand at `(n, j)`, summand `h`: row `n`, column `h`. -/
theorem boxes_second_left_index (n : Fin 8192) (j : Fin 84) (h : Fin 1024) : lidx_main_v25 (ix2 n j) h = ix2 n h :=
  funext fun a => Fin.ext (by match a with | ⟨0, _⟩ => rfl | ⟨1, _⟩ => rfl)
/-- The second product's right operand at `(n, j)`, summand `h`: row `h`, column `j`. -/
theorem boxes_second_right_index (n : Fin 8192) (j : Fin 84) (h : Fin 1024) : ridx_main_v25 (ix2 n j) h = ix2 h j :=
  funext fun a => Fin.ext (by match a with | ⟨0, _⟩ => rfl | ⟨1, _⟩ => rfl)
/-- The second bias at `(n, j)`: entry `j` of the vector. -/
theorem boxes_second_bias_index (n : Fin 8192) (j : Fin 84) : idx_main_v26 (idx_main_v27 (ix2 n j)) = ix1 j :=
  funext fun a => Fin.ext (by match a with | ⟨0, _⟩ => rfl)

/-! ## The hidden layer -/

/-- The rectified first layer at row `n`, unit `h`. -/
theorem boxes_hidden_at (x0 : (⟨S8192x1024, .f32⟩ : BufTy).Contents (Elt Ideal)) (x8 : (⟨S1024x1024, .f32⟩ : BufTy).Contents (Elt Ideal)) (x9 : (⟨S1024, .f32⟩ : BufTy).Contents (Elt Ideal))
    (n : Fin 8192) (h : Fin 1024) :
    val_main_v24 (F := Ideal) x0 x8 x9 (ix2 n h)
      = leaky (affine (fun k : Fin 1024 => x0 (ix2 n k)) (fun (k h : Fin 1024) => x8 (ix2 k h)) (fun h : Fin 1024 => x9 (ix1 h)) h) := by
  rw [val_main_v24_apply, val_main_v21_apply, val_main_v23_apply, val_main_v22_apply, val_main_cst_2_apply,
    val_main_v20_apply, val_main_cst_1_apply, val_main_v19_apply, val_main_v16_apply, val_main_v18_apply,
    val_main_v17_apply]
  simp only [boxes_first_left_index, boxes_first_right_index, boxes_first_bias_index]
  unfold leaky affine
  rfl

/-- Row `n` of the reference's box deltas. -/
theorem boxes_row (x0 : (⟨S8192x1024, .f32⟩ : BufTy).Contents (Elt Ideal)) (x8 : (⟨S1024x1024, .f32⟩ : BufTy).Contents (Elt Ideal)) (x9 : (⟨S1024, .f32⟩ : BufTy).Contents (Elt Ideal)) (x10 : (⟨S1024x84, .f32⟩ : BufTy).Contents (Elt Ideal)) (x11 : (⟨S84, .f32⟩ : BufTy).Contents (Elt Ideal))
    (n : Fin 8192) (j : Fin 84) :
    val_main_v28 (F := Ideal) x0 x8 x9 x10 x11 (ix2 n j)
      = twoLayer (fun k : Fin 1024 => x0 (ix2 n k)) (fun (k h : Fin 1024) => x8 (ix2 k h)) (fun h : Fin 1024 => x9 (ix1 h))
          (fun (h : Fin 1024) (j : Fin 84) => x10 (ix2 h j)) (fun j : Fin 84 => x11 (ix1 j)) j := by
  rw [val_main_v28_apply, val_main_v25_apply, val_main_v27_apply, val_main_v26_apply]
  simp only [boxes_second_left_index, boxes_second_right_index, boxes_second_bias_index, boxes_hidden_at]
  unfold twoLayer affine
  rfl

end Cert.ReferenceIdeal.Rows

end
-- ==== Proof.RefRebuilt.lean ====
/-
  The reference's reconstructions, row by row, over its embeddings: read one operation at a time, row `n` is the two-layer
  head of row `n` of the embeddings. A `dot_general` is the plain sum of products; the bias rows are broadcasts of the
  bias vectors.
-/
import proofs.«138867_j36335423324183_1_alg».proof.Proof.RefRead
import proofs.«138867_j36335423324183_1_alg».proof.Proof.RowSpec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.ReferenceIdeal.Rows

open Cert.ReferenceIdeal Cert.ReferenceIdeal.ReadP Cert.RowSpec
open Idealize.ShloMosaic Idealize.ShloMosaic.TcCoe Idealize.SL.Sem Idealize.ShloMosaic.ValueIdx

/-! ## Where each operation reads its operands, at row `n` -/

/-- The first product's left operand at `(n, h)`, summand `k`: row `n`, column `k` of the embeddings. -/
theorem rebuilt_first_left_index (n : Fin 8192) (h : Fin 512) (k : Fin 256) : lidx_main_v75 (ix2 n h) k = ix2 n k :=
  funext fun a => Fin.ext (by match a with | ⟨0, _⟩ => rfl | ⟨1, _⟩ => rfl)
/-- The first product's right operand at `(n, h)`, summand `k`: row `k`, column `h`. -/
theorem rebuilt_first_right_index (n : Fin 8192) (h : Fin 512) (k : Fin 256) : ridx_main_v75 (ix2 n h) k = ix2 k h :=
  funext fun a => Fin.ext (by match a with | ⟨0, _⟩ => rfl | ⟨1, _⟩ => rfl)
/-- The first bias, broadcast to a row and then over the rows, at `(n, h)`: entry `h` of the vector. -/
theorem rebuilt_first_bias_index (n : Fin 8192) (h : Fin 512) : idx_main_v76 (idx_main_v77 (ix2 n h)) = ix1 h :=
  funext fun a => Fin.ext (by match a with | ⟨0, _⟩ => rfl)
/-- The second product's left operand at `(n, j)`, summand `h`: row `n`, column `h`. -/
theorem rebuilt_second_left_index (n : Fin 8192) (j : Fin 12544) (h : Fin 512) : lidx_main_v84 (ix2 n j) h = ix2 n h :=
  funext fun a => Fin.ext (by match a with | ⟨0, _⟩ => rfl | ⟨1, _⟩ => rfl)
/-- The second product's right operand at `(n, j)`, summand `h`: row `h`, column `j`. -/
theorem rebuilt_second_right_index (n : Fin 8192) (j : Fin 12544) (h : Fin 512) : ridx_main_v84 (ix2 n j) h = ix2 h j :=
  funext fun a => Fin.ext (by match a with | ⟨0, _⟩ => rfl | ⟨1, _⟩ => rfl)
/-- The second bias at `(n, j)`: entry `j` of the vector. -/
theorem rebuilt_second_bias_index (n : Fin 8192) (j : Fin 12544) : idx_main_v85 (idx_main_v86 (ix2 n j)) = ix1 j :=
  funext fun a => Fin.ext (by match a with | ⟨0, _⟩ => rfl)

/-! ## The hidden layer -/

/-- The rectified first layer at row `n`, unit `h`, over the embeddings' row `n`. -/
theorem rebuilt_hidden_at (x0 : (⟨S8192x1024, .f32⟩ : BufTy).Contents (Elt Ideal)) (x4 : (⟨S1024x1024, .f32⟩ : BufTy).Contents (Elt Ideal)) (x5 : (⟨S1024, .f32⟩ : BufTy).Contents (Elt Ideal)) (x6 : (⟨S1024x256, .f32⟩ : BufTy).Contents (Elt Ideal)) (x7 : (⟨S256, .f32⟩ : BufTy).Contents (Elt Ideal))
    (x12 : (⟨S256x512, .f32⟩ : BufTy).Contents (Elt Ideal)) (x13 : (⟨S512, .f32⟩ : BufTy).Contents (Elt Ideal))
    (n : Fin 8192) (h : Fin 512) :
    val_main_v83 (F := Ideal) x0 x4 x5 x6 x7 x12 x13 (ix2 n h)
      = leaky (affine (fun k : Fin 256 => val_main_v15 (F := Ideal) x0 x4 x5 x6 x7 (ix2 n k)) (fun (k : Fin 256) (h : Fin 512) => x12 (ix2 k h)) (fun h : Fin 512 => x13 (ix1 h)) h) := by
  rw [val_main_v83_apply, val_main_v80_apply, val_main_v82_apply, val_main_v81_apply, val_main_cst_14_apply,
    val_main_v79_apply, val_main_cst_13_apply, val_main_v78_apply, val_main_v75_apply, val_main_v77_apply,
    val_main_v76_apply]
  simp only [rebuilt_first_left_index, rebuilt_first_right_index, rebuilt_first_bias_index]
  unfold leaky affine
  rfl

/-- Row `n` of the reference's reconstructions, over its embeddings. -/
theorem rebuilt_row (x0 : (⟨S8192x1024, .f32⟩ : BufTy).Contents (Elt Ideal)) (x4 : (⟨S1024x1024, .f32⟩ : BufTy).Contents (Elt Ideal)) (x5 : (⟨S1024, .f32⟩ : BufTy).Contents (Elt Ideal)) (x6 : (⟨S1024x256, .f32⟩ : BufTy).Contents (Elt Ideal)) (x7 : (⟨S256, .f32⟩ : BufTy).Contents (Elt Ideal))
    (x12 : (⟨S256x512, .f32⟩ : BufTy).Contents (Elt Ideal)) (x13 : (⟨S512, .f32⟩ : BufTy).Contents (Elt Ideal)) (x14 : (⟨S512x12544, .f32⟩ : BufTy).Contents (Elt Ideal)) (x15 : (⟨S12544, .f32⟩ : BufTy).Contents (Elt Ideal)) (n : Fin 8192) (j : Fin 12544) :
    val_main_v87 (F := Ideal) x0 x4 x5 x6 x7 x12 x13 x14 x15 (ix2 n j)
      = twoLayer (fun k : Fin 256 => val_main_v15 (F := Ideal) x0 x4 x5 x6 x7 (ix2 n k)) (fun (k : Fin 256) (h : Fin 512) => x12 (ix2 k h))
          (fun h : Fin 512 => x13 (ix1 h)) (fun (h : Fin 512) (j : Fin 12544) => x14 (ix2 h j)) (fun j : Fin 12544 => x15 (ix1 j)) j := by
  rw [val_main_v87_apply, val_main_v84_apply, val_main_v86_apply, val_main_v85_apply]
  simp only [rebuilt_second_left_index, rebuilt_second_right_index, rebuilt_second_bias_index, rebuilt_hidden_at]
  unfold twoLayer affine
  rfl

end Cert.ReferenceIdeal.Rows

end
-- ==== Proof.RefScores.lean ====
/-
  The reference's scores, row by row, over its embeddings and its own host terms for the prototypes, their squared
  lengths, the squared widths and the prior weights: row `n` is the score row of row `n` of the embeddings. The host's sum of
  squares starts from the word `0.0`, which adds nothing; the inner products are a `dot_general` with the transposed
  prototypes; the negation is the host's; the row's maximum is the fold of `max` from `-∞`; the concatenation reads its
  first operand at column `0` and its second, shifted by one, after it.
-/
import proofs.«138867_j36335423324183_1_alg».proof.Proof.RefRead
import proofs.«138867_j36335423324183_1_alg».proof.Proof.RowSpec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.ReferenceIdeal.Rows

open Cert.ReferenceIdeal Cert.ReferenceIdeal.ReadP Cert.RowSpec
open Idealize.ShloMosaic Idealize.ShloMosaic.TcCoe Idealize.SL.Sem Idealize.ShloMosaic.ValueIdx

/-- The reference's prototype score at row n, prototype k: the score of row n of its embeddings against prototype k's row,
    squared length, squared width and weight. -/
private theorem score_at (x0 : (⟨S8192x1024, .f32⟩ : BufTy).Contents (Elt Ideal)) (x1 : (⟨S20x256, .f32⟩ : BufTy).Contents (Elt Ideal)) (x2 x3 : (⟨S20, .f32⟩ : BufTy).Contents (Elt Ideal)) (x4 : (⟨S1024x1024, .f32⟩ : BufTy).Contents (Elt Ideal)) (x5 : (⟨S1024, .f32⟩ : BufTy).Contents (Elt Ideal))
    (x6 : (⟨S1024x256, .f32⟩ : BufTy).Contents (Elt Ideal)) (x7 : (⟨S256, .f32⟩ : BufTy).Contents (Elt Ideal)) (n : Fin 8192) (k : Fin 20) :
    val_main_v69 (F := Ideal) x0 x1 x2 x3 x4 x5 x6 x7 (ix2 n k)
      = protoScore (fun d : Fin 256 => val_main_v15 (F := Ideal) x0 x4 x5 x6 x7 (ix2 n d))
          (fun d : Fin 256 => val_main_v31 (F := Ideal) x1 (ix2 k d))
          (val_main_v37 (F := Ideal) x1 (ix2 (0 : Fin 1) k))
          (val_main_v50 (F := Ideal) x2 (ix2 (0 : Fin 1) k))
          (val_main_v67 (F := Ideal) x3 (ix2 (0 : Fin 1) k)) := by
  -- the three per-prototype rows broadcast down the rows: each reads its one row at column k
  have hW : val_main_v68 (F := Ideal) x3 (ix2 n k) = val_main_v67 (F := Ideal) x3 (ix2 (0 : Fin 1) k) :=
    (val_main_v68_apply x3 (ix2 n k)).trans (congrArg (val_main_v67 (F := Ideal) x3)
      (funext fun a => Fin.ext (by match a with | ⟨0, _⟩ => rfl | ⟨1, _⟩ => rfl)))
  have hS : val_main_v51 (F := Ideal) x2 (ix2 n k) = val_main_v50 (F := Ideal) x2 (ix2 (0 : Fin 1) k) :=
    (val_main_v51_apply x2 (ix2 n k)).trans (congrArg (val_main_v50 (F := Ideal) x2)
      (funext fun a => Fin.ext (by match a with | ⟨0, _⟩ => rfl | ⟨1, _⟩ => rfl)))
  have hB : val_main_v39 (F := Ideal) x1 (ix2 n k) = val_main_v37 (F := Ideal) x1 (ix2 (0 : Fin 1) k) :=
    (val_main_v39_apply x1 (ix2 n k)).trans (congrArg (val_main_v37 (F := Ideal) x1)
      (funext fun a => Fin.ext (by match a with | ⟨0, _⟩ => rfl | ⟨1, _⟩ => rfl)))
  -- the two splats of the word 2.0
  have h2 : val_main_v43 (F := Ideal) (ix2 n k) = twoW := (val_main_v43_apply (F := Ideal) (ix2 n k)).trans rfl
  have h2' : val_main_v47 (F := Ideal) (ix2 n k) = twoW := (val_main_v47_apply (F := Ideal) (ix2 n k)).trans rfl
  -- the row's squared length: the sum over the row from the word 0.0, kept as a column and broadcast along the row
  have hA : val_main_v38 (F := Ideal) x0 x4 x5 x6 x7 (ix2 n k)
      = zeroW + ∑ d : Fin 256, val_main_v15 (F := Ideal) x0 x4 x5 x6 x7 (ix2 n d) * val_main_v15 (F := Ideal) x0 x4 x5 x6 x7 (ix2 n d) := by
    refine (val_main_v38_apply x0 x4 x5 x6 x7 (ix2 n k)).trans ((val_main_v34_apply x0 x4 x5 x6 x7 _).trans
      ((val_main_v33_apply x0 x4 x5 x6 x7 _).trans ?_))
    refine congrArg (zeroW + ·) (Finset.sum_congr rfl fun d _ => ?_)
    have e : idx_main_v33 (idx_main_v34 (idx_main_v38 (ix2 n k))) d = ix2 n d :=
      funext fun a => Fin.ext (by match a with | ⟨0, _⟩ => rfl | ⟨1, _⟩ => rfl)
    rw [e]
    rfl
  -- the inner product of row n with prototype k, through the transposed prototypes
  have hM : val_main_v42 (F := Ideal) x0 x1 x4 x5 x6 x7 (ix2 n k)
      = ∑ d : Fin 256, val_main_v15 (F := Ideal) x0 x4 x5 x6 x7 (ix2 n d) * val_main_v31 (F := Ideal) x1 (ix2 k d) := by
    refine (val_main_v42_apply x0 x1 x4 x5 x6 x7 (ix2 n k)).trans (Finset.sum_congr rfl fun d _ => ?_)
    have el : lidx_main_v42 (ix2 n k) d = ix2 n d :=
      funext fun a => Fin.ext (by match a with | ⟨0, _⟩ => rfl | ⟨1, _⟩ => rfl)
    have er : idx_main_v41 (ridx_main_v42 (ix2 n k) d) = ix2 k d :=
      funext fun a => Fin.ext (by match a with | ⟨0, _⟩ => rfl | ⟨1, _⟩ => rfl)
    rw [el, val_main_v41_apply, er]
  -- every other operation acts entry by entry
  show Ideal.exp (Ideal.div (Ideal.div
        (-((val_main_v38 (F := Ideal) x0 x4 x5 x6 x7 (ix2 n k) + val_main_v39 (F := Ideal) x1 (ix2 n k))
          - val_main_v43 (F := Ideal) (ix2 n k) * val_main_v42 (F := Ideal) x0 x1 x4 x5 x6 x7 (ix2 n k)))
        (val_main_v47 (F := Ideal) (ix2 n k))) (val_main_v51 (F := Ideal) x2 (ix2 n k)))
      * val_main_v68 (F := Ideal) x3 (ix2 n k) = _
  -- the sum started from the word 0.0 is the plain sum; what is left is the score's definition
  rw [hA, hB, hM, hS, hW, h2, h2', zeroW_add]
  rfl

/-- Row `n` of the reference's scores, over its embeddings and its host terms for the prototype operands. -/
theorem scores_row (x0 : (⟨S8192x1024, .f32⟩ : BufTy).Contents (Elt Ideal)) (x1 : (⟨S20x256, .f32⟩ : BufTy).Contents (Elt Ideal)) (x2 x3 : (⟨S20, .f32⟩ : BufTy).Contents (Elt Ideal)) (x4 : (⟨S1024x1024, .f32⟩ : BufTy).Contents (Elt Ideal)) (x5 : (⟨S1024, .f32⟩ : BufTy).Contents (Elt Ideal))
    (x6 : (⟨S1024x256, .f32⟩ : BufTy).Contents (Elt Ideal)) (x7 : (⟨S256, .f32⟩ : BufTy).Contents (Elt Ideal)) (n : Fin 8192) (j : Fin 21) :
    val_main_v74 (F := Ideal) x0 x1 x2 x3 x4 x5 x6 x7 (ix2 n j)
      = scoreRow (fun d : Fin 256 => val_main_v15 (F := Ideal) x0 x4 x5 x6 x7 (ix2 n d))
          (fun (k : Fin 20) (d : Fin 256) => val_main_v31 (F := Ideal) x1 (ix2 k d))
          (fun k : Fin 20 => val_main_v37 (F := Ideal) x1 (ix2 (0 : Fin 1) k))
          (fun k : Fin 20 => val_main_v50 (F := Ideal) x2 (ix2 (0 : Fin 1) k))
          (fun k : Fin 20 => val_main_v67 (F := Ideal) x3 (ix2 (0 : Fin 1) k)) j := by
  induction j using Fin.cases with
  | zero =>
    rw [scoreRow_zero]
    unfold val_main_v74
    -- column 0 lies in the first piece, at the same coordinates
    refine (concatenate_pair_apply_left (t := S8192x21) (s₁ := S8192x1) (s₂ := S8192x20) 1 _ _ _ (ix2 n (0 : Fin 21)) rfl (ix2 n (0 : Fin 1))
      (fun b => by match b with | ⟨0, _⟩ => rfl | ⟨1, _⟩ => rfl)).trans ?_
    have h1 : val_main_v72 (F := Ideal) (ix2 n (0 : Fin 1)) = oneW :=
      (val_main_v72_apply (F := Ideal) (ix2 n (0 : Fin 1))).trans rfl
    -- the row's maximum: the fold of max from the word -∞ over the row's twenty scores
    have hmax : val_main_v71 (F := Ideal) x0 x1 x2 x3 x4 x5 x6 x7 (ix2 n (0 : Fin 1))
        = (Finset.univ : Finset (Fin 20)).fold max negInfW (fun k : Fin 20 =>
            protoScore (fun d : Fin 256 => val_main_v15 (F := Ideal) x0 x4 x5 x6 x7 (ix2 n d))
              (fun d : Fin 256 => val_main_v31 (F := Ideal) x1 (ix2 k d))
              (val_main_v37 (F := Ideal) x1 (ix2 (0 : Fin 1) k))
              (val_main_v50 (F := Ideal) x2 (ix2 (0 : Fin 1) k))
              (val_main_v67 (F := Ideal) x3 (ix2 (0 : Fin 1) k))) := by
      have hR : S8192x20.Reduces [1] S8192 := by decide
      refine (val_main_v71_apply x0 x1 x2 x3 x4 x5 x6 x7 (ix2 n (0 : Fin 1))).trans ?_
      unfold val_main_v70
      refine (Host.reduce_eq_fold_single (FloatOps.maximumf (F := Ideal) (φ := .f32)) (val_main_v69 (F := Ideal) x0 x1 x2 x3 x4 x5 x6 x7)
        (val_main_cst_11 (F := Ideal)) _ hR _ _).trans ?_
      refine congrArg (fun f : Fin 20 → EReal => (Finset.univ : Finset (Fin 20)).fold max negInfW f) (funext fun k => ?_)
      -- the reduced index n with the column k put back is (n, k); there the entry is the prototype score
      have hl : hR.lift (idx_main_v71 (ix2 n (0 : Fin 1))) k = ix2 n k :=
        funext fun a => Fin.ext (by match a with | ⟨0, _⟩ => rfl | ⟨1, _⟩ => rfl)
      exact (congrArg (val_main_v69 (F := Ideal) x0 x1 x2 x3 x4 x5 x6 x7) hl).trans (score_at x0 x1 x2 x3 x4 x5 x6 x7 n k)
    show val_main_v72 (F := Ideal) (ix2 n (0 : Fin 1)) - val_main_v71 (F := Ideal) x0 x1 x2 x3 x4 x5 x6 x7 (ix2 n (0 : Fin 1)) = _
    rw [h1, hmax]
  | succ k =>
    rw [scoreRow_succ]
    unfold val_main_v74
    -- column k + 1 lies in the second piece, one column to the left
    refine (concatenate_pair_apply_right (t := S8192x21) (s₁ := S8192x1) (s₂ := S8192x20) 1 _ _ _ (ix2 n k.succ) rfl rfl (ix2 n k) (fun b hb => ?_) ?_).trans
      (score_at x0 x1 x2 x3 x4 x5 x6 x7 n k)
    · match b with
      | ⟨0, _⟩ => rfl
      | ⟨1, _⟩ => exact absurd rfl hb
    · rfl

end Cert.ReferenceIdeal.Rows

end
-- ==== Proof.lean ====
/-
  The predictor's Pallas implementation against its jnp reference, over the extended reals.

  The implementation is three kernel regions — a fused one that forms the embeddings and scores them against the
  prototypes, and two copies of a two-layer head for the box deltas and the reconstructions — among host operations that
  normalise the prototypes and weigh the priors. Every region maps rows to rows: grid point `t` of a region reads a block of
  rows of its first operand and the whole weights and writes the same rows of its outputs, and the blocks tile the arrays. So
  each result is known row by row (Proof/RowSpec.lean says what a row is), for the implementation from the run of its seven
  segments with the four result buffers named (Proof/ResultsRun.lean, Proof/KernelRows.lean and the region modules under
  them) and for the reference from its host operations read one at a time (Proof/RefRows.lean). The two agree
  operation for operation: a change of float format is the identity, a matrix unit's product and the host's are the same
  sum, a lane reduction and a host reduction are the same sum or the same maximum, and the kernel's `0 - d` is the
  reference's `-d`. No law used needs a finite input, so the precondition is never opened. The ideal pass rewrote nothing,
  so the idealized kernel program is the kernel program's own text and its sanctioned idealization trivially.
-/
import proofs.«138867_j36335423324183_1_alg».proof.Defs
import proofs.«138867_j36335423324183_1_alg».proof.Proof.Gen.Kernel
import proofs.«138867_j36335423324183_1_alg».proof.Proof.Gen.Kernel.Skeleton
import proofs.«138867_j36335423324183_1_alg».proof.Proof.Gen.Kernel.Launch
import proofs.«138867_j36335423324183_1_alg».proof.Proof.Gen.Kernel.Points
import proofs.«138867_j36335423324183_1_alg».proof.Proof.Gen.Kernel.Frame
import proofs.«138867_j36335423324183_1_alg».proof.Proof.Gen.KernelIdeal
import proofs.«138867_j36335423324183_1_alg».proof.Proof.Gen.KernelIdeal.Skeleton
import proofs.«138867_j36335423324183_1_alg».proof.Proof.Gen.KernelIdeal.Launch
import proofs.«138867_j36335423324183_1_alg».proof.Proof.Gen.KernelIdeal.Points
import proofs.«138867_j36335423324183_1_alg».proof.Proof.Gen.KernelIdeal.Frame
import proofs.«138867_j36335423324183_1_alg».proof.Proof.Gen.ReferenceIdeal
import proofs.«138867_j36335423324183_1_alg».proof.Proof.Gen.Pre_finite_inputs
import proofs.«138867_j36335423324183_1_alg».proof.Proof.RefRun
import proofs.«138867_j36335423324183_1_alg».proof.Proof.RefRead
import proofs.«138867_j36335423324183_1_alg».proof.Proof.ResultsRun
import proofs.«138867_j36335423324183_1_alg».proof.Proof.KernelRows
import proofs.«138867_j36335423324183_1_alg».proof.Proof.RefEmb
import proofs.«138867_j36335423324183_1_alg».proof.Proof.RefBoxes
import proofs.«138867_j36335423324183_1_alg».proof.Proof.RefRebuilt
import proofs.«138867_j36335423324183_1_alg».proof.Proof.RefScores
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx
open Cert.RowSpec

/-! ## The two programs' results are one array each -/

section Agree

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)

/-- The reference's embeddings of the implementation's arguments are the implementation's. -/
theorem emb_agree :
    Cert.ReferenceIdeal.ReadP.val_main_v15 (F := Ideal) (m ((c : Thread Cert.KernelIdeal.nD Cert.KernelIdeal.τ).loc Cert.KernelIdeal.main_arg0)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7))
      = Cert.KernelIdeal.Gen.W7 m ρ c (Proc.devRef .tc Cert.KernelIdeal.main_v26_0) := by
  funext i
  obtain ⟨n, d, rfl⟩ : ∃ (n : Fin 8192) (d : Fin 256), i = ix2 n d := ⟨i 0, i 1, eq_ix2 i⟩
  rw [Cert.ReferenceIdeal.Rows.emb_row, Cert.KernelIdeal.Rows.emb_row]
  rfl

/-- The reference's box deltas of the implementation's arguments are the implementation's. -/
theorem boxes_agree :
    Cert.ReferenceIdeal.ReadP.val_main_v28 (F := Ideal) (m ((c : Thread Cert.KernelIdeal.nD Cert.KernelIdeal.τ).loc Cert.KernelIdeal.main_arg0)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10)) (m ((c : Thread Cert.KernelIdeal.nD Cert.KernelIdeal.τ).loc Cert.KernelIdeal.main_arg11))
      = Cert.KernelIdeal.Gen.W7 m ρ c (Proc.devRef .tc Cert.KernelIdeal.main_v31) := by
  funext i
  obtain ⟨n, j, rfl⟩ : ∃ (n : Fin 8192) (j : Fin 84), i = ix2 n j := ⟨i 0, i 1, eq_ix2 i⟩
  rw [Cert.ReferenceIdeal.Rows.boxes_row, Cert.KernelIdeal.Rows.boxes_row]

/-- The reference's reconstructions of the implementation's arguments are the implementation's. -/
theorem rebuilt_agree :
    Cert.ReferenceIdeal.ReadP.val_main_v87 (F := Ideal) (m ((c : Thread Cert.KernelIdeal.nD Cert.KernelIdeal.τ).loc Cert.KernelIdeal.main_arg0)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg12)) (m ((c : Thread Cert.KernelIdeal.nD Cert.KernelIdeal.τ).loc Cert.KernelIdeal.main_arg13)) (m ((c : Thread Cert.KernelIdeal.nD Cert.KernelIdeal.τ).loc Cert.KernelIdeal.main_arg14)) (m ((c : Thread Cert.KernelIdeal.nD Cert.KernelIdeal.τ).loc Cert.KernelIdeal.main_arg15))
      = Cert.KernelIdeal.Gen.W7 m ρ c (Proc.devRef .tc Cert.KernelIdeal.main_v36) := by
  funext i
  obtain ⟨n, j, rfl⟩ : ∃ (n : Fin 8192) (j : Fin 12544), i = ix2 n j := ⟨i 0, i 1, eq_ix2 i⟩
  rw [Cert.ReferenceIdeal.Rows.rebuilt_row, Cert.KernelIdeal.Rows.rebuilt_row]
  simp only [Cert.ReferenceIdeal.Rows.emb_row]
  rfl

/-- The reference's scores of the implementation's arguments are the implementation's. -/
theorem scores_agree :
    Cert.ReferenceIdeal.ReadP.val_main_v74 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7))
      = Cert.KernelIdeal.Gen.W7 m ρ c (Proc.devRef .tc Cert.KernelIdeal.main_v26_1) := by
  funext i
  obtain ⟨n, j, rfl⟩ : ∃ (n : Fin 8192) (j : Fin 21), i = ix2 n j := ⟨i 0, i 1, eq_ix2 i⟩
  rw [Cert.ReferenceIdeal.Rows.scores_row, Cert.KernelIdeal.Rows.scores_row]
  simp only [Cert.ReferenceIdeal.Rows.emb_row]
  rfl

end Agree

/-! ## The claims -/

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the results dropped. -/
theorem frame_ri : Cert.frame_ReferenceIdeal := fun m ρ _ =>
  (θ_run Cert.ReferenceIdeal.defs _ _).mono (fun _ h c => (h c).2.2.2.2) (Cert.ReferenceIdeal.ValueP.run (F := Ideal) m ρ)

/-- The ideal pass rewrote nothing. -/
theorem preserves : Cert.preserves_Kernel_KernelIdeal := trivial

/-- Both programs run; the implementation ends with its results at the last boundary's contents, and the reference's
    results, at its stages of arguments that agree with the implementation's, are those same arrays. -/
theorem algebraic : Cert.algebraic_KernelIdeal_ReferenceIdeal := by
  intro m ρ m' ρ' _ hagree
  refine ⟨fun c => Cert.KernelIdeal.Gen.W7 m ρ c (Proc.devRef .tc Cert.KernelIdeal.main_v26_1),
    fun c => Cert.KernelIdeal.Gen.W7 m ρ c (Proc.devRef .tc Cert.KernelIdeal.main_v31),
    fun c => Cert.KernelIdeal.Gen.W7 m ρ c (Proc.devRef .tc Cert.KernelIdeal.main_v26_0),
    fun c => Cert.KernelIdeal.Gen.W7 m ρ c (Proc.devRef .tc Cert.KernelIdeal.main_v36),
    Cert.KernelIdeal.Results.run (F := Ideal) m ρ, ?_⟩
  refine (θ_run Cert.ReferenceIdeal.defs _ _).mono (fun r h c => ?_) (Cert.ReferenceIdeal.ValueP.run (F := Ideal) m' ρ')
  obtain ⟨h0, h1, h2, h3, hk⟩ := h c
  obtain ⟨a0, a1, a2, a3, a4, a5, a6, a7, a8, a9, a10, a11, a12, a13, a14, a15⟩ := hagree c
  refine ⟨h0.trans ?_, h1.trans ?_, h2.trans ?_, h3.trans ?_, hk⟩
  · rw [Cert.ReferenceIdeal.ReadP.val_main_v74_eq, a0, a1, a2, a3, a4, a5, a6, a7]
    exact scores_agree m ρ c
  · rw [Cert.ReferenceIdeal.ReadP.val_main_v28_eq, a0, a8, a9, a10, a11]
    exact boxes_agree m ρ c
  · rw [Cert.ReferenceIdeal.ReadP.val_main_v15_eq, a0, a4, a5, a6, a7]
    exact emb_agree m ρ c
  · rw [Cert.ReferenceIdeal.ReadP.val_main_v87_eq, a0, a4, a5, a6, a7, a12, a13, a14, a15]
    exact rebuilt_agree m ρ c

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
